-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg2 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg2 main_v34
  let main_c_13 : IVec S_ 1 := constantI S_ 1 1#1
  let main_v36 : IVec S_ 1 := (fun x v => Host.reduce IntOp.andi x v reducesTo_S100000_S_d0 h_S_) main_v35 main_c_13
  let main_v37 : IVec S_ 1 := andi main_v33 main_v36
  main_v37

def fn_part1 {F : FTy → Type} [FloatOps F] (main_arg2 : IVec S100000 32) (main_arg6 : FVec F S64 .f32) (main_arg7 : FVec F S64x2 .f32) (main_arg8 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg7
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg2 main_v33

def fn {F : FTy → Type} [FloatOps F] (main_arg0 : FVec F S100000x128 .f32) (main_arg1 : IVec S2x640000 32) (main_arg2 : IVec S100000 32) (main_arg3 : FVec F S128x64 .f32) (main_arg4 : FVec F S64 .f32) (main_arg5 : FVec F S64x64 .f32) (main_arg6 : FVec F S64 .f32) (main_arg7 : FVec F S64x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg2 main_arg6 main_arg7 main_arg8 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S100000x1 : Shape := ⟨2, ![100000, 1]⟩
abbrev S256x64 : Shape := ⟨2, ![256, 64]⟩
abbrev S5000x1 : Shape := ⟨2, ![5000, 1]⟩
abbrev S5000x256 : Shape := ⟨2, ![5000, 256]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 59
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .f32⟩
  | .hbm, ⟨23, _⟩ => ⟨S100000x128, .f32⟩
  | .hbm, ⟨24, _⟩ => ⟨S640000x1, .i32⟩
  | .hbm, ⟨25, _⟩ => ⟨S100000x128, .f32⟩
  | .hbm, ⟨26, _⟩ => ⟨S1x64, .f32⟩
  | .hbm, ⟨27, _⟩ => ⟨S1x64, .f32⟩
  | .hbm, ⟨28, _⟩ => ⟨S100000x64, .f32⟩
  | .hbm, ⟨29, _⟩ => ⟨S100000x1, .i32⟩
  | .hbm, ⟨30, _⟩ => ⟨S256x64, .f32⟩
  | .hbm, ⟨31, _⟩ => ⟨S_, .i32⟩
  | .hbm, ⟨32, _⟩ => ⟨S256, .i32⟩
  | .hbm, ⟨33, _⟩ => ⟨S_, .i32⟩
  | .hbm, ⟨34, _⟩ => ⟨S_, .i32⟩
  | .hbm, ⟨35, _⟩ => ⟨S100000, .i32⟩
  | .hbm, ⟨36, _⟩ => ⟨S100000, .i32⟩
  | .hbm, ⟨37, _⟩ => ⟨S_, .i32⟩
  | .hbm, ⟨38, _⟩ => ⟨S100000, .i32⟩
  | .hbm, ⟨39, _⟩ => ⟨S100000, .i1⟩
  | .hbm, ⟨40, _⟩ => ⟨S_, .i32⟩
  | .hbm, ⟨41, _⟩ => ⟨S100000, .i32⟩
  | .hbm, ⟨42, _⟩ => ⟨S100000, .i32⟩
  | .hbm, ⟨43, _⟩ => ⟨S100000, .i32⟩
  | .hbm, ⟨44, _⟩ => ⟨S100000x1, .i32⟩
  | .hbm, ⟨45, _⟩ => ⟨S_, .i32⟩
  | .hbm, ⟨46, _⟩ => ⟨S100000, .i32⟩
  | .hbm, ⟨47, _⟩ => ⟨S256, .i32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256x1, .f32⟩
  | .hbm, ⟨53, _⟩ => ⟨S256x64, .f32⟩
  | .hbm, ⟨54, _⟩ => ⟨S256x64, .f32⟩
  | .hbm, ⟨55, _⟩ => ⟨S256x2, .f32⟩
  | .hbm, ⟨56, _⟩ => ⟨S1x2, .f32⟩
  | .hbm, ⟨57, _⟩ => ⟨S256x2, .f32⟩
  | .hbm, ⟨58, _⟩ => ⟨S256x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x1, .i32⟩
  | .local _ .vmem, ⟨11, _⟩ => ⟨S5000x1, .i32⟩
  | .local _ .vmem, ⟨12, _⟩ => ⟨S5000x64, .f32⟩
  | .local _ .vmem, ⟨13, _⟩ => ⟨S5000x64, .f32⟩
  | .local _ .vmem, ⟨14, _⟩ => ⟨S256x64, .f32⟩
  | .local _ .vmem, ⟨15, _⟩ => ⟨S256x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_c_2 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  shapeCasts_S100000_S100000x1 : S100000.ShapeCasts S100000x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  shapeCasts_S5000x64_S5000x64 : S5000x64.ShapeCasts S5000x64
  bcast_S_S256 : S_.BroadcastsInDim S256 (![] : Fin 0 → Fin S256.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S256_S256x1 : S256.ShapeCasts S256x1
  bcast_S256x1_S256x64_0_1 : S256x1.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x256_S5000x64_S256x64_0_0_1_1_n_n_wf : DotDims.WF S5000x256 S5000x64 S256x64 [0] [0] [1] [1] [] []
  scatter_S256_S100000x1_S100000_n_0_0_1_wf : ScatterDims.WF S256 S100000x1 S100000 [] [0] [0] 1
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S100000x1.size a
  hwx1_0 : ∀ i : grid1.Coords, EltTy.bits .i32 = 32 ∨ (Rect.block (s := S100000x1) S5000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S256x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x64 : Shape := ⟨2, ![100000, 64]⟩
abbrev S1x64 : Shape := ⟨2, ![1, 64]⟩
abbrev S256x64 : Shape := ⟨2, ![256, 64]⟩
abbrev S100000x1 : Shape := ⟨2, ![100000, 1]⟩
abbrev S256x1 : Shape := ⟨2, ![256, 1]⟩
abbrev S256x2 : Shape := ⟨2, ![256, 2]⟩
abbrev S1x2 : Shape := ⟨2, ![1, 2]⟩

abbrev nBuf : Space → Nat
  | .hbm => 60
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .f32⟩
  | .hbm, ⟨23, _⟩ => ⟨S100000x128, .f32⟩
  | .hbm, ⟨24, _⟩ => ⟨S640000x1, .i32⟩
  | .hbm, ⟨25, _⟩ => ⟨S100000x128, .f32⟩
  | .hbm, ⟨26, _⟩ => ⟨S100000x128, .f32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S_, .f32⟩
  | .hbm, ⟨42, _⟩ => ⟨S256x64, .f32⟩
  | .hbm, ⟨43, _⟩ => ⟨S100000x1, .i32⟩
  | .hbm, ⟨44, _⟩ => ⟨S256x64, .f32⟩
  | .hbm, ⟨45, _⟩ => ⟨S_, .f32⟩
  | .hbm, ⟨46, _⟩ => ⟨S100000x1, .f32⟩
  | .hbm, ⟨47, _⟩ => ⟨S_, .f32⟩
  | .hbm, ⟨48, _⟩ => ⟨S256x1, .f32⟩
  | .hbm, ⟨49, _⟩ => ⟨S100000x1, .i32⟩
  | .hbm, ⟨50, _⟩ => ⟨S256x1, .f32⟩
  | .hbm, ⟨51, _⟩ => ⟨S_, .f32⟩
  | .hbm, ⟨52, _⟩ => ⟨S256x1, .f32⟩
  | .hbm, ⟨53, _⟩ => ⟨S256x1, .f32⟩
  | .hbm, ⟨54, _⟩ => ⟨S256x64, .f32⟩
  | .hbm, ⟨55, _⟩ => ⟨S256x64, .f32⟩
  | .hbm, ⟨56, _⟩ => ⟨S256x2, .f32⟩
  | .hbm, ⟨57, _⟩ => ⟨S1x2, .f32⟩
  | .hbm, ⟨58, _⟩ => ⟨S256x2, .f32⟩
  | .hbm, ⟨59, _⟩ => ⟨S256x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_cst : Ref sig .tc := ⟨.hbm, 38, rfl⟩
abbrev main_call1_v0 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S256x1 : S_.BroadcastsInDim S256x1 (![] : Fin 0 → Fin S256x1.rank)
  bcast_S256x1_S256x64_0_1 : S256x1.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256x1_S100000x1_S100000x1_1_0_0_1_wf : ScatterDims.WF S256x1 S100000x1 S100000x1 [1] [0] [0] 1
  dot_S256x64_S64x2_S256x2_1_0_0_1_n_n_wf : DotDims.WF S256x64 S64x2 S256x2 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.KMlp.lean ====
/-
  The first pallas_call (the two-layer perceptron), one grid point at a time. At point t the body reads rows
  5000 t … 5000 t + 4999 of the node features and of the aggregated neighbour features, the two weight matrices and the
  two bias rows, and stores into its output block relu (relu ((x + a) W1 + b1) W2 + b2) of those rows. Nothing is
  carried from one point to the next, so what the output block holds after the body is one function of the six input
  blocks (`mlpBlock`), and the region's invariant is the plain one: the scoped buffers the kernel never names and the
  generator register, untouched.
-/
import proofs.«416541_j73967926772095_1_alg».proof.Proof.Gen.Kernel.Launch
import proofs.«416541_j73967926772095_1_alg».proof.Proof.Gen.Kernel.Skeleton
import proofs.«416541_j73967926772095_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its array's block at every point, whether the pipeline fetched it there
    or left it in place: the window is never cut and never idle, and the body leaves the block as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its array's block at every point, whether the pipeline fetched it there
    or left it in place: the window is never cut and never idle, and the body leaves the block as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its array's block at every point, whether the pipeline fetched it there
    or left it in place: the window is never cut and never idle, and the body leaves the block as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its array's block at every point, whether the pipeline fetched it there
    or left it in place: the window is never cut and never idle, and the body leaves the block as it found it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its array's block at every point, whether the pipeline fetched it there
    or left it in place: the window is never cut and never idle, and the body leaves the block as it found it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its array's block at every point, whether the pipeline fetched it there
    or left it in place: the window is never cut and never idle, and the body leaves the block as it found it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

abbrev rX : Rect S5000x128 := Rect.unit (s := S5000x128) ![0, 0] S5000x128.size inb_S5000x128_S5000x128_0_0
abbrev rW1 : Rect S128x64 := Rect.unit (s := S128x64) ![0, 0] S128x64.size inb_S128x64_S128x64_0_0
abbrev rB : Rect S1x64 := Rect.unit (s := S1x64) ![0, 0] S1x64.size inb_S1x64_S1x64_0_0
abbrev rW2 : Rect S64x64 := Rect.unit (s := S64x64) ![0, 0] S64x64.size inb_S64x64_S64x64_0_0
abbrev rH : Rect S5000x64 := Rect.unit (s := S5000x64) ![0, 0] S5000x64.size inb_S5000x64_S5000x64_0_0

/-- The output block after the body, from the six input blocks: the one store, of the whole block. -/
def mlpBlock (x0 x1 : Vec F S5000x128 .f32) (x2 : Vec F S128x64 .f32) (x3 : Vec F S1x64 .f32) (x4 : Vec F S64x64 .f32) (x5 : Vec F S1x64 .f32) :
    Vec F S5000x64 .f32 :=
  View.canon [⟨rH, k0_pay1 (View.ld x0 rX) (View.ld x1 rX) (View.ld x2 rW1) (View.ld x3 rB) (View.ld x4 rW2) (View.ld x5 rB)⟩]

/-- That one store covers the block. -/
theorem mlpBlock_cover (p0 : Vec F S5000x64 .f32) (y : S5000x64.Idx) :
    ∃ pc ∈ ([⟨rH, p0⟩] : List (View.Piece (Elt F) S5000x64 .f32)), y ∈ pc.1.set :=
  View.cover_of_tiled [⟨rH, p0⟩] S5000x64.size (by rfl) y

/-! ## The body's triple -/

set_option maxHeartbeats 4000000 in
/-- The body on whole staging memrefs, the six inputs at contents `x0 … x5` and the output at anything, runs to its
    continuation with the inputs as they were and the output at `mlpBlock` of them. -/
theorem sound_kernel0 (c : Dev nD) (i : grid0.Coords) (E : Set ℕ)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (x0 x1 : Vec F S5000x128 .f32) (x2 : Vec F S128x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (mlpBlock x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (mlpBlock_cover _)

/-! ## The pipeline's proof data -/

/-- Region 0's proof data on core `c`: the arrays as the region finds them; after the body at point `t` each input's
    buffer still at its block and the output's at `mlpBlock` of the six blocks; the plain invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => mlpBlock (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = mlpBlock (iblk0 V c 0 t) (iblk0 V c 1 t) (iblk0 V c 2 t) (iblk0 V c 3 t) (iblk0 V c 4 t) (iblk0 V c 5 t) := by
  dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: each input's memref holds its block, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c (grid0.coords t) Set.univ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Mlp

end
-- ==== Proof.KPool.lean ====
/-
  The second pallas_call (the segmented sum), one grid point at a time. The kernel keeps a 256 x 64 accumulator in a scratch
  buffer: at the first grid point it zeroes it; at every point it adds to it, for each graph g, the sum of the rows of this
  point's 5000 hidden rows whose graph id is g (a one-hot matrix, transposed, times the rows), and copies the accumulator
  into its output block. So the accumulator after point n is `acc1 n`: one step (`poolStep`) from the zero block at n = 0,
  one step from `acc1 (n - 1)` afterwards, and the output block after point n holds the same. The region's invariant carries
  the scratch at `acc1 (n - 1)` from the second point on; before the first point it is the plain one (the scratch at anything).
-/
import proofs.«416541_j73967926772095_1_alg».proof.Proof.Gen.Kernel.Launch
import proofs.«416541_j73967926772095_1_alg».proof.Proof.Gen.Kernel.Skeleton
import proofs.«416541_j73967926772095_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its array's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its array's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## One point's update -/

/-- The accumulator after a point, from the point's graph ids `b`, its hidden rows `h` and the accumulator before:
    the kernel's own arithmetic (one-hot of the ids against 0 … 255, its transpose times the rows, added). -/
def poolStep (b : Vec F S5000x1 .i32) (h : Vec F S5000x64 .f32) (s : Vec F S256x64 .f32) : Vec F S256x64 .f32 :=
  k1_pay2 b h s

/-- The zero block the first point starts from. -/
def poolZero : Vec F S256x64 .f32 := k1_pay1 (F := F)

theorem off256x64 : (![0, 0] : Fin S256x64.rank → ℕ) = fun _ => 0 := by
  funext a; fin_cases a <;> rfl
theorem off5000x1 : (![0, 0] : Fin S5000x1.rank → ℕ) = fun _ => 0 := by
  funext a; fin_cases a <;> rfl
theorem off5000x64 : (![0, 0] : Fin S5000x64.rank → ℕ) = fun _ => 0 := by
  funext a; fin_cases a <;> rfl

abbrev rAcc : Rect S256x64 := Rect.unit (s := S256x64) ![0, 0] S256x64.size inb_S256x64_S256x64_0_0

theorem rAcc_cover (p : Vec F S256x64 .f32) (L : List (View.Piece (Elt F) S256x64 .f32)) (y : S256x64.Idx) :
    ∃ pc ∈ ((⟨rAcc, p⟩ : View.Piece (Elt F) S256x64 .f32) :: L), y ∈ pc.1.set :=
  ⟨_, List.mem_cons_self, View.mem_set_unit_zero off256x64 inb_S256x64_S256x64_0_0 y⟩

/-! ## The branch on the first grid point -/

/-- The body's one conditional: "this is the first grid point". -/
abbrev isFirst (i : grid1.Coords) : Prop :=
  (Scalar.cmpi .ne (Scalar.extui (Scalar.cmpi .eq (BitVec.ofNat 32 (i 0).val) 0#32)) 0#32) = 1#1

theorem isFirst_iff : ∀ t : Fin cfg1.N, isFirst (grid1.coords t) ↔ t.val % 20 = 0 :=
  (by decide +kernel : ∀ t : Fin grid1.N, isFirst (grid1.coords t) ↔ t.val % 20 = 0)

/-! ## The body's triples -/

set_option maxHeartbeats 4000000 in
/-- At the first grid point: the scratch and the output at anything; afterwards both hold one step from the zero block. -/
theorem sound_kernel1_first (c : Dev nD) (i : grid1.Coords) (hc : isFirst i) (E : Set ℕ)
    (arg1 : Memref sig .tc .vmem S5000x1 .i32) (harg1 : arg1.IsWhole) (arg2 : Memref sig .tc .vmem S5000x64 .f32) (harg2 : arg2.IsWhole)
    (arg3 : Memref sig .tc .vmem S256x64 .f32) (harg3 : arg3.IsWhole) (arg4 : Memref sig .tc .vmem S256x64 .f32) (harg4 : arg4.IsWhole)
    (b : Vec F S5000x1 .i32) (h : Vec F S5000x64 .f32) (K : PUnit → sProp 𝕄) :
    iprop(owns (c : Thread nD τ) arg1 fullShare b ∗ owns (c : Thread nD τ) arg2 fullShare h
        ∗ (∃ d, owns (c : Thread nD τ) arg3 fullShare d) ∗ (∃ d, owns (c : Thread nD τ) arg4 fullShare d)
        ∗ (iprop(owns (c : Thread nD τ) arg1 fullShare b ∗ owns (c : Thread nD τ) arg2 fullShare h
            ∗ owns (c : Thread nD τ) arg3 fullShare (poolStep b h (poolZero (F := F))) ∗ owns (c : Thread nD τ) arg4 fullShare (poolStep b h (poolZero (F := F)))) -∗ K ⟨⟩))
      ⊢ wp frame (wpE (defs₀ (F := F)) Variants.none c none) E (cc1__pool_kernel i arg1 harg1 arg2 harg2 arg3 harg3 arg4 harg4) K := by
  simp only [cc1__pool_kernel_eq_skeleton]; unfold cc1__pool_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (rAcc_cover _ _)).trans ?_
    rw [View.canon_unit_zero (S := S256x64) off256x64,
      View.readCov_eq_canon_ld _ _ _ (rAcc_cover _ _), View.canon_cons_unit_zero (S := S256x64) off256x64,
      View.ld_unit_zero (S := S256x64) off256x64]
    simp only [View.readAt_eq_ld, View.ld_unit_zero (S := S5000x1) off5000x1, View.ld_unit_zero (S := S5000x64) off5000x64,
      View.ld_unit_zero (S := S256x64) off256x64, View.readCov_unit_zero (S := S256x64) _ off256x64]
    rfl
  iexists _; isplitr
  swap; · iexact H3
  ipureintro
  refine (View.read_writes_eq_canon _ _ _ (rAcc_cover _ _)).trans ?_
  rw [View.canon_cons_unit_zero (S := S256x64) off256x64]
  simp only [View.readAt_eq_ld, View.ld_unit_zero (S := S5000x1) off5000x1, View.ld_unit_zero (S := S5000x64) off5000x64,
    View.ld_unit_zero (S := S256x64) off256x64, View.readCov_unit_zero (S := S256x64) _ off256x64]
  rfl

set_option maxHeartbeats 4000000 in
/-- At a later grid point: the scratch at `s`, the output at anything; afterwards both hold one step from `s`. -/
theorem sound_kernel1_later (c : Dev nD) (i : grid1.Coords) (hc : ¬isFirst i) (E : Set ℕ)
    (arg1 : Memref sig .tc .vmem S5000x1 .i32) (harg1 : arg1.IsWhole) (arg2 : Memref sig .tc .vmem S5000x64 .f32) (harg2 : arg2.IsWhole)
    (arg3 : Memref sig .tc .vmem S256x64 .f32) (harg3 : arg3.IsWhole) (arg4 : Memref sig .tc .vmem S256x64 .f32) (harg4 : arg4.IsWhole)
    (b : Vec F S5000x1 .i32) (h : Vec F S5000x64 .f32) (s : Vec F S256x64 .f32) (K : PUnit → sProp 𝕄) :
    iprop(owns (c : Thread nD τ) arg1 fullShare b ∗ owns (c : Thread nD τ) arg2 fullShare h
        ∗ (∃ d, owns (c : Thread nD τ) arg3 fullShare d) ∗ owns (c : Thread nD τ) arg4 fullShare s
        ∗ (iprop(owns (c : Thread nD τ) arg1 fullShare b ∗ owns (c : Thread nD τ) arg2 fullShare h
            ∗ owns (c : Thread nD τ) arg3 fullShare (poolStep b h s) ∗ owns (c : Thread nD τ) arg4 fullShare (poolStep b h s)) -∗ K ⟨⟩))
      ⊢ wp frame (wpE (defs₀ (F := F)) Variants.none c none) E (cc1__pool_kernel i arg1 harg1 arg2 harg2 arg3 harg3 arg4 harg4) K := by
  simp only [cc1__pool_kernel_eq_skeleton]; unfold cc1__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (rAcc_cover _ _)).trans ?_
    rw [View.canon_unit_zero (S := S256x64) off256x64,
      View.readCov_eq_canon_ld _ _ _ (rAcc_cover _ _), View.canon_cons_unit_zero (S := S256x64) off256x64,
      View.ld_unit_zero (S := S256x64) off256x64]
    simp only [View.readAt_eq_ld, View.ld_unit_zero (S := S5000x1) off5000x1, View.ld_unit_zero (S := S5000x64) off5000x64,
      View.ld_unit_zero (S := S256x64) off256x64, View.readCov_unit_zero (S := S256x64) _ off256x64]
    rfl
  iexists _; isplitr
  swap; · iexact H3
  ipureintro
  refine (View.read_writes_eq_canon _ _ _ (rAcc_cover _ _)).trans ?_
  rw [View.canon_cons_unit_zero (S := S256x64) off256x64]
  simp only [View.readAt_eq_ld, View.ld_unit_zero (S := S5000x1) off5000x1, View.ld_unit_zero (S := S5000x64) off5000x64,
    View.ld_unit_zero (S := S256x64) off256x64, View.readCov_unit_zero (S := S256x64) _ off256x64]
  rfl

/-! ## The accumulator point by point -/

/-- What the scratch (and the output block) hold after the body at position `n`. -/
def acc1 (c : Dev nD) : (n : ℕ) → n < cfg1.N → Vec F S256x64 .f32
  | 0, hn => poolStep (iblk1 V c 0 ⟨0, hn⟩) (iblk1 V c 1 ⟨0, hn⟩) poolZero
  | n + 1, hn => poolStep (iblk1 V c 0 ⟨n + 1, hn⟩) (iblk1 V c 1 ⟨n + 1, hn⟩) (acc1 c n (Nat.lt_of_succ_lt hn))

theorem acc1_zero (c : Dev nD) (t : Fin cfg1.N) (h0 : t.val = 0) :
    acc1 V c t.val t.isLt = poolStep (iblk1 V c 0 t) (iblk1 V c 1 t) poolZero := by
  obtain ⟨n, hn⟩ := t
  cases n with
  | zero => rfl
  | succ n => exact absurd h0 (Nat.succ_ne_zero n)

theorem acc1_pos (c : Dev nD) (t : Fin cfg1.N) (h0 : t.val ≠ 0) :
    acc1 V c t.val t.isLt
      = poolStep (iblk1 V c 0 t) (iblk1 V c 1 t) (acc1 V c (t.val - 1) (Nat.lt_of_le_of_lt (Nat.sub_le _ _) t.isLt)) := by
  obtain ⟨n, hn⟩ := t
  cases n with
  | zero => exact absurd rfl h0
  | succ n => rfl

/-! ## The region's invariant -/

/-- The kernel's scratch operand as a memref. -/
abbrev scM : Memref sig .tc .vmem S256x64 .f32 := Memref.whole cc1_scratch0

/-- The scoped buffers the kernel never names: the other pallas_call's staging buffers. -/
abbrev others (c : Dev nD) : sProp 𝕄 :=
  Pipeline.scopedRestBut (Ix := Unit) (Name := ℕ) (U := UR sig nD τ) (Lvl := ℕ) (Val := Elt F) spec1 c [cc1_scratch0]

/-- The plain invariant with the scratch split out and owned as a memref at some contents. -/
theorem PhiA1_eq (c : Dev nD) :
    (Pipeline.ΦA spec1 c : sProp 𝕄)
      = iprop(iprop((∃ d, owns (c : Thread nD τ) scM fullShare d) ∗ others (F := F) c) ∗ (∃ r, prngReg c r)) := by
  unfold Pipeline.ΦA
  rw [Pipeline.scopedRest_split_of_list spec1 c [cc1_scratch0] (by decide) (by decide)]
  simp only [scM, owns_whole, bigSepL]
  try rfl

/-- Before position `n`: the plain invariant before the first point; afterwards the scratch at what the point before left. -/
def PhiS1 (c : Dev nD) : (n : ℕ) → n ≤ cfg1.N → sProp 𝕄
  | 0, _ => Pipeline.ΦA spec1 c
  | n + 1, hn => iprop(iprop(owns (c : Thread nD τ) scM fullShare (acc1 V c n hn) ∗ others (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM fullShare (acc1 V c n hn) ∗ others (F := F) c) ∗ (∃ r, prngReg c r)) := rfl

theorem PhiS1_pos (c : Dev nD) (n : ℕ) (h : n ≤ cfg1.N) (hz : n ≠ 0) :
    PhiS1 V c n h = iprop(iprop(owns (c : Thread nD τ) scM fullShare (acc1 V c (n - 1) (by omega)) ∗ others (F := F) c) ∗ (∃ r, prngReg c r)) := by
  cases n with
  | zero => exact absurd rfl hz
  | succ n => rfl

/-! ## The pipeline's proof data -/

/-- Region 1's proof data on core `c`: the arrays as the region finds them; after the body at point `t` the two inputs'
    buffers still at their blocks and the output's at the accumulator; the invariant carrying the scratch; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
/-- The body at any point, by cases on whether it is the first: the invariant hands over the scratch (at anything at the first
    point, at the accumulator so far afterwards) and takes it back at the accumulator after this point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = PhiS1 V c (t.val + 1) t.isLt from rfl, PhiS1_succ,
    after1_0, after1_1, after1_2, PhiS1_castSucc V c t]
  have hN : t.val < 20 := lt_of_lt_of_eq t.isLt (show cfg1.N = 20 from N_1)
  by_cases hz : t.val = 0
  · have hc : isFirst (grid1.coords t) := (isFirst_iff t).mpr (by omega)
    rw [PhiS1_zero V c _ _ hz, PhiA1_eq, acc1_zero V c t hz]
    iintro ⟨⟨⟨HS, Hrest⟩, Hg⟩, Ho, ⟨%d0, H0⟩, ⟨%d1, H1⟩, ⟨%d2, H2⟩⟩
    iapply (sound_kernel1_first c (grid1.coords t) hc Set.univ _ _ _ _ _ _ _ _ (iblk1 V c 0 t) (iblk1 V c 1 t) _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · have hc : ¬isFirst (grid1.coords t) := fun h => hz (by have := (isFirst_iff t).mp h; omega)
    rw [PhiS1_pos V c _ _ hz, acc1_pos V c t hz]
    iintro ⟨⟨⟨HS, Hrest⟩, Hg⟩, Ho, ⟨%d0, H0⟩, ⟨%d1, H1⟩, ⟨%d2, H2⟩⟩
    iapply (sound_kernel1_later c (grid1.coords t) hc Set.univ _ _ _ _ _ _ _ _ (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2

/-- The pipeline's body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the accumulator's value in the scratch is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), PhiA1_eq]
  iintro ⟨⟨HS, Hrest⟩, Hg⟩
  isplitl [HS Hrest]
  · isplitl [HS]; · iexists _; iexact HS
    iexact Hrest
  iexact Hg

end Cert.Kernel.Pool

end
-- ==== Proof.KRun.lean ====
/-
  The whole program as a run of host stretches and the two pallas_calls. Between two items a core holds every unscoped buffer
  at a known valuation: the launch memory, then each host stretch applied to it, then, after a pallas_call, the one array the
  call may change at what its write-backs leave and everything else as before. The first call may change only its output
  array (the hidden features), the second only its own (the pooled sums); an input array of a call ends as it was entered,
  because no point writes it back. Each call enters from the valuation before it and leaves at the one after it; beside the
  buffers ride the generator register, at some state, and the fact that the core owes nothing.
-/
import proofs.«416541_j73967926772095_1_alg».proof.Proof.Gen.Kernel.Regions
import proofs.«416541_j73967926772095_1_alg».proof.Proof.KMlp
import proofs.«416541_j73967926772095_1_alg».proof.Proof.KPool
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each pallas_call is entered with and what it leaves -/

/-- What the first call is entered with: the launch memory after the first host stretch. -/
abbrev En0 : (c : Dev nD) → (b : Ref sig .tc) → Buf (Elt F) ((c : Thread nD τ).loc b) := fun c b => V1 m c b

/-- The buffers after the first call: its arrays at what its write-backs leave, every other buffer as entered. -/
def X2 (c : Dev nD) : Valuation τ sig (Elt F) :=
  Pipeline.withArrays spec0 c (V1 m c) fun w => (Mlp.dat0 (En0 m) c).arrAt w cfg0.N

/-- The first call's exit contents of the one array it may change, as the unknown the generated valuations are written over. -/
def outs0 : Outs (F := F) := fun _ r c => X2 m c r

/-- What the second call is entered with: that, after the reshape of the graph ids to a column. -/
abbrev En1 : (c : Dev nD) → (b : Ref sig .tc) → Buf (Elt F) ((c : Thread nD τ).loc b) := fun c b => V3 m (outs0 m) c b

/-- The buffers after the second call. -/
def X4 (c : Dev nD) : Valuation τ sig (Elt F) :=
  Pipeline.withArrays spec1 c (V3 m (outs0 m) c) fun w => (Pool.dat1 (En1 m) c).arrAt w cfg1.N

/-- What the two calls leave in the arrays they may change: item 2 is the first call, item 4 the second. -/
def outs : Outs (F := F) := fun J r c => if J = 2 then X2 m c r else X4 m c r

theorem outs_two (r : Ref sig .tc) (c : Dev nD) : outs m 2 r c = X2 m c r := if_pos rfl
theorem outs_four (r : Ref sig .tc) (c : Dev nD) : outs m 4 r c = X4 m c r := if_neg (by decide)

/-- Up to the second call's entry only the first call's exit contents are read. -/
theorem V2_outs (c : Dev nD) : V2 m (outs m) c = V2 m (outs0 m) c := by
  unfold V2; rw [outs_two]; rfl
theorem V3_outs (c : Dev nD) : V3 m (outs m) c = V3 m (outs0 m) c := by
  unfold V3; rw [V2_outs]

/-- The first call's output array after the call. -/
theorem V2_out (c : Dev nD) : V2 m (outs m) c main_v16 = (Mlp.dat0 (En0 m) c).arrAt 6 cfg0.N := by
  unfold V2; rw [Function.update_self, outs_two]
  exact Pipeline.withArrays_arr spec0 launch0.win.arr_inj c _ _ 6

/-- The second call's output array after the call. -/
theorem V4_out (c : Dev nD) : V4 m (outs m) c main_v18 = (Pool.dat1 (En1 m) c).arrAt 2 cfg1.N := by
  unfold V4; rw [Function.update_self, outs_four]
  exact Pipeline.withArrays_arr spec1 launch1.win.arr_inj c _ _ 2

/-! ## The proof data family -/

/-- Each pipeline's proof data at its call's entry contents: a literal match on the pipeline. -/
def pdats : (p : Fin 2) → (c : Dev nD) → Dat τ (Elt F) Unit ℕ (UR sig nD τ) ℕ (cfgs p) c
  | ⟨0, _⟩ => fun c => Mlp.dat0 (En0 m) c
  | ⟨1, _⟩ => fun c => Pool.dat1 (En1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 := iprop((∃ r, prngReg c r) ∗ ∃ W, owes (c : Thread nD τ) (0 : CellTallies nD τ sig Unit) W)

/-- The contents after the first call as a function of the references, and after the second. -/
abbrev Ex0 : (c : Dev nD) → (b : Ref sig .tc) → Buf (Elt F) ((c : Thread nD τ).loc b) := fun c b => V2 m (outs m) c b
abbrev En1' : (c : Dev nD) → (b : Ref sig .tc) → Buf (Elt F) ((c : Thread nD τ).loc b) := fun c b => V3 m (outs m) c b
abbrev Ex1 : (c : Dev nD) → (b : Ref sig .tc) → Buf (Elt F) ((c : Thread nD τ).loc b) := fun c b => V4 m (outs m) c b

/-! ## Each call's arrays at its exit: the output at what the write-backs leave, an input as entered -/

theorem hF0 (c : Dev nD) (w : Fin cfg0.W) : (Mlp.dat0 (En0 m) c).arrAt w cfg0.N = Ex0 m c (Pipeline.arrRef spec0 w) := by
  have hin : ∀ w' : Fin cfg0.W, (cfg0.win w').isOut = false → Pipeline.arrRef spec0 w' ∉ ([main_v16] : List (Ref sig .tc)) →
      (Mlp.dat0 (En0 m) c).arrAt w' cfg0.N = Ex0 m c (Pipeline.arrRef spec0 w') := fun w' hi hn =>
    (((Mlp.dat0 (En0 m) c).arrAt_in w' hi _).trans (Mlp.A_eq0 (En0 m) c w')).trans (V2_of m (outs m) c _ hn).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact (V2_out m c).symm

theorem hrest0 (c : Dev nD) : ∀ b, b ∉ Finset.univ.image (Pipeline.arrRef spec0) → Ex0 m c b = En0 m c b :=
  fun b hb => V2_of m (outs m) c b (fun h => hb (Finset.mem_image.mpr ⟨6, Finset.mem_univ _, (List.mem_singleton.mp h).symm⟩))

theorem hF1 (c : Dev nD) (w : Fin cfg1.W) : (Pool.dat1 (En1 m) c).arrAt w cfg1.N = Ex1 m c (Pipeline.arrRef spec1 w) := by
  have hin : ∀ w' : Fin cfg1.W, (cfg1.win w').isOut = false → Pipeline.arrRef spec1 w' ∉ ([main_v18] : List (Ref sig .tc)) →
      (Pool.dat1 (En1 m) c).arrAt w' cfg1.N = Ex1 m c (Pipeline.arrRef spec1 w') := fun w' hi hn =>
    (((Pool.dat1 (En1 m) c).arrAt_in w' hi _).trans (Pool.A_eq1 (En1 m) c w')).trans
      ((V4_of m (outs m) c _ hn).trans (congrFun (V3_outs m c) _)).symm
  match w with
  | ⟨0, _⟩ => exact hin 0 rfl (by decide)
  | ⟨1, _⟩ => exact hin 1 rfl (by decide)
  | ⟨2, _⟩ => exact (V4_out m c).symm

theorem hrest1 (c : Dev nD) : ∀ b, b ∉ Finset.univ.image (Pipeline.arrRef spec1) → Ex1 m c b = En1 m c b :=
  fun b hb => (V4_of m (outs m) c b (fun h => hb (Finset.mem_image.mpr ⟨2, Finset.mem_univ _, (List.mem_singleton.mp h).symm⟩))).trans
    (congrFun (V3_outs m c) _)

/-! ## The two calls as segments -/

set_option backward.isDefEq.respectTransparency.types false in
/-- The first call: entered from every unscoped buffer at the valuation before it, left at the one after it. Its arrays are
    split out of the unscoped buffers and put back at their exit contents; the generator register goes into the plain
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mlp.body_obligation0 (En0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, the same way; its invariant carries the accumulator's scratch from the second point on, is the plain one
    before the first point, and gives the plain one back after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pool.body_obligation1 (En1 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none, V3_outs m c]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ Pipeline.ΦA spec1 c from by
      unfold Pipeline.ΦA
      iintro ⟨Hp, -, Hr⟩
      isplitl [Hr]; · iexact Hr
      iexact Hp).trans (Pool.hin1 (En1 m) c)
  hout c := by
    rw [Pipeline.ownSems0_none]
    exact (Pool.hout1 (En1 m) c).trans (show Pipeline.ΦA spec1 c ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's resources -/

/-- The launch element: the pipeline library's own, at every pipeline's staging cells. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core, but for its buffers, makes the rest state. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-! ## The frame -/

set_option backward.isDefEq.respectTransparency.types false in
/-- From any memory with zero counters every weakly fair execution of the program terminates, nothing faulting, and every
    argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m (emb₁ : Emb (UR sig nD τ) 𝕄) () 𝒱₀ L lv (fun _ _ => rfl) ρ (outs m) (pdats m)
    (0 : Dev nD → CellTallies nD τ sig Unit) (fun _ => (BI.emp : sProp 𝕄)) u₀ hu₀
    (fun _ c => R c) (hE0 ρ) (fun c => by iintro ⟨-, HO⟩; iexact HO)
    (reg0 m) (fun _ => .rfl) (fun _ => .rfl) (reg1 m) (fun _ => .rfl) (fun _ => .rfl)

end Cert.Kernel.Whole

end
-- ==== Proof.KIMlp.lean ====
/-
  The first pallas_call (the two-layer perceptron), one grid point at a time. At point t the body reads rows
  5000 t … 5000 t + 4999 of the node features and of the aggregated neighbour features, the two weight matrices and the
  two bias rows, and stores into its output block relu (relu ((x + a) W1 + b1) W2 + b2) of those rows. Nothing is
  carried from one point to the next, so what the output block holds after the body is one function of the six input
  blocks (`mlpBlock`), and the region's invariant is the plain one: the scoped buffers the kernel never names and the
  generator register, untouched.
-/
import proofs.«416541_j73967926772095_1_alg».proof.Proof.Gen.KernelIdeal.Launch
import proofs.«416541_j73967926772095_1_alg».proof.Proof.Gen.KernelIdeal.Skeleton
import proofs.«416541_j73967926772095_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its array's block at every point, whether the pipeline fetched it there
    or left it in place: the window is never cut and never idle, and the body leaves the block as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its array's block at every point, whether the pipeline fetched it there
    or left it in place: the window is never cut and never idle, and the body leaves the block as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its array's block at every point, whether the pipeline fetched it there
    or left it in place: the window is never cut and never idle, and the body leaves the block as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its array's block at every point, whether the pipeline fetched it there
    or left it in place: the window is never cut and never idle, and the body leaves the block as it found it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its array's block at every point, whether the pipeline fetched it there
    or left it in place: the window is never cut and never idle, and the body leaves the block as it found it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its array's block at every point, whether the pipeline fetched it there
    or left it in place: the window is never cut and never idle, and the body leaves the block as it found it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

abbrev rX : Rect S5000x128 := Rect.unit (s := S5000x128) ![0, 0] S5000x128.size inb_S5000x128_S5000x128_0_0
abbrev rW1 : Rect S128x64 := Rect.unit (s := S128x64) ![0, 0] S128x64.size inb_S128x64_S128x64_0_0
abbrev rB : Rect S1x64 := Rect.unit (s := S1x64) ![0, 0] S1x64.size inb_S1x64_S1x64_0_0
abbrev rW2 : Rect S64x64 := Rect.unit (s := S64x64) ![0, 0] S64x64.size inb_S64x64_S64x64_0_0
abbrev rH : Rect S5000x64 := Rect.unit (s := S5000x64) ![0, 0] S5000x64.size inb_S5000x64_S5000x64_0_0

/-- The output block after the body, from the six input blocks: the one store, of the whole block. -/
def mlpBlock (x0 x1 : Vec F S5000x128 .f32) (x2 : Vec F S128x64 .f32) (x3 : Vec F S1x64 .f32) (x4 : Vec F S64x64 .f32) (x5 : Vec F S1x64 .f32) :
    Vec F S5000x64 .f32 :=
  View.canon [⟨rH, k0_pay1 (View.ld x0 rX) (View.ld x1 rX) (View.ld x2 rW1) (View.ld x3 rB) (View.ld x4 rW2) (View.ld x5 rB)⟩]

/-- That one store covers the block. -/
theorem mlpBlock_cover (p0 : Vec F S5000x64 .f32) (y : S5000x64.Idx) :
    ∃ pc ∈ ([⟨rH, p0⟩] : List (View.Piece (Elt F) S5000x64 .f32)), y ∈ pc.1.set :=
  View.cover_of_tiled [⟨rH, p0⟩] S5000x64.size (by rfl) y

/-! ## The body's triple -/

set_option maxHeartbeats 4000000 in
/-- The body on whole staging memrefs, the six inputs at contents `x0 … x5` and the output at anything, runs to its
    continuation with the inputs as they were and the output at `mlpBlock` of them. -/
theorem sound_kernel0 (c : Dev nD) (i : grid0.Coords) (E : Set ℕ)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole)
    (x0 x1 : Vec F S5000x128 .f32) (x2 : Vec F S128x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (mlpBlock x0 x1 x2 x3 x4 x5)) -∗ K ⟨⟩))
      ⊢ wp frame (wpE (defs₀ (F := F)) Variants.none c none) E (cc0__mlp_kernel i arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (mlpBlock_cover _)

/-! ## The pipeline's proof data -/

/-- Region 0's proof data on core `c`: the arrays as the region finds them; after the body at point `t` each input's
    buffer still at its block and the output's at `mlpBlock` of the six blocks; the plain invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => mlpBlock (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = mlpBlock (iblk0 V c 0 t) (iblk0 V c 1 t) (iblk0 V c 2 t) (iblk0 V c 3 t) (iblk0 V c 4 t) (iblk0 V c 5 t) := by
  dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: each input's memref holds its block, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c (grid0.coords t) Set.univ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Mlp

end
-- ==== Proof.KIPool.lean ====
/-
  The second pallas_call (the segmented sum), one grid point at a time. The kernel keeps a 256 x 64 accumulator in a scratch
  buffer: at the first grid point it zeroes it; at every point it adds to it, for each graph g, the sum of the rows of this
  point's 5000 hidden rows whose graph id is g (a one-hot matrix, transposed, times the rows), and copies the accumulator
  into its output block. So the accumulator after point n is `acc1 n`: one step (`poolStep`) from the zero block at n = 0,
  one step from `acc1 (n - 1)` afterwards, and the output block after point n holds the same. The region's invariant carries
  the scratch at `acc1 (n - 1)` from the second point on; before the first point it is the plain one (the scratch at anything).
-/
import proofs.«416541_j73967926772095_1_alg».proof.Proof.Gen.KernelIdeal.Launch
import proofs.«416541_j73967926772095_1_alg».proof.Proof.Gen.KernelIdeal.Skeleton
import proofs.«416541_j73967926772095_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its array's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its array's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## One point's update -/

/-- The accumulator after a point, from the point's graph ids `b`, its hidden rows `h` and the accumulator before:
    the kernel's own arithmetic (one-hot of the ids against 0 … 255, its transpose times the rows, added). -/
def poolStep (b : Vec F S5000x1 .i32) (h : Vec F S5000x64 .f32) (s : Vec F S256x64 .f32) : Vec F S256x64 .f32 :=
  k1_pay2 b h s

/-- The zero block the first point starts from. -/
def poolZero : Vec F S256x64 .f32 := k1_pay1 (F := F)

theorem off256x64 : (![0, 0] : Fin S256x64.rank → ℕ) = fun _ => 0 := by
  funext a; fin_cases a <;> rfl
theorem off5000x1 : (![0, 0] : Fin S5000x1.rank → ℕ) = fun _ => 0 := by
  funext a; fin_cases a <;> rfl
theorem off5000x64 : (![0, 0] : Fin S5000x64.rank → ℕ) = fun _ => 0 := by
  funext a; fin_cases a <;> rfl

abbrev rAcc : Rect S256x64 := Rect.unit (s := S256x64) ![0, 0] S256x64.size inb_S256x64_S256x64_0_0

theorem rAcc_cover (p : Vec F S256x64 .f32) (L : List (View.Piece (Elt F) S256x64 .f32)) (y : S256x64.Idx) :
    ∃ pc ∈ ((⟨rAcc, p⟩ : View.Piece (Elt F) S256x64 .f32) :: L), y ∈ pc.1.set :=
  ⟨_, List.mem_cons_self, View.mem_set_unit_zero off256x64 inb_S256x64_S256x64_0_0 y⟩

/-! ## The branch on the first grid point -/

/-- The body's one conditional: "this is the first grid point". -/
abbrev isFirst (i : grid1.Coords) : Prop :=
  (Scalar.cmpi .ne (Scalar.extui (Scalar.cmpi .eq (BitVec.ofNat 32 (i 0).val) 0#32)) 0#32) = 1#1

theorem isFirst_iff : ∀ t : Fin cfg1.N, isFirst (grid1.coords t) ↔ t.val % 20 = 0 :=
  (by decide +kernel : ∀ t : Fin grid1.N, isFirst (grid1.coords t) ↔ t.val % 20 = 0)

/-! ## The body's triples -/

set_option maxHeartbeats 4000000 in
/-- At the first grid point: the scratch and the output at anything; afterwards both hold one step from the zero block. -/
theorem sound_kernel1_first (c : Dev nD) (i : grid1.Coords) (hc : isFirst i) (E : Set ℕ)
    (arg1 : Memref sig .tc .vmem S5000x1 .i32) (harg1 : arg1.IsWhole) (arg2 : Memref sig .tc .vmem S5000x64 .f32) (harg2 : arg2.IsWhole)
    (arg3 : Memref sig .tc .vmem S256x64 .f32) (harg3 : arg3.IsWhole) (arg4 : Memref sig .tc .vmem S256x64 .f32) (harg4 : arg4.IsWhole)
    (b : Vec F S5000x1 .i32) (h : Vec F S5000x64 .f32) (K : PUnit → sProp 𝕄) :
    iprop(owns (c : Thread nD τ) arg1 fullShare b ∗ owns (c : Thread nD τ) arg2 fullShare h
        ∗ (∃ d, owns (c : Thread nD τ) arg3 fullShare d) ∗ (∃ d, owns (c : Thread nD τ) arg4 fullShare d)
        ∗ (iprop(owns (c : Thread nD τ) arg1 fullShare b ∗ owns (c : Thread nD τ) arg2 fullShare h
            ∗ owns (c : Thread nD τ) arg3 fullShare (poolStep b h (poolZero (F := F))) ∗ owns (c : Thread nD τ) arg4 fullShare (poolStep b h (poolZero (F := F)))) -∗ K ⟨⟩))
      ⊢ wp frame (wpE (defs₀ (F := F)) Variants.none c none) E (cc1__pool_kernel i arg1 harg1 arg2 harg2 arg3 harg3 arg4 harg4) K := by
  simp only [cc1__pool_kernel_eq_skeleton]; unfold cc1__pool_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (rAcc_cover _ _)).trans ?_
    rw [View.canon_unit_zero (S := S256x64) off256x64,
      View.readCov_eq_canon_ld _ _ _ (rAcc_cover _ _), View.canon_cons_unit_zero (S := S256x64) off256x64,
      View.ld_unit_zero (S := S256x64) off256x64]
    simp only [View.readAt_eq_ld, View.ld_unit_zero (S := S5000x1) off5000x1, View.ld_unit_zero (S := S5000x64) off5000x64,
      View.ld_unit_zero (S := S256x64) off256x64, View.readCov_unit_zero (S := S256x64) _ off256x64]
    rfl
  iexists _; isplitr
  swap; · iexact H3
  ipureintro
  refine (View.read_writes_eq_canon _ _ _ (rAcc_cover _ _)).trans ?_
  rw [View.canon_cons_unit_zero (S := S256x64) off256x64]
  simp only [View.readAt_eq_ld, View.ld_unit_zero (S := S5000x1) off5000x1, View.ld_unit_zero (S := S5000x64) off5000x64,
    View.ld_unit_zero (S := S256x64) off256x64, View.readCov_unit_zero (S := S256x64) _ off256x64]
  rfl

set_option maxHeartbeats 4000000 in
/-- At a later grid point: the scratch at `s`, the output at anything; afterwards both hold one step from `s`. -/
theorem sound_kernel1_later (c : Dev nD) (i : grid1.Coords) (hc : ¬isFirst i) (E : Set ℕ)
    (arg1 : Memref sig .tc .vmem S5000x1 .i32) (harg1 : arg1.IsWhole) (arg2 : Memref sig .tc .vmem S5000x64 .f32) (harg2 : arg2.IsWhole)
    (arg3 : Memref sig .tc .vmem S256x64 .f32) (harg3 : arg3.IsWhole) (arg4 : Memref sig .tc .vmem S256x64 .f32) (harg4 : arg4.IsWhole)
    (b : Vec F S5000x1 .i32) (h : Vec F S5000x64 .f32) (s : Vec F S256x64 .f32) (K : PUnit → sProp 𝕄) :
    iprop(owns (c : Thread nD τ) arg1 fullShare b ∗ owns (c : Thread nD τ) arg2 fullShare h
        ∗ (∃ d, owns (c : Thread nD τ) arg3 fullShare d) ∗ owns (c : Thread nD τ) arg4 fullShare s
        ∗ (iprop(owns (c : Thread nD τ) arg1 fullShare b ∗ owns (c : Thread nD τ) arg2 fullShare h
            ∗ owns (c : Thread nD τ) arg3 fullShare (poolStep b h s) ∗ owns (c : Thread nD τ) arg4 fullShare (poolStep b h s)) -∗ K ⟨⟩))
      ⊢ wp frame (wpE (defs₀ (F := F)) Variants.none c none) E (cc1__pool_kernel i arg1 harg1 arg2 harg2 arg3 harg3 arg4 harg4) K := by
  simp only [cc1__pool_kernel_eq_skeleton]; unfold cc1__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := exact hc)
  sl_step
  sl_unfold_words
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (rAcc_cover _ _)).trans ?_
    rw [View.canon_unit_zero (S := S256x64) off256x64,
      View.readCov_eq_canon_ld _ _ _ (rAcc_cover _ _), View.canon_cons_unit_zero (S := S256x64) off256x64,
      View.ld_unit_zero (S := S256x64) off256x64]
    simp only [View.readAt_eq_ld, View.ld_unit_zero (S := S5000x1) off5000x1, View.ld_unit_zero (S := S5000x64) off5000x64,
      View.ld_unit_zero (S := S256x64) off256x64, View.readCov_unit_zero (S := S256x64) _ off256x64]
    rfl
  iexists _; isplitr
  swap; · iexact H3
  ipureintro
  refine (View.read_writes_eq_canon _ _ _ (rAcc_cover _ _)).trans ?_
  rw [View.canon_cons_unit_zero (S := S256x64) off256x64]
  simp only [View.readAt_eq_ld, View.ld_unit_zero (S := S5000x1) off5000x1, View.ld_unit_zero (S := S5000x64) off5000x64,
    View.ld_unit_zero (S := S256x64) off256x64, View.readCov_unit_zero (S := S256x64) _ off256x64]
  rfl

/-! ## The accumulator point by point -/

/-- What the scratch (and the output block) hold after the body at position `n`. -/
def acc1 (c : Dev nD) : (n : ℕ) → n < cfg1.N → Vec F S256x64 .f32
  | 0, hn => poolStep (iblk1 V c 0 ⟨0, hn⟩) (iblk1 V c 1 ⟨0, hn⟩) poolZero
  | n + 1, hn => poolStep (iblk1 V c 0 ⟨n + 1, hn⟩) (iblk1 V c 1 ⟨n + 1, hn⟩) (acc1 c n (Nat.lt_of_succ_lt hn))

theorem acc1_zero (c : Dev nD) (t : Fin cfg1.N) (h0 : t.val = 0) :
    acc1 V c t.val t.isLt = poolStep (iblk1 V c 0 t) (iblk1 V c 1 t) poolZero := by
  obtain ⟨n, hn⟩ := t
  cases n with
  | zero => rfl
  | succ n => exact absurd h0 (Nat.succ_ne_zero n)

theorem acc1_pos (c : Dev nD) (t : Fin cfg1.N) (h0 : t.val ≠ 0) :
    acc1 V c t.val t.isLt
      = poolStep (iblk1 V c 0 t) (iblk1 V c 1 t) (acc1 V c (t.val - 1) (Nat.lt_of_le_of_lt (Nat.sub_le _ _) t.isLt)) := by
  obtain ⟨n, hn⟩ := t
  cases n with
  | zero => exact absurd rfl h0
  | succ n => rfl

/-! ## The region's invariant -/

/-- The kernel's scratch operand as a memref. -/
abbrev scM : Memref sig .tc .vmem S256x64 .f32 := Memref.whole cc1_scratch0

/-- The scoped buffers the kernel never names: the other pallas_call's staging buffers. -/
abbrev others (c : Dev nD) : sProp 𝕄 :=
  Pipeline.scopedRestBut (Ix := Unit) (Name := ℕ) (U := UR sig nD τ) (Lvl := ℕ) (Val := Elt F) spec1 c [cc1_scratch0]

/-- The plain invariant with the scratch split out and owned as a memref at some contents. -/
theorem PhiA1_eq (c : Dev nD) :
    (Pipeline.ΦA spec1 c : sProp 𝕄)
      = iprop(iprop((∃ d, owns (c : Thread nD τ) scM fullShare d) ∗ others (F := F) c) ∗ (∃ r, prngReg c r)) := by
  unfold Pipeline.ΦA
  rw [Pipeline.scopedRest_split_of_list spec1 c [cc1_scratch0] (by decide) (by decide)]
  simp only [scM, owns_whole, bigSepL]
  try rfl

/-- Before position `n`: the plain invariant before the first point; afterwards the scratch at what the point before left. -/
def PhiS1 (c : Dev nD) : (n : ℕ) → n ≤ cfg1.N → sProp 𝕄
  | 0, _ => Pipeline.ΦA spec1 c
  | n + 1, hn => iprop(iprop(owns (c : Thread nD τ) scM fullShare (acc1 V c n hn) ∗ others (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM fullShare (acc1 V c n hn) ∗ others (F := F) c) ∗ (∃ r, prngReg c r)) := rfl

theorem PhiS1_pos (c : Dev nD) (n : ℕ) (h : n ≤ cfg1.N) (hz : n ≠ 0) :
    PhiS1 V c n h = iprop(iprop(owns (c : Thread nD τ) scM fullShare (acc1 V c (n - 1) (by omega)) ∗ others (F := F) c) ∗ (∃ r, prngReg c r)) := by
  cases n with
  | zero => exact absurd rfl hz
  | succ n => rfl

/-! ## The pipeline's proof data -/

/-- Region 1's proof data on core `c`: the arrays as the region finds them; after the body at point `t` the two inputs'
    buffers still at their blocks and the output's at the accumulator; the invariant carrying the scratch; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
/-- The body at any point, by cases on whether it is the first: the invariant hands over the scratch (at anything at the first
    point, at the accumulator so far afterwards) and takes it back at the accumulator after this point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = PhiS1 V c (t.val + 1) t.isLt from rfl, PhiS1_succ,
    after1_0, after1_1, after1_2, PhiS1_castSucc V c t]
  have hN : t.val < 20 := lt_of_lt_of_eq t.isLt (show cfg1.N = 20 from N_1)
  by_cases hz : t.val = 0
  · have hc : isFirst (grid1.coords t) := (isFirst_iff t).mpr (by omega)
    rw [PhiS1_zero V c _ _ hz, PhiA1_eq, acc1_zero V c t hz]
    iintro ⟨⟨⟨HS, Hrest⟩, Hg⟩, Ho, ⟨%d0, H0⟩, ⟨%d1, H1⟩, ⟨%d2, H2⟩⟩
    iapply (sound_kernel1_first c (grid1.coords t) hc Set.univ _ _ _ _ _ _ _ _ (iblk1 V c 0 t) (iblk1 V c 1 t) _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · have hc : ¬isFirst (grid1.coords t) := fun h => hz (by have := (isFirst_iff t).mp h; omega)
    rw [PhiS1_pos V c _ _ hz, acc1_pos V c t hz]
    iintro ⟨⟨⟨HS, Hrest⟩, Hg⟩, Ho, ⟨%d0, H0⟩, ⟨%d1, H1⟩, ⟨%d2, H2⟩⟩
    iapply (sound_kernel1_later c (grid1.coords t) hc Set.univ _ _ _ _ _ _ _ _ (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2

/-- The pipeline's body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the accumulator's value in the scratch is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 20 := N_1; omega), PhiA1_eq]
  iintro ⟨⟨HS, Hrest⟩, Hg⟩
  isplitl [HS Hrest]
  · isplitl [HS]; · iexists _; iexact HS
    iexact Hrest
  iexact Hg

end Cert.KernelIdeal.Pool

end
-- ==== Proof.KIRun.lean ====
/-
  The whole program as a run of host stretches and the two pallas_calls. Between two items a core holds every unscoped buffer
  at a known valuation: the launch memory, then each host stretch applied to it, then, after a pallas_call, the one array the
  call may change at what its write-backs leave and everything else as before. The first call may change only its output
  array (the hidden features), the second only its own (the pooled sums); an input array of a call ends as it was entered,
  because no point writes it back. Each call enters from the valuation before it and leaves at the one after it; beside the
  buffers ride the generator register, at some state, and the fact that the core owes nothing.
-/
import proofs.«416541_j73967926772095_1_alg».proof.Proof.Gen.KernelIdeal.Regions
import proofs.«416541_j73967926772095_1_alg».proof.Proof.KIMlp
import proofs.«416541_j73967926772095_1_alg».proof.Proof.KIPool
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each pallas_call is entered with and what it leaves -/

/-- What the first call is entered with: the launch memory after the first host stretch. -/
abbrev En0 : (c : Dev nD) → (b : Ref sig .tc) → Buf (Elt F) ((c : Thread nD τ).loc b) := fun c b => V1 m c b

/-- The buffers after the first call: its arrays at what its write-backs leave, every other buffer as entered. -/
def X2 (c : Dev nD) : Valuation τ sig (Elt F) :=
  Pipeline.withArrays spec0 c (V1 m c) fun w => (Mlp.dat0 (En0 m) c).arrAt w cfg0.N

/-- The first call's exit contents of the one array it may change, as the unknown the generated valuations are written over. -/
def outs0 : Outs (F := F) := fun _ r c => X2 m c r

/-- What the second call is entered with: that, after the reshape of the graph ids to a column. -/
abbrev En1 : (c : Dev nD) → (b : Ref sig .tc) → Buf (Elt F) ((c : Thread nD τ).loc b) := fun c b => V3 m (outs0 m) c b

/-- The buffers after the second call. -/
def X4 (c : Dev nD) : Valuation τ sig (Elt F) :=
  Pipeline.withArrays spec1 c (V3 m (outs0 m) c) fun w => (Pool.dat1 (En1 m) c).arrAt w cfg1.N

/-- What the two calls leave in the arrays they may change: item 2 is the first call, item 4 the second. -/
def outs : Outs (F := F) := fun J r c => if J = 2 then X2 m c r else X4 m c r

theorem outs_two (r : Ref sig .tc) (c : Dev nD) : outs m 2 r c = X2 m c r := if_pos rfl
theorem outs_four (r : Ref sig .tc) (c : Dev nD) : outs m 4 r c = X4 m c r := if_neg (by decide)

/-- Up to the second call's entry only the first call's exit contents are read. -/
theorem V2_outs (c : Dev nD) : V2 m (outs m) c = V2 m (outs0 m) c := by
  unfold V2; rw [outs_two]; rfl
theorem V3_outs (c : Dev nD) : V3 m (outs m) c = V3 m (outs0 m) c := by
  unfold V3; rw [V2_outs]

/-- The first call's output array after the call. -/
theorem V2_out (c : Dev nD) : V2 m (outs m) c main_v16 = (Mlp.dat0 (En0 m) c).arrAt 6 cfg0.N := by
  unfold V2; rw [Function.update_self, outs_two]
  exact Pipeline.withArrays_arr spec0 launch0.win.arr_inj c _ _ 6

/-- The second call's output array after the call. -/
theorem V4_out (c : Dev nD) : V4 m (outs m) c main_v18 = (Pool.dat1 (En1 m) c).arrAt 2 cfg1.N := by
  unfold V4; rw [Function.update_self, outs_four]
  exact Pipeline.withArrays_arr spec1 launch1.win.arr_inj c _ _ 2

/-! ## The proof data family -/

/-- Each pipeline's proof data at its call's entry contents: a literal match on the pipeline. -/
def pdats : (p : Fin 2) → (c : Dev nD) → Dat τ (Elt F) Unit ℕ (UR sig nD τ) ℕ (cfgs p) c
  | ⟨0, _⟩ => fun c => Mlp.dat0 (En0 m) c
  | ⟨1, _⟩ => fun c => Pool.dat1 (En1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, and nothing owed. -/
abbrev R (c : Dev nD) : sProp 𝕄 := iprop((∃ r, prngReg c r) ∗ ∃ W, owes (c : Thread nD τ) (0 : CellTallies nD τ sig Unit) W)

/-- The contents after the first call as a function of the references, and after the second. -/
abbrev Ex0 : (c : Dev nD) → (b : Ref sig .tc) → Buf (Elt F) ((c : Thread nD τ).loc b) := fun c b => V2 m (outs m) c b
abbrev En1' : (c : Dev nD) → (b : Ref sig .tc) → Buf (Elt F) ((c : Thread nD τ).loc b) := fun c b => V3 m (outs m) c b
abbrev Ex1 : (c : Dev nD) → (b : Ref sig .tc) → Buf (Elt F) ((c : Thread nD τ).loc b) := fun c b => V4 m (outs m) c b

/-! ## Each call's arrays at its exit: the output at what the write-backs leave, an input as entered -/

theorem hF0 (c : Dev nD) (w : Fin cfg0.W) : (Mlp.dat0 (En0 m) c).arrAt w cfg0.N = Ex0 m c (Pipeline.arrRef spec0 w) := by
  have hin : ∀ w' : Fin cfg0.W, (cfg0.win w').isOut = false → Pipeline.arrRef spec0 w' ∉ ([main_v16] : List (Ref sig .tc)) →
      (Mlp.dat0 (En0 m) c).arrAt w' cfg0.N = Ex0 m c (Pipeline.arrRef spec0 w') := fun w' hi hn =>
    (((Mlp.dat0 (En0 m) c).arrAt_in w' hi _).trans (Mlp.A_eq0 (En0 m) c w')).trans (V2_of m (outs m) c _ hn).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact (V2_out m c).symm

theorem hrest0 (c : Dev nD) : ∀ b, b ∉ Finset.univ.image (Pipeline.arrRef spec0) → Ex0 m c b = En0 m c b :=
  fun b hb => V2_of m (outs m) c b (fun h => hb (Finset.mem_image.mpr ⟨6, Finset.mem_univ _, (List.mem_singleton.mp h).symm⟩))

theorem hF1 (c : Dev nD) (w : Fin cfg1.W) : (Pool.dat1 (En1 m) c).arrAt w cfg1.N = Ex1 m c (Pipeline.arrRef spec1 w) := by
  have hin : ∀ w' : Fin cfg1.W, (cfg1.win w').isOut = false → Pipeline.arrRef spec1 w' ∉ ([main_v18] : List (Ref sig .tc)) →
      (Pool.dat1 (En1 m) c).arrAt w' cfg1.N = Ex1 m c (Pipeline.arrRef spec1 w') := fun w' hi hn =>
    (((Pool.dat1 (En1 m) c).arrAt_in w' hi _).trans (Pool.A_eq1 (En1 m) c w')).trans
      ((V4_of m (outs m) c _ hn).trans (congrFun (V3_outs m c) _)).symm
  match w with
  | ⟨0, _⟩ => exact hin 0 rfl (by decide)
  | ⟨1, _⟩ => exact hin 1 rfl (by decide)
  | ⟨2, _⟩ => exact (V4_out m c).symm

theorem hrest1 (c : Dev nD) : ∀ b, b ∉ Finset.univ.image (Pipeline.arrRef spec1) → Ex1 m c b = En1 m c b :=
  fun b hb => (V4_of m (outs m) c b (fun h => hb (Finset.mem_image.mpr ⟨2, Finset.mem_univ _, (List.mem_singleton.mp h).symm⟩))).trans
    (congrFun (V3_outs m c) _)

/-! ## The two calls as segments -/

set_option backward.isDefEq.respectTransparency.types false in
/-- The first call: entered from every unscoped buffer at the valuation before it, left at the one after it. Its arrays are
    split out of the unscoped buffers and put back at their exit contents; the generator register goes into the plain
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Mlp.body_obligation0 (En0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, the same way; its invariant carries the accumulator's scratch from the second point on, is the plain one
    before the first point, and gives the plain one back after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pool.body_obligation1 (En1 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none, V3_outs m c]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ Pipeline.ΦA spec1 c from by
      unfold Pipeline.ΦA
      iintro ⟨Hp, -, Hr⟩
      isplitl [Hr]; · iexact Hr
      iexact Hp).trans (Pool.hin1 (En1 m) c)
  hout c := by
    rw [Pipeline.ownSems0_none]
    exact (Pool.hout1 (En1 m) c).trans (show Pipeline.ΦA spec1 c ⊢ _ from by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's resources -/

/-- The launch element: the pipeline library's own, at every pipeline's staging cells. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core, but for its buffers, makes the rest state. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-! ## The frame -/

set_option backward.isDefEq.respectTransparency.types false in
/-- From any memory with zero counters every weakly fair execution of the program terminates, nothing faulting, and every
    argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m (emb₁ : Emb (UR sig nD τ) 𝕄) () 𝒱₀ L lv (fun _ _ => rfl) ρ (outs m) (pdats m)
    (0 : Dev nD → CellTallies nD τ sig Unit) (fun _ => (BI.emp : sProp 𝕄)) u₀ hu₀
    (fun _ c => R c) (hE0 ρ) (fun c => by iintro ⟨-, HO⟩; iexact HO)
    (reg0 m) (fun _ => .rfl) (fun _ => .rfl) (reg1 m) (fun _ => .rfl) (fun _ => .rfl)

end Cert.KernelIdeal.Whole

end
-- ==== Proof.KIRunAll.lean ====
/-
  The idealized program's run with every unscoped buffer named at the end: from any memory with zero counters every weakly fair
  execution terminates, nothing faulting, and each core's unscoped buffers end at the last valuation of the run: the launch
  memory carried through the host stretches and the two pallas_calls. The result buffer is one of them.
-/
import proofs.«416541_j73967926772095_1_alg».proof.Proof.KIRun
import proofs.«416541_j73967926772095_1_alg».proof.Proof.KIRegionsRun

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = V7 m (outs m) c b) :=
  run_cond m (emb₁ : Emb (UR sig nD τ) 𝕄) () 𝒱₀ L lv (fun _ _ => rfl) ρ (outs m) (pdats m)
    (0 : Dev nD → CellTallies nD τ sig Unit) (fun _ => (BI.emp : sProp 𝕄)) u₀ hu₀
    (fun _ c => R c) (hE0 ρ) (fun c => by iintro ⟨-, HO⟩; iexact HO)
    (reg0 m) (fun _ => .rfl) (fun _ => .rfl) (reg1 m) (fun _ => .rfl) (fun _ => .rfl)

end Cert.KernelIdeal.Whole

end
-- ==== Proof.KITail.lean ====
/-
  The kernel's program after its second pallas_call: three stretches of host operations. The first makes a vector of 256
  integer zeros and a scalar zero; the second clips the graph ids at that zero from below; the third counts the nodes of each
  graph into the zero bins, divides the pooled sums by max (count, 1), multiplies by the classifier's weights and adds its bias.
  Each stretch's result is read back as a function of the few buffers it reads.
-/
import proofs.«416541_j73967926772095_1_alg».proof.Proof.Gen.KernelIdeal.Regions
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.SL.Sem Idealize.ShloMosaic.StableHlo

variable {F : FTy → Type} [FloatOps F]

/-- The last stretch: from the pooled sums `s`, the zero bins `z`, the clipped ids `v20`, the classifier's weights and bias. -/
def finishK (s : FVec F S256x64 .f32) (z : IVec S256 32) (v20 : IVec S100000 32) (wc : FVec F S64x2 .f32) (bc : FVec F S2 .f32) :
    FVec F S256x2 .f32 :=
  addf
    (Host.dotGeneral dot_S256x64_S64x2_S256x2_1_0_0_1_n_n none
      (Host.divf s
        (broadcastInDim S256x64 ![0, 1] bcast_S256x1_S256x64_0_1
          (shapeCast S256x1
            (maximumf
              (sitofp .f32
                (Host.scatter scatter_S256_S100000x1_S100000_n_0_0_1 IntOp.addi z
                  (broadcastInDim S100000x1 ![0] bcast_S100000_S100000x1_0
                    (select (cmpi .slt v20 (broadcastInDim S100000 ![] bcast_S_S100000 (constantI S_ 32 0#32)))
                      (addi v20 (broadcastInDim S100000 ![] bcast_S_S100000 (constantI S_ 32 256#32))) v20))
                  (broadcastInDim S100000 ![] bcast_S_S100000 (constantI S_ 32 1#32))))
              (broadcastInDim S256 ![] bcast_S_S256 (constant S_ .f32 0x3F800000#32)))
            shapeCasts_S256_S256x1)))
      wc)
    (broadcastInDim S256x2 ![0, 1] bcast_S1x2_S256x2_0_1 (broadcastInDim S1x2 ![1] bcast_S2_S1x2_1 bc))

set_option maxHeartbeats 2000000 in
/-- The last stretch over any valuation of the buffers before it. -/
theorem after_finish (W : Valuation τ sig (Elt F)) :
    StableHlo.after (hostOps2_2 (F := F)) W (Proc.devRef .tc main_v38)
      = finishK (W (Proc.devRef .tc main_v18)) (W (Proc.devRef .tc main_v19)) (W (Proc.devRef .tc main_v20))
          (W (Proc.devRef .tc main_arg7)) (W (Proc.devRef .tc main_arg8)) := by
  after_results
  rfl

/-- The clip stretch over any valuation: the ids' maximum with the scalar the stretch before left. -/
theorem after_clip (W : Valuation τ sig (Elt F)) :
    StableHlo.after (hostOps2_1 (F := F)) W (Proc.devRef .tc main_v20)
      = maxsi (broadcastInDim S100000 ![] bcast_S_S100000 (W (Proc.devRef .tc main_c_2))) (W (Proc.devRef .tc main_arg2)) := by
  after_results
  rfl

/-- The first of the three stretches leaves the scalar zero and the zero bins. -/
theorem after_zero_scalar (W : Valuation τ sig (Elt F)) :
    StableHlo.after (hostOps2 (F := F)) W (Proc.devRef .tc main_c_2) = constantI S_ 32 0#32 := by
  after_results
theorem after_zero_bins (W : Valuation τ sig (Elt F)) :
    StableHlo.after (hostOps2 (F := F)) W (Proc.devRef .tc main_v19)
      = broadcastInDim S256 ![] bcast_S_S256 (constantI S_ 32 0#32) := by
  after_results

end Cert.KernelIdeal.Tail

end
-- ==== Proof.KIHead.lean ====
/-
  The kernel's program before and between its two pallas_calls. The first stretch of host operations gathers, for every edge,
  the source node's features, scatter-adds them onto the target nodes (the aggregated neighbour features), and reshapes the two
  bias vectors to rows; the stretch between the calls reshapes the graph ids to a column. Each result is read back as a
  function of the buffers the stretch reads.
-/
import proofs.«416541_j73967926772095_1_alg».proof.Proof.Gen.KernelIdeal.Regions
import Idealize.ShloMosaic.Lib.StableHlo.Run

set_option maxRecDepth 16384

noncomputable section

namespace Cert.KernelIdeal.Head

open Cert.KernelIdeal Cert.KernelIdeal.Gen
open Idealize.ShloMosaic Idealize.ShloMosaic.TcCoe Idealize.SL.Sem Idealize.ShloMosaic.StableHlo

variable {F : FTy → Type} [FloatOps F]

/-- The aggregated neighbour features, from the node features `x` and the edge list `ei`: row i is the sum of the rows of
    `x` at the sources of the edges whose target is i (a negative source index counted from the end). -/
def aggK (x : FVec F S100000x128 .f32) (ei : IVec S2x640000 32) : FVec F S100000x128 .f32 :=
  Host.scatterAdd scatter_S100000x128_S640000x1_S640000x128_1_0_0_1 (broadcastInDim S100000x128 ![] bcast_S_S100000x128 (constant S_ .f32 0x00000000#32)) (broadcastInDim S640000x1 ![0] bcast_S640000_S640000x1_0 (shapeCast _ (extractStridedSlice S1x640000 ![1, 0] ei slices_S2x640000_S1x640000_1_0) shapeCasts_S1x640000_S640000)) (Host.gather gather_S100000x128_S640000x1_S640000x128_1_0_n_n_0_1_1128 x (broadcastInDim S640000x1 ![0] bcast_S640000_S640000x1_0 (select (cmpi .slt (shapeCast _ (extractStridedSlice S1x640000 ![0, 0] ei slices_S2x640000_S1x640000_0_0) shapeCasts_S1x640000_S640000) (broadcastInDim S640000 ![] bcast_S_S640000 (constantI S_ 32 0#32))) (addi (shapeCast _ (extractStridedSlice S1x640000 ![0, 0] ei slices_S2x640000_S1x640000_0_0) shapeCasts_S1x640000_S640000) (broadcastInDim S640000 ![] bcast_S_S640000 (constantI S_ 32 100000#32))) (shapeCast _ (extractStridedSlice S1x640000 ![0, 0] ei slices_S2x640000_S1x640000_0_0) shapeCasts_S1x640000_S640000))))

set_option maxHeartbeats 2000000 in
theorem after_agg (W : Valuation τ sig (Elt F)) :
    StableHlo.after (hostOps0 (F := F)) W (Proc.devRef .tc main_v13)
      = aggK (W (Proc.devRef .tc main_arg0)) (W (Proc.devRef .tc main_arg1)) := by
  after_results
  rfl

set_option maxHeartbeats 2000000 in
theorem after_bias1 (W : Valuation τ sig (Elt F)) :
    StableHlo.after (hostOps0 (F := F)) W (Proc.devRef .tc main_v14)
      = shapeCast S1x64 (W (Proc.devRef .tc main_arg4)) shapeCasts_S64_S1x64 := by
  after_results
  rfl

set_option maxHeartbeats 2000000 in
theorem after_bias2 (W : Valuation τ sig (Elt F)) :
    StableHlo.after (hostOps0 (F := F)) W (Proc.devRef .tc main_v15)
      = shapeCast S1x64 (W (Proc.devRef .tc main_arg6)) shapeCasts_S64_S1x64 := by
  after_results
  rfl

theorem after_idcol (W : Valuation τ sig (Elt F)) :
    StableHlo.after (hostOps1 (F := F)) W (Proc.devRef .tc main_v17)
      = shapeCast S100000x1 (W (Proc.devRef .tc main_arg2)) shapeCasts_S100000_S100000x1 := by
  after_results
  rfl

end Cert.KernelIdeal.Head

end
-- ==== Proof.LibMatProduct.lean ====
/-
  The row-by-column product of two matrices over the extended reals, as one function of the two arrays index by index,
  and the three places it is met: the host's dot_general at the plain dimension numbers (rows by contraction, times
  contraction by columns); a matrix unit's product accumulated into a zero splat; and a product of two BLOCKS (a band of
  rows of the left matrix, a band of columns of the right one), which is the corresponding block of the whole product
  because the contracted axis is not cut. Also: multiplying by a transposed matrix is contracting with its columns.
-/
import Idealize.ShloMosaic.Lib.StackMember
import Idealize.ShloMosaic.Lib.ValueLayout

noncomputable section

namespace Cert.Lib.MatProduct

open Idealize.ShloMosaic Idealize.ShloMosaic.ValueIdx

variable {M K N : Nat}

/-- (l r)[a, b] is the sum over k of l[a, k] r[k, b]. -/
def matProd (l : (⟨2, ![M, K]⟩ : Shape).Idx → EReal) (r : (⟨2, ![K, N]⟩ : Shape).Idx → EReal) :
    (⟨2, ![M, N]⟩ : Shape).Idx → EReal :=
  fun i => ∑ k : Fin K, l (ix2 ⟨(i 0).val, idx2_lt0 i⟩ k) * r (ix2 k ⟨(i 1).val, idx2_lt1 i⟩)

theorem matProd_ix2 (l : (⟨2, ![M, K]⟩ : Shape).Idx → EReal) (r : (⟨2, ![K, N]⟩ : Shape).Idx → EReal) (a : Fin M) (b : Fin N) :
    matProd l r (ix2 a b) = ∑ k : Fin K, l (ix2 a k) * r (ix2 k b) := rfl

/-- The host's plain dot_general, at the ideal values, is the product. -/
theorem dotGeneral_plain_eq {φ₁ φ₂ : FTy} (prec : Option ContractPrecision) (A : FVec Ideal ⟨2, ![M, K]⟩ φ₁)
    (B : FVec Ideal ⟨2, ![K, N]⟩ φ₂) : Host.dotGeneral (DotDims.plain M K N) prec A B = matProd A B := by
  funext i
  obtain ⟨a, b, rfl⟩ : ∃ (a : Fin M) (b : Fin N), i = ix2 a b := ⟨i 0, i 1, eq_ix2 i⟩
  rw [StackMember.dotGeneral_plain_apply, matProd_ix2]

/-- A matrix unit's plain product into the zero splat, at the ideal values, is the product. -/
theorem matmul_plain_zero_eq {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = matProd A B := by
  rw [matmul_zero_eq_dotGeneral, dotGeneral_plain_eq]

/-- A band of rows times a band of columns is the block of the whole product: if the left block's row p is row a of l and
    the right block's column q is column b of r, entry (p, q) of the blocks' product is entry (a, b) of l r. -/
theorem matProd_block {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (p : Fin M') (q : Fin N') (a : Fin M) (b : Fin N)
    (hl : ∀ k : Fin K, l' (ix2 p k) = l (ix2 a k)) (hr : ∀ k : Fin K, r' (ix2 k q) = r (ix2 k b)) :
    matProd l' r' (ix2 p q) = matProd l r (ix2 a b) := by
  rw [matProd_ix2, matProd_ix2]
  exact Finset.sum_congr rfl fun k _ => by rw [hl k, hr k]

/-- The same at any two indices: the blocks' product at j is the whole product at i as soon as row (j 0) of the left
    block is row (i 0) of l and column (j 1) of the right block is column (i 1) of r. -/
theorem matProd_block_idx {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j : (⟨2, ![M', N']⟩ : Shape).Idx) (i : (⟨2, ![M, N]⟩ : Shape).Idx)
    (hl : ∀ k : Fin K, l' (ix2 ⟨(j 0).val, idx2_lt0 j⟩ k) = l (ix2 ⟨(i 0).val, idx2_lt0 i⟩ k))
    (hr : ∀ k : Fin K, r' (ix2 k ⟨(j 1).val, idx2_lt1 j⟩) = r (ix2 k ⟨(i 1).val, idx2_lt1 i⟩)) :
    matProd l' r' j = matProd l r i := by
  unfold matProd
  exact Finset.sum_congr rfl fun k _ => by rw [hl k, hr k]

/-- Two right factors that are each other's transposes entry by entry give the same product. -/
theorem matProd_congr_right (l : (⟨2, ![M, K]⟩ : Shape).Idx → EReal) (r r' : (⟨2, ![K, N]⟩ : Shape).Idx → EReal)
    (h : ∀ (k : Fin K) (b : Fin N), r (ix2 k b) = r' (ix2 k b)) : matProd l r = matProd l r' := by
  funext i
  obtain ⟨a, b, rfl⟩ : ∃ (a : Fin M) (b : Fin N), i = ix2 a b := ⟨i 0, i 1, eq_ix2 i⟩
  rw [matProd_ix2, matProd_ix2]
  exact Finset.sum_congr rfl fun k _ => by rw [h k b]

end Cert.Lib.MatProduct

end
-- ==== Proof.Spec.lean ====
/-
  What the two programs compute, stated index by index over the extended reals, with no program in sight.

  `layer l W b` is one dense layer followed by relu: entry (n, k) is max (sum_j l[n,j] W[j,k] + b[0,k], 0), the bias a
  single row. `hidden x a W1 b1 W2 b2` is the two-layer perceptron of the node features plus the aggregated neighbour
  features: layer (layer (x + a) W1 b1) W2 b2. `segSum ids h` sums, for each graph g, the rows of h whose graph id
  (read as a signed integer) is g: entry (g, k) is the sum over the rows n with ids[n,0] = g of h[n,k]; a row whose id is
  no graph contributes to no entry.
-/
import Idealize.ShloMosaic.PureOps.Ideal
import Idealize.ShloMosaic.Lib.ValueIdx
import proofs.«416541_j73967926772095_1_alg».proof.Proof.LibMatProduct

noncomputable section

namespace Cert.Spec

open Idealize.ShloMosaic Idealize.ShloMosaic.ValueIdx Cert.Lib.MatProduct
open scoped BigOperators

/-- A matrix of extended reals. -/
abbrev Mat (r c : Nat) : Type := (⟨2, ![r, c]⟩ : Shape).Idx → EReal

/-- One dense layer with a bias row, then relu. -/
def layer {N K M : Nat} (l : Mat N K) (W : Mat K M) (b : Mat 1 M) : Mat N M :=
  fun i => max (matProd l W i + b (ix2 (0 : Fin 1) (⟨(i 1).val, idx2_lt1 i⟩ : Fin M))) 0

theorem layer_ix2 {N K M : Nat} (l : Mat N K) (W : Mat K M) (b : Mat 1 M) (n : Fin N) (k : Fin M) :
    layer l W b (ix2 n k) = max ((∑ j : Fin K, l (ix2 n j) * W (ix2 j k)) + b (ix2 (0 : Fin 1) k)) 0 := rfl

/-- The two-layer perceptron of `x + a`. -/
def hidden {N D H : Nat} (x a : Mat N D) (W1 : Mat D H) (b1 : Mat 1 H) (W2 : Mat H H) (b2 : Mat 1 H) : Mat N H :=
  layer (layer (fun i => x i + a i) W1 b1) W2 b2

/-- The rows of `h` summed by graph id. -/
def segSum {R G C : Nat} (ids : IVec ⟨2, ![R, 1]⟩ 32) (h : Mat R C) : Mat G C :=
  fun i => ∑ n : Fin R, if (ids (ix2 n (0 : Fin 1))).toInt = ((i 0).val : ℤ) then h (ix2 n (⟨(i 1).val, idx2_lt1 i⟩ : Fin C)) else 0

theorem segSum_ix2 {R G C : Nat} (ids : IVec ⟨2, ![R, 1]⟩ 32) (h : Mat R C) (g : Fin G) (k : Fin C) :
    segSum ids h (ix2 g k) = ∑ n : Fin R, if (ids (ix2 n (0 : Fin 1))).toInt = (g.val : ℤ) then h (ix2 n k) else 0 := rfl

end Cert.Spec

end
-- ==== Proof.MlpValue.lean ====
/-
  The first pallas_call's output array as ONE function of the arrays it was entered with: after the last grid point, row n of
  the output is the two-layer perceptron of row n of the node features plus row n of the aggregated features. Point t writes
  rows 5000 t … 5000 t + 4999, the twenty blocks tile the 100000 rows, and inside a block the kernel's two matrix products
  into a zero accumulator are the plain sums over the contracted axis.
-/
import proofs.«416541_j73967926772095_1_alg».proof.Proof.KIMlp
import proofs.«416541_j73967926772095_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MlpValue

open Cert.KernelIdeal Cert.KernelIdeal.Gen Cert.KernelIdeal.Mlp Cert.Spec Cert.Lib.MatProduct
open Idealize.ShloMosaic Idealize.ShloMosaic.TcCoe Idealize.ShloMosaic.ValueIdx
open Idealize.SL Idealize.SL.Sem
open Idealize.ShloMosaic.Pipeline (Dat)
open scoped BigOperators

-- what the core's buffers hold when the region is entered, at the exact instance
variable (V : (c : Dev nD) → (b : Ref sig .tc) → Buf (Elt Ideal) ((c : Thread nD τ).loc b))

/-! ## The block's arithmetic -/

/-- The offsets of a whole-block rectangle are zero on both axes. -/
theorem hz : (![0, 0] : Fin 2 → Nat) = fun _ => 0 := funext fun a => by fin_cases a <;> rfl

/-- The first product's dimension numbers are the plain ones: 5000 x 128 by 128 x 64. -/
theorem dot1_eq : dot_S5000x128_S128x64_S5000x64_1_0_0_1_n_n = DotDims.plain 5000 128 64 := rfl

/-- The second product's dimension numbers are the plain ones: 5000 x 64 by 64 x 64. -/
theorem dot2_eq : dot_S5000x64_S64x64_S5000x64_1_0_0_1_n_n = DotDims.plain 5000 64 64 := rfl

/-- The zero word is the extended real 0. -/
theorem zero_word : (Scalar.ofBits .f32 0x00000000#32 : Ideal .f32) = 0 := Ideal.ofBits_zero_f32

/-- One layer of the kernel's arithmetic, at the ideal values, is one layer of the perceptron: the narrowing to bf16 is
    the identity, the product into the zero accumulator is the plain sum, the bias row is read at the column, and the
    maximum against the zero splat is relu. -/
theorem kernel_layer {K : Nat} (D : DotDims ⟨2, ![5000, K]⟩ ⟨2, ![K, 64]⟩ S5000x64) (hD : D = DotDims.plain 5000 K 64)
    (l : FVec Ideal ⟨2, ![5000, K]⟩ .f32) (W : FVec Ideal ⟨2, ![K, 64]⟩ .f32) (b : FVec Ideal S1x64 .f32)
    (hlt : FTy.bf16.bits < FTy.f32.bits) (hs : S1x64.ShapeCasts S1x64) (hb : S1x64.Broadcasts S5000x64) :
    maximumf (addf (matmul D none (truncf .bf16 l hlt) (truncf .bf16 W hlt) (constant S5000x64 .f32 0x00000000#32))
        (broadcastTo S5000x64 (shapeCast S1x64 b hs) hb))
      (broadcast S5000x64 (Scalar.ofBits .f32 0x00000000#32 : Ideal .f32)) = layer l W b := by
  subst hD
  funext i
  obtain ⟨r, k, rfl⟩ : ∃ (r : Fin 5000) (k : Fin 64), i = ix2 r k := ⟨i 0, i 1, eq_ix2 i⟩
  rw [maximumf_apply, addf_apply, broadcast_apply, matmul_plain_zero_eq, shapeCast_self, broadcastTo_1b_ab_apply, layer_ix2,
    matProd_ix2, zero_word]
  rfl

/-- The output block after the body is the two layers of the sum of the two feature blocks. -/
theorem mlpBlock_eq (x0 x1 : Vec Ideal S5000x128 .f32) (x2 : Vec Ideal S128x64 .f32) (x3 : Vec Ideal S1x64 .f32)
    (x4 : Vec Ideal S64x64 .f32) (x5 : Vec Ideal S1x64 .f32) :
    mlpBlock x0 x1 x2 x3 x4 x5 = layer (layer (fun i => x0 i + x1 i) x2 x3) x4 x5 := by
  unfold mlpBlock
  rw [View.canon_unit_zero hz]
  simp only [View.ld_unit_zero (S := S5000x128) hz, View.ld_unit_zero (S := S128x64) hz, View.ld_unit_zero (S := S1x64) hz,
    View.ld_unit_zero (S := S64x64) hz]
  unfold k0_pay1
  dsimp only
  rw [kernel_layer _ dot2_eq, kernel_layer _ dot1_eq, shapeCast_self]
  rfl

/-! ## The windows' blocks as rows of their arrays -/

/-- The printed index maps over the grid: the row-blocked windows sit at block row t, column block 0; the whole-array
    windows at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row r of window 0's block at point t is row 5000 t + r of the node features. -/
theorem iblk0_0_apply (c : Dev nD) (t : Fin cfg0.N) (r : Fin 5000) (j : Fin 128) (n : Fin 100000) (hn : n.val = 5000 * t.val + r.val) :
    (iblk0 V c 0 t : Vec Ideal S5000x128 .f32) (ix2 r j) = (V c main_arg0 : S100000x128.Idx → EReal) (ix2 n j) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * r.val = n.val; rw [e0, hn]; omega
  | ⟨1, _⟩ => show win0_0.index t (1 : Fin 2) * 128 + 1 * j.val = j.val; rw [e1]; omega

/-- Row r of window 1's block at point t is row 5000 t + r of the aggregated features. -/
theorem iblk0_1_apply (c : Dev nD) (t : Fin cfg0.N) (r : Fin 5000) (j : Fin 128) (n : Fin 100000) (hn : n.val = 5000 * t.val + r.val) :
    (iblk0 V c 1 t : Vec Ideal S5000x128 .f32) (ix2 r j) = (V c main_v13 : S100000x128.Idx → EReal) (ix2 n j) := by
  obtain ⟨-, -, e0, e1, -⟩ := idx_facts t
  unfold iblk0
  rw [View.read_apply]
  show V c main_v13 _ = V c main_v13 _
  congr 1
  funext a
  apply Fin.ext
  match a with
  | ⟨0, _⟩ => show win0_1.index t (0 : Fin 2) * 5000 + 1 * r.val = n.val; rw [e0, hn]; omega
  | ⟨1, _⟩ => show win0_1.index t (1 : Fin 2) * 128 + 1 * j.val = j.val; rw [e1]; omega

/-- Window 2's block at every point is the whole first weight matrix. -/
theorem iblk0_2_eq (c : Dev nD) (t : Fin cfg0.N) : (iblk0 V c 2 t : Vec Ideal S128x64 .f32) = (V c main_arg3 : S128x64.Idx → EReal) := by
  obtain ⟨-, -, -, -, e0, e1, -⟩ := idx_facts t
  funext y
  unfold iblk0
  rw [View.read_apply]
  show V c main_arg3 _ = V c main_arg3 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

/-- Window 3's block at every point is the whole first bias row. -/
theorem iblk0_3_eq (c : Dev nD) (t : Fin cfg0.N) : (iblk0 V c 3 t : Vec Ideal S1x64 .f32) = (V c main_v14 : S1x64.Idx → EReal) := by
  obtain ⟨-, -, -, -, -, -, e0, e1, -⟩ := idx_facts t
  funext y
  unfold iblk0
  rw [View.read_apply]
  show V c main_v14 _ = V c main_v14 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- Window 4's block at every point is the whole second weight matrix. -/
theorem iblk0_4_eq (c : Dev nD) (t : Fin cfg0.N) : (iblk0 V c 4 t : Vec Ideal S64x64 .f32) = (V c main_arg5 : S64x64.Idx → EReal) := by
  obtain ⟨-, -, -, -, -, -, -, -, e0, e1, -⟩ := idx_facts t
  funext y
  unfold iblk0
  rw [View.read_apply]
  show V c main_arg5 _ = V c main_arg5 _
  congr 1
  funext a
  apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- Window 5's block at every point is the whole second bias row. -/
theorem iblk0_5_eq (c : Dev nD) (t : Fin cfg0.N) : (iblk0 V c 5 t : Vec Ideal S1x64 .f32) = (V c main_v15 : S1x64.Idx → EReal) := by
  obtain ⟨-, -, -, -, -, -, -, -, -, -, e0, e1, -⟩ := idx_facts t
  funext y
  unfold iblk0
  rw [View.read_apply]
  show V c main_v15 _ = V c main_v15 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-! ## A band of rows of the perceptron -/

/-- Row p of the perceptron of two bands of rows is row n of the perceptron of the whole arrays, when row p of each band
    is row n of its array: neither layer mixes rows. -/
theorem hidden_rows {N N' D H : Nat} (x a : Mat N D) (x' a' : Mat N' D) (W1 : Mat D H) (b1 : Mat 1 H) (W2 : Mat H H) (b2 : Mat 1 H)
    (p : Fin N') (n : Fin N) (hx : ∀ j : Fin D, x' (ix2 p j) = x (ix2 n j)) (ha : ∀ j : Fin D, a' (ix2 p j) = a (ix2 n j)) (k : Fin H) :
    hidden x' a' W1 b1 W2 b2 (ix2 p k) = hidden x a W1 b1 W2 b2 (ix2 n k) := by
  unfold Cert.Spec.hidden
  rw [layer_ix2, layer_ix2]
  simp only [layer_ix2, hx, ha]

/-- The same at any two indices: the two layers over two bands of rows, read at j, are the perceptron of the whole arrays
    at i, as soon as row (j 0) of each band is row (i 0) of its array and the columns agree. -/
theorem hidden_rows_idx {N N' D H : Nat} (x a : Mat N D) (x' a' : Mat N' D) (W1 : Mat D H) (b1 : Mat 1 H) (W2 : Mat H H) (b2 : Mat 1 H)
    (j : (⟨2, ![N', H]⟩ : Shape).Idx) (i : (⟨2, ![N, H]⟩ : Shape).Idx)
    (hx : ∀ d : Fin D, x' (ix2 ⟨(j 0).val, idx2_lt0 j⟩ d) = x (ix2 ⟨(i 0).val, idx2_lt0 i⟩ d))
    (ha : ∀ d : Fin D, a' (ix2 ⟨(j 0).val, idx2_lt0 j⟩ d) = a (ix2 ⟨(i 0).val, idx2_lt0 i⟩ d))
    (h1 : (i 1).val = (j 1).val) :
    layer (layer (fun y => x' y + a' y) W1 b1) W2 b2 j = hidden x a W1 b1 W2 b2 i := by
  obtain ⟨r, k, rfl⟩ : ∃ (r : Fin N') (k : Fin H), j = ix2 r k := ⟨j 0, j 1, eq_ix2 j⟩
  obtain ⟨n, k', rfl⟩ : ∃ (n : Fin N) (k' : Fin H), i = ix2 n k' := ⟨i 0, i 1, eq_ix2 i⟩
  obtain rfl : k' = k := Fin.ext h1
  exact hidden_rows x a x' a' W1 b1 W2 b2 r n hx ha k'

/-! ## From the blocks to the array -/

/-- What point t writes back is block t of the perceptron of the entry arrays: an index of the block sits in the array at
    row 5000 t + its row, the same column, and there the two feature blocks hold that row of their arrays. -/
theorem flushed_eq (c : Dev nD) (t : Fin cfg0.N) :
    (dat0 (F := Ideal) V c).flushed 6 t = ((cfg0.win 6).blk t).view.read (Elt Ideal)
      (hidden (V c main_arg0) (V c main_v13) (V c main_arg3) (V c main_v14) (V c main_arg5) (V c main_v15)) := by
  show (cfg0.win 6).cut (grid0.coords t) ((dat0 V c).after 6 t) = _
  rw [after0_6]
  rw [mlpBlock_eq]
  rw [iblk0_2_eq, iblk0_3_eq, iblk0_4_eq, iblk0_5_eq]
  obtain ⟨-, -, -, -, -, -, -, -, -, -, -, -, e0, e1⟩ := idx_facts t
  funext y
  rw [View.read_apply]
  show _ = Spec.hidden (V c main_arg0) (V c main_v13) (V c main_arg3) (V c main_v14) (V c main_arg5) (V c main_v15) (((cfg0.win 6).blk t).view.emb y)
  have h0 : ((((cfg0.win 6).blk t).view.emb y) 0).val = 5000 * t.val + (y 0).val := by
    show win0_6.index t (0 : Fin 2) * 5000 + 1 * (y 0).val = _; rw [e0]; omega
  have h1 : ((((cfg0.win 6).blk t).view.emb y) 1).val = (y 1).val := by
    show win0_6.index t (1 : Fin 2) * 64 + 1 * (y 1).val = _; rw [e1]; omega
  exact hidden_rows_idx (N := 100000) (N' := 5000) (D := 128) (H := 64) (V c main_arg0) (V c main_v13) (iblk0 V c 0 t) (iblk0 V c 1 t)
    (V c main_arg3) (V c main_v14) (V c main_arg5) (V c main_v15) ((cfg0.win 6).xinj (grid0.coords t) y) (((cfg0.win 6).blk t).view.emb y)
    (fun d => iblk0_0_apply V c t _ d _ h0) (fun d => iblk0_1_apply V c t _ d _ h0) h1

/-- An index of the output array is in point t's block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16).slice (win0_6.rect t)).set ↔ _
  rw [View.set_slice_whole, Rect.mem_set_unit]
  exact Iff.rfl

/-- The twenty blocks of 5000 rows tile the 100000 rows: row n is in the block of point n / 5000. -/
theorem cover (i : S100000x64.Idx) : ∃ t : Fin cfg0.N, (cfg0.win 6).flush t = true ∧ i ∈ ((cfg0.win 6).blk t).view.set := by
  have hN : cfg0.N = 20 := N_0
  have hi0 : (i 0).val < 100000 := (i 0).isLt
  have hi1 : (i 1).val < 64 := (i 1).isLt
  have ht : (i 0).val / 5000 < cfg0.N := by rw [hN]; omega
  obtain ⟨-, -, -, -, -, -, -, -, -, -, -, -, e0, e1⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 64 ≤ (i 1).val ∧ (i 1).val < win0_6.index ⟨(i 0).val / 5000, ht⟩ (1 : Fin 2) * 64 + 64
    rw [e1]; omega

/-- After the last grid point the output array is the perceptron of the entry arrays, index by index. -/
theorem mlp_array (c : Dev nD) :
    (dat0 (F := Ideal) V c).arrAt 6 cfg0.N
      = hidden (V c main_arg0) (V c main_v13) (V c main_arg3) (V c main_v14) (V c main_arg5) (V c main_v15) :=
  (dat0 (F := Ideal) V c).arrAt_eq_of_cover 6 _ (fun t _ => flushed_eq V c t) cover

end Cert.KernelIdeal.MlpValue

end
-- ==== Proof.LibTileSum.lean ====
/-
  Sums over an index set made of B equal tiles followed by a tail, and the few facts about the extended reals that go
  with them. A sum over Fin (B * E + N) is the sum over the B tiles of E plus the sum over the tail of N, and the same
  holds for a sum restricted by a predicate; a sum over the tiles of a quantity that does not depend on the tile is B
  copies of it; a sum over the places of Fin N equal to j is the term at j; B copies of a REAL number c, added in the
  extended reals, are (B : ℝ) * c (the extended reals are not a semiring, so the statement is made for real c); the
  inclusion of the reals commutes with finite sums, so a finite sum of real numbers is a real number; a sum of a one per
  element is the number of elements; the reciprocal square root of 1 is 1 and that of a positive real r is the real
  number (sqrt r)⁻¹; and in a family of integers all below K nobody equals a j with K ≤ j.
-/
import Idealize.ShloMosaic.PureOps.Ideal

noncomputable section

namespace Cert.Lib.TileSum

open Idealize.ShloMosaic

/-! ### Tiles and tail -/

theorem tile_lt {B E : ℕ} (N : ℕ) (t : Fin B) (e : Fin E) : t.val * E + e.val < B * E + N := by
  have h1 : t.val * E + e.val < (t.val + 1) * E := by
    have := e.isLt
    rw [Nat.add_mul, Nat.one_mul]
    omega
  have h2 : (t.val + 1) * E ≤ B * E := Nat.mul_le_mul_right E (Nat.succ_le_of_lt t.isLt)
  omega

/-- The flat position of element e of tile t: t * E + e. -/
def tileIx (B E N : ℕ) (t : Fin B) (e : Fin E) : Fin (B * E + N) := ⟨t.val * E + e.val, tile_lt N t e⟩

/-- The flat position of element n of the tail: B * E + n. -/
def tailIx (B E N : ℕ) (n : Fin N) : Fin (B * E + N) := ⟨B * E + n.val, by have := n.isLt; omega⟩

@[simp] theorem tileIx_val (B E N : ℕ) (t : Fin B) (e : Fin E) : (tileIx B E N t e).val = t.val * E + e.val := rfl
@[simp] theorem tailIx_val (B E N : ℕ) (n : Fin N) : (tailIx B E N n).val = B * E + n.val := rfl

/-- A sum over Fin (B * E) is the sum over the B tiles of the sums over the E places of a tile. -/
theorem sum_tiles {M : Type*} [AddCommMonoid M] (B E : ℕ) (g : Fin (B * E) → M) :
    ∑ k : Fin (B * E), g k = ∑ t : Fin B, ∑ e : Fin E, g ⟨t.val * E + e.val, by simpa using tile_lt 0 t e⟩ := by
  rw [← Fintype.sum_prod_type' (f := fun (t : Fin B) (e : Fin E) => g ⟨t.val * E + e.val, by simpa using tile_lt 0 t e⟩)]
  rw [← (finProdFinEquiv (m := B) (n := E)).sum_comp g]
  refine Finset.sum_congr rfl fun p _ => ?_
  congr 1
  apply Fin.ext
  simp [finProdFinEquiv, Nat.mul_comm, Nat.add_comm]

/-- A sum over Fin (B * E + N) is the sum over the B tiles of E plus the sum over the tail of N. -/
theorem sum_tiles_tail {M : Type*} [AddCommMonoid M] (B E N : ℕ) (f : Fin (B * E + N) → M) :
    ∑ k : Fin (B * E + N), f k
      = (∑ t : Fin B, ∑ e : Fin E, f (tileIx B E N t e)) + ∑ n : Fin N, f (tailIx B E N n) := by
  rw [Fin.sum_univ_add, sum_tiles]
  rfl

/-- The same for a sum restricted by a predicate: each tile, and the tail, restricted by the predicate at its places. -/
theorem sum_filter_tiles_tail {M : Type*} [AddCommMonoid M] (B E N : ℕ) (p : Fin (B * E + N) → Prop) [DecidablePred p]
    (f : Fin (B * E + N) → M) :
    ∑ k ∈ Finset.univ.filter p, f k
      = (∑ t : Fin B, ∑ e ∈ Finset.univ.filter (fun e => p (tileIx B E N t e)), f (tileIx B E N t e))
        + ∑ n ∈ Finset.univ.filter (fun n => p (tailIx B E N n)), f (tailIx B E N n) := by
  rw [Finset.sum_filter, sum_tiles_tail]
  simp only [Finset.sum_filter]

/-- A sum over the B tiles of a quantity that does not depend on the tile is B copies of it. -/
theorem sum_tiles_const {M : Type*} [AddCommMonoid M] (B : ℕ) (c : M) : ∑ _t : Fin B, c = B • c := by
  simp

/-- A sum over the places of Fin N whose value is j is the term at j. -/
theorem sum_filter_val_eq {M : Type*} [AddCommMonoid M] {N : ℕ} (j : ℕ) (hj : j < N) (f : Fin N → M) :
    ∑ n ∈ Finset.univ.filter (fun n : Fin N => n.val = j), f n = f ⟨j, hj⟩ := by
  have h : Finset.univ.filter (fun n : Fin N => n.val = j) = {⟨j, hj⟩} := by
    ext n
    simp [Fin.ext_iff]
  rw [h, Finset.sum_singleton]

/-! ### Real numbers inside the extended reals -/

/-- The inclusion of the reals commutes with finite sums. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem exists_real_sum {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_finset_sum]; exact Finset.sum_congr rfl hg⟩

/-- A product of two real numbers is a real number. -/
theorem exists_real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- B copies of a real number c are (B : ℝ) * c. -/
theorem nsmul_coe (B : ℕ) (c : ℝ) : B • (c : EReal) = ((B : ℝ) : EReal) * (c : EReal) := by
  rw [← EReal.coe_nsmul, nsmul_eq_mul, EReal.coe_mul]

/-- B copies of a real number c, summed over the tiles, are (B : ℝ) * c. -/
theorem sum_tiles_real (B : ℕ) (c : ℝ) : ∑ _t : Fin B, (c : EReal) = ((B : ℝ) : EReal) * (c : EReal) := by
  rw [sum_tiles_const, nsmul_coe]

/-- A sum of a one per element, in the extended reals, is the number of elements. -/
theorem sum_ones {ι : Type*} (s : Finset ι) : ∑ _i ∈ s, (1 : EReal) = ((s.card : ℝ) : EReal) := by
  have h := coe_finset_sum s (fun _ => (1 : ℝ))
  rw [Finset.sum_const, nsmul_eq_mul, mul_one] at h
  rw [h]
  simp only [EReal.coe_one]

/-! ### The reciprocal square root -/

/-- The reciprocal square root of 1 is 1. -/
theorem rsqrt_one : Ideal.rsqrt ((1 : ℝ) : EReal) = 1 := by
  rw [Ideal.rsqrt_coe]
  norm_num

/-- The reciprocal square root of a positive real r is the real number (sqrt r)⁻¹. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real is a real number. -/
theorem exists_real_rsqrt {r : ℝ} (h : 0 < r) : ∃ q : ℝ, Ideal.rsqrt (r : EReal) = (q : EReal) :=
  ⟨_, rsqrt_pos h⟩

/-! ### Bounded targets -/

/-- In a family of integers all below K, nobody equals a j with K ≤ j. -/
theorem filter_eq_empty_of_lt {E : ℕ} (d : Fin E → ℤ) (K : ℤ) (hd : ∀ e, d e < K) (j : ℤ) (hj : K ≤ j) :
    Finset.univ.filter (fun e => d e = j) = ∅ := by
  apply Finset.filter_eq_empty_iff.mpr
  intro e _ he
  have := hd e
  omega

end Cert.Lib.TileSum

end
-- ==== Proof.LibERealScale.lean ====
/-
  Scaling finite sums of extended reals by a nonnegative real number, and the facts about counts that go with it.
  The extended reals are not a semiring (⊤ + ⊥ = ⊥ breaks distributivity in general), but multiplication by the
  coercion of a nonnegative real does distribute over addition, hence over a finite sum, hence over a finite sum
  restricted by a condition. A 32-bit word made from a natural number below 2^31 reads back, signed, as that number;
  a sum of ones over the elements that satisfy a condition is the number of such elements; the bit pattern 0x3F800000
  is the single-precision one; and the reciprocal square root of a positive count is a nonnegative real number.
-/
import Idealize.ShloMosaic.PureOps.Ideal

noncomputable section

open scoped BigOperators

namespace Cert.Lib.ERealScale

open Idealize.ShloMosaic

/-! ### Scaling a sum by a nonnegative real -/

/-- Multiplication on the right by a nonnegative real number distributes over a finite sum of extended reals. -/
theorem sum_mul_coe_of_nonneg {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- The same for a sum restricted by a condition, each term a product: the scale goes onto the second factor. -/
theorem sum_ite_mul_coe_of_nonneg {ι : Type*} (s : Finset ι) (c : ι → Prop) [DecidablePred c] (h δ : ι → EReal)
    {r : ℝ} (hr : 0 ≤ r) :
    (∑ e ∈ s, if c e then h e * δ e else 0) * (r : EReal) = ∑ e ∈ s, if c e then h e * (δ e * (r : EReal)) else 0 := by
  rw [sum_mul_coe_of_nonneg s _ hr]
  refine Finset.sum_congr rfl fun e _ => ?_
  split_ifs
  · rw [mul_assoc]
  · rw [zero_mul]

/-! ### Counts -/

/-- The inclusion of the reals commutes with finite sums. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of a one per element that satisfies a condition, in the extended reals, is the number of such elements. -/
theorem sum_ite_one {ι : Type*} (s : Finset ι) (c : ι → Prop) [DecidablePred c] :
    (∑ e ∈ s, if c e then (1 : EReal) else 0) = (((s.filter c).card : ℝ) : EReal) := by
  rw [← Finset.sum_filter]
  have h := coe_finset_sum (s.filter c) (fun _ => (1 : ℝ))
  rw [Finset.sum_const, nsmul_eq_mul, mul_one] at h
  rw [h]
  simp only [EReal.coe_one]

/-- A 32-bit word made from a natural number below 2^31 reads back, signed, as that number. -/
theorem toInt_ofNat_of_lt {n : ℕ} (h : n < 2 ^ 31) : (BitVec.ofNat 32 n).toInt = (n : ℤ) := by
  rw [BitVec.toInt_eq_toNat_cond, BitVec.toNat_ofNat]
  have h1 : n % 2 ^ 32 = n := Nat.mod_eq_of_lt (by omega)
  rw [h1, if_pos (by omega)]

/-! ### Literals and the reciprocal square root -/

/-- The single-precision bit pattern 0x3F800000 is one. -/
theorem ofBits_one_f32 : Ideal.ofBits .f32 0x3F800000#32 = 1 := by
  simp [Ideal.ofBits, Ideal.ieee]
  rw [← EReal.coe_mul, ← EReal.coe_one]
  congr 1
  norm_num

/-- The reciprocal square root of a positive natural number is the coercion of a nonnegative real number. -/
theorem rsqrt_natCast_pos {n : ℕ} (h : 0 < n) :
    ∃ r : ℝ, 0 ≤ r ∧ Ideal.rsqrt (((n : ℝ)) : EReal) = (r : EReal) := by
  have hn : (0 : ℝ) < (n : ℝ) := Nat.cast_pos.mpr h
  refine ⟨(Real.sqrt (n : ℝ))⁻¹, inv_nonneg.mpr (Real.sqrt_nonneg _), ?_⟩
  rw [Ideal.rsqrt_coe, if_neg (not_lt.mpr hn.le), if_neg hn.ne']

end Cert.Lib.ERealScale

end
-- ==== Proof.PoolValue.lean ====
/-
  The second pallas_call's output array as ONE function of the arrays it was entered with: after the last grid point, entry
  (g, k) is the sum of the hidden rows' k-th entries over the rows whose graph id is g. The accumulator starts at zero, point
  t adds the rows 5000 t … 5000 t + 4999 (a one-hot of the ids against 0 … 255, transposed, times the rows: a 0/1 factor per
  row), and twenty tiles of 5000 rows are the 100000 rows.
-/
import proofs.«416541_j73967926772095_1_alg».proof.Proof.KIPool
import proofs.«416541_j73967926772095_1_alg».proof.Proof.Spec
import proofs.«416541_j73967926772095_1_alg».proof.Proof.LibTileSum
import proofs.«416541_j73967926772095_1_alg».proof.Proof.LibERealScale
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PoolValue

open Cert.KernelIdeal Cert.KernelIdeal.Gen Cert.KernelIdeal.Pool Cert.Spec
open Idealize.ShloMosaic Idealize.ShloMosaic.TcCoe Idealize.ShloMosaic.ValueIdx
open Idealize.SL Idealize.SL.Sem
open Idealize.ShloMosaic.Pipeline (Dat)
open scoped BigOperators

-- what the core's buffers hold when the region is entered, at the exact instance
variable (V : (c : Dev nD) → (b : Ref sig .tc) → Buf (Elt Ideal) ((c : Thread nD τ).loc b))

/-! ## The contraction's operand indices -/

theorem lhs_pool_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem lhs_pool_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide), dif_pos (show (1 : Fin S5000x256.rank) ∈ dot_S5000x256_S5000x64_S256x64_0_0_1_1_n_n.lhsNonContracting by decide)]
  rfl
theorem rhs_pool_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem rhs_pool_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide), dif_pos (show (1 : Fin S5000x64.rank) ∈ dot_S5000x256_S5000x64_S256x64_0_0_1_1_n_n.rhsNonContracting by decide)]
  rfl

/-- The product of the transposed left operand with the right one, into a zero accumulator, at (g, k): the sum over the
    5000 rows r of left (r, g) times right (r, k). -/
theorem matmul_pool_apply (a : FVec Ideal S5000x256 .f32) (h : FVec Ideal S5000x64 .f32) (g : Fin 256) (k : Fin 64) :
    matmul dot_S5000x256_S5000x64_S256x64_0_0_1_1_n_n none a h (constant S256x64 .f32 0x00000000#32) (ix2 g k)
      = ∑ r : Fin 5000, a (ix2 r g) * h (ix2 r k) := by
  simp only [matmul]
  rw [Ideal.matmul_constant_zero_apply, ← Equiv.sum_comp (contrEquiv1 dot_S5000x256_S5000x64_S256x64_0_0_1_1_n_n 5000 rfl rfl).symm]
  refine Finset.sum_congr rfl fun r _ => ?_
  have hr := contrEquiv1_symm_val dot_S5000x256_S5000x64_S256x64_0_0_1_1_n_n 5000 rfl rfl r
  have el : dot_S5000x256_S5000x64_S256x64_0_0_1_1_n_n.lhsIdx (ix2 g k) ((contrEquiv1 dot_S5000x256_S5000x64_S256x64_0_0_1_1_n_n 5000 rfl rfl).symm r) = ix2 r g := funext fun a => Fin.ext (by
    match a with
    | ⟨0, _⟩ => exact (lhs_pool_0 _ _).trans hr
    | ⟨1, _⟩ => exact lhs_pool_1 _ _)
  have er : dot_S5000x256_S5000x64_S256x64_0_0_1_1_n_n.rhsIdx (ix2 g k) ((contrEquiv1 dot_S5000x256_S5000x64_S256x64_0_0_1_1_n_n 5000 rfl rfl).symm r) = ix2 r k := funext fun a => Fin.ext (by
    match a with
    | ⟨0, _⟩ => exact (rhs_pool_0 _ _).trans hr
    | ⟨1, _⟩ => exact rhs_pool_1 _ _)
  rw [el, er]

/-! ## One entry of the one-hot matrix -/

/-- A 32-bit word is the word of a number below 256 exactly when, read signed, it is that number. -/
theorem word_eq_iff (x : BitVec 32) (g : Fin 256) : x = BitVec.ofNat 32 g.val ↔ x.toInt = (g.val : ℤ) := by
  have hg : g.val < 2 ^ 31 := by have := g.isLt; omega
  constructor
  · rintro rfl; exact Cert.Lib.ERealScale.toInt_ofNat_of_lt hg
  · intro h; exact BitVec.eq_of_toInt_eq (h.trans (Cert.Lib.ERealScale.toInt_ofNat_of_lt hg).symm)

/-- A truth value as one bit, widened to 32 bits and read signed, is 1 or 0. -/
theorem toInt_bit (b : Bool) : ((BitVec.ofBool b).setWidth 32).toInt = if b then 1 else 0 := by
  cases b <;> decide

/-- The comparison of a word with the word of g < 256, widened and converted to a float: 1 when the word read signed is
    g, 0 otherwise. -/
theorem onehot_word (x : BitVec 32) (g : Fin 256) :
    ((((IntOp.cmpi .eq x (BitVec.ofNat 32 g.val)).setWidth 32).toInt : ℝ) : EReal) = if x.toInt = (g.val : ℤ) then 1 else 0 := by
  show ((((BitVec.ofBool (x == BitVec.ofNat 32 g.val)).setWidth 32).toInt : ℝ) : EReal) = _
  rw [toInt_bit]
  by_cases h : x.toInt = (g.val : ℤ)
  · rw [if_pos h, (word_eq_iff x g).mpr h]; simp
  · have hne : x ≠ BitVec.ofNat 32 g.val := fun e => h ((word_eq_iff x g).mp e)
    rw [if_neg h]; simp [hne]

/-- The one-hot matrix at (r, g): the id of row r compared with g. -/
theorem onehot_apply (b : Vec Ideal S5000x1 .i32) (hb : S5000x1.Broadcasts S5000x256)
    (hi : S5000x256.Iotas .tc 32 [1]) (hw : 1 < 32) (r : Fin 5000) (g : Fin 256) :
    (sitofp .f32 (extui 32 (cmpi .eq (broadcastTo S5000x256 b hb) (iota .tc S5000x256 32 [1] hi)) hw) : FVec Ideal S5000x256 .f32) (ix2 r g)
      = if (b (ix2 r (0 : Fin 1))).toInt = (g.val : ℤ) then 1 else 0 := by
  show ((((IntOp.cmpi .eq (broadcastTo S5000x256 b hb (ix2 r g)) (iota .tc S5000x256 32 [1] hi (ix2 r g))).setWidth 32).toInt : ℝ) : EReal) = _
  rw [broadcastTo_apply b hb (ix2 r g) (ix2 r (0 : Fin 1)) (fun a => by match a with | ⟨0, _⟩ => rfl | ⟨1, _⟩ => rfl), iota_single_apply]
  exact onehot_word _ g

/-! ## One grid point's update, entry by entry -/

/-- The accumulator after a point at (g, k): the accumulator before plus, over the point's 5000 rows, the row's k-th entry
    when the row's id is g. -/
theorem poolStep_apply (b : Vec Ideal S5000x1 .i32) (h : Vec Ideal S5000x64 .f32) (s : Vec Ideal S256x64 .f32) (g : Fin 256) (k : Fin 64) :
    poolStep b h s (ix2 g k)
      = s (ix2 g k) + ∑ r : Fin 5000, (if (b (ix2 r (0 : Fin 1))).toInt = (g.val : ℤ) then (1 : EReal) else 0) * h (ix2 r k) := by
  unfold poolStep k1_pay2
  simp only [shapeCast_self]
  rw [addf_apply, matmul_pool_apply]
  refine congrArg (s (ix2 g k) + ·) (Finset.sum_congr rfl fun r _ => ?_)
  rw [onehot_apply]

/-- The block the first point starts from is zero everywhere. -/
theorem poolZero_apply (i : S256x64.Idx) : poolZero (F := Ideal) i = 0 := by
  unfold poolZero k1_pay1
  rw [shapeCast_self, broadcast_apply]
  exact Ideal.ofBits_zero_f32

/-! ## The blocks as rows of the arrays -/

/-- The block indices of the three windows at every grid point: the two inputs' blocks move down one block of rows per
    point, the output's block is the whole array at every point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- Row r of the ids' block at point t is row 5000 t + r of the ids. -/
theorem iblk1_0_apply (c : Dev nD) (t : Fin cfg1.N) (r : Fin 5000) (n : Fin 100000) (hn : n.val = 5000 * t.val + r.val) :
    (iblk1 V c 0 t : Vec Ideal S5000x1 .i32) (ix2 r (0 : Fin 1)) = (V c main_v17 : S100000x1.Idx → BitVec 32) (ix2 n (0 : Fin 1)) := by
  obtain ⟨e0, e1, -⟩ := idx_facts t
  unfold iblk1
  rw [View.read_apply]
  show V c main_v17 _ = V c main_v17 _
  refine congrArg (V c main_v17) (funext fun a => Fin.ext ?_)
  match a with
  | ⟨0, _⟩ => show win1_0.index t (0 : Fin 2) * 5000 + 1 * r.val = n.val; rw [e0, hn]; omega
  | ⟨1, _⟩ => show win1_0.index t (1 : Fin 2) * 1 + 1 * 0 = 0; rw [e1]

/-- Row r of the hidden rows' block at point t is row 5000 t + r of the hidden rows. -/
theorem iblk1_1_apply (c : Dev nD) (t : Fin cfg1.N) (r : Fin 5000) (k : Fin 64) (n : Fin 100000) (hn : n.val = 5000 * t.val + r.val) :
    (iblk1 V c 1 t : Vec Ideal S5000x64 .f32) (ix2 r k) = (V c main_v16 : S100000x64.Idx → EReal) (ix2 n k) := by
  obtain ⟨-, -, e2, e3, -⟩ := idx_facts t
  unfold iblk1
  rw [View.read_apply]
  show V c main_v16 _ = V c main_v16 _
  refine congrArg (V c main_v16) (funext fun a => Fin.ext ?_)
  match a with
  | ⟨0, _⟩ => show win1_1.index t (0 : Fin 2) * 5000 + 1 * r.val = n.val; rw [e2, hn]; omega
  | ⟨1, _⟩ => show win1_1.index t (1 : Fin 2) * 64 + 1 * k.val = k.val; rw [e3]; omega

/-! ## The accumulator as a sum over tiles of rows -/

/-- Row n's contribution to entry (g, k): its k-th entry when its id is g, else zero. -/
def term (c : Dev nD) (g : Fin 256) (k : Fin 64) (n : Fin 100000) : EReal :=
  if ((V c main_v17 : S100000x1.Idx → BitVec 32) (ix2 n (0 : Fin 1))).toInt = (g.val : ℤ) then (V c main_v16 : S100000x64.Idx → EReal) (ix2 n k) else 0

/-- The contributions of the 5000 rows of tile t; zero past the last tile. -/
def tileSum (c : Dev nD) (g : Fin 256) (k : Fin 64) (t : ℕ) : EReal :=
  if ht : t < 20 then ∑ r : Fin 5000, term V c g k ⟨t * 5000 + r.val, by have := r.isLt; omega⟩ else 0

/-- What one point adds to entry (g, k) is the tile's contributions. -/
theorem step_sum (c : Dev nD) (t : Fin cfg1.N) (g : Fin 256) (k : Fin 64) :
    ∑ r : Fin 5000, (if ((iblk1 V c 0 t : Vec Ideal S5000x1 .i32) (ix2 r (0 : Fin 1))).toInt = (g.val : ℤ) then (1 : EReal) else 0)
        * (iblk1 V c 1 t : Vec Ideal S5000x64 .f32) (ix2 r k)
      = tileSum V c g k t.val := by
  have ht : t.val < 20 := lt_of_lt_of_eq t.isLt (show cfg1.N = 20 from N_1)
  unfold tileSum
  rw [dif_pos ht]
  refine Finset.sum_congr rfl fun r _ => ?_
  have hr := r.isLt
  rw [iblk1_0_apply V c t r ⟨t.val * 5000 + r.val, by omega⟩ (by show t.val * 5000 + r.val = 5000 * t.val + r.val; omega),
    iblk1_1_apply V c t r k ⟨t.val * 5000 + r.val, by omega⟩ (by show t.val * 5000 + r.val = 5000 * t.val + r.val; omega)]
  unfold term
  split_ifs with h
  · exact one_mul _
  · exact zero_mul _

/-- The accumulator after point n at (g, k): the contributions of the tiles 0 … n. -/
theorem acc1_apply (c : Dev nD) (g : Fin 256) (k : Fin 64) :
    ∀ (n : ℕ) (hn : n < cfg1.N), acc1 V c n hn (ix2 g k) = ∑ t ∈ Finset.range (n + 1), tileSum V c g k t := by
  intro n
  induction n with
  | zero =>
    intro hn
    show poolStep (iblk1 V c 0 ⟨0, hn⟩) (iblk1 V c 1 ⟨0, hn⟩) poolZero (ix2 g k) = _
    rw [poolStep_apply, poolZero_apply, zero_add, step_sum V c ⟨0, hn⟩ g k, Finset.sum_range_one]
  | succ n ih =>
    intro hn
    show poolStep (iblk1 V c 0 ⟨n + 1, hn⟩) (iblk1 V c 1 ⟨n + 1, hn⟩) (acc1 V c n (Nat.lt_of_succ_lt hn)) (ix2 g k) = _
    rw [poolStep_apply, ih (Nat.lt_of_succ_lt hn), step_sum V c ⟨n + 1, hn⟩ g k, Finset.sum_range_succ _ (n + 1)]

/-- The 100000 rows are 20 tiles of 5000. -/
theorem sum_rows (f : Fin 100000 → EReal) :
    ∑ n : Fin 100000, f n = ∑ t : Fin 20, ∑ r : Fin 5000, f ⟨t.val * 5000 + r.val, by have := t.isLt; have := r.isLt; omega⟩ :=
  Cert.Lib.TileSum.sum_tiles 20 5000 f

/-- After the last point the accumulator is the hidden rows summed by graph id. -/
theorem acc1_last (c : Dev nD) (g : Fin 256) (k : Fin 64) (hn : 19 < cfg1.N) :
    acc1 V c 19 hn (ix2 g k) = segSum (V c main_v17) (V c main_v16) (ix2 g k) := by
  rw [acc1_apply V c g k 19 hn, Finset.sum_range, segSum_ix2]
  refine Eq.trans ?_ (sum_rows (term V c g k)).symm
  refine Finset.sum_congr rfl fun t _ => ?_
  unfold tileSum
  rw [dif_pos t.isLt]

/-! ## The output array -/

/-- An index of the output array is in the output block of point t when each coordinate is in the block's range. -/
theorem mem_blk (t : Fin cfg1.N) (i : S256x64.Idx) :
    i ∈ ((cfg1.win 2).blk t).view.set ↔ ∀ a : Fin 2, win1_2.index t a * S256x64.size a ≤ (i a).val ∧ (i a).val < win1_2.index t a * S256x64.size a + S256x64.size a := by
  show i ∈ ((View.whole main_v18).slice (win1_2.rect t)).set ↔ _
  rw [View.set_slice_whole, Rect.mem_set_unit]
  exact Iff.rfl

/-- The one write-back, at the last point, writes the accumulator after the last point, the output block being the whole
    array: whatever function G of the output's indices the accumulator then is, the write-back writes G's block. -/
theorem flushed_eq_of (c : Dev nD) (G : S256x64.Idx → EReal)
    (hG : ∀ (hn : 19 < cfg1.N) (g : Fin 256) (k : Fin 64), acc1 V c 19 hn (ix2 g k) = G (ix2 g k))
    (t : Fin cfg1.N) (hf : (cfg1.win 2).flush t = true) :
    (dat1 (F := Ideal) V c).flushed 2 t = ((cfg1.win 2).blk t).view.read (Elt Ideal) G := by
  have hN : cfg1.N = 20 := N_1
  have h19 : t.val = 19 := by have := (flush1_2 t).mp hf; have := t.isLt; omega
  obtain ⟨-, -, -, -, e4, e5⟩ := idx_facts t
  show (cfg1.win 2).cut (grid1.coords t) ((dat1 V c).after 2 t) = _
  rw [after1_2]
  funext j
  rw [View.read_apply]
  show acc1 V c t.val t.isLt j = G (((cfg1.win 2).blk t).view.emb j)
  obtain ⟨g, k, rfl⟩ : ∃ (g : Fin 256) (k : Fin 64), j = ix2 g k := ⟨j 0, j 1, eq_ix2 j⟩
  have he : ((cfg1.win 2).blk t).view.emb (ix2 g k) = ix2 g k := by
    funext a
    apply Fin.ext
    match a with
    | ⟨0, _⟩ => show win1_2.index t (0 : Fin 2) * 256 + 1 * g.val = g.val; rw [e4]; omega
    | ⟨1, _⟩ => show win1_2.index t (1 : Fin 2) * 64 + 1 * k.val = k.val; rw [e5]; omega
  rw [he]
  have key : ∀ (n : ℕ) (hn : n < cfg1.N), n = 19 → acc1 V c n hn (ix2 g k) = G (ix2 g k) := by
    intro n hn e
    subst e
    exact hG hn g k
  exact key t.val t.isLt h19

/-- After the last grid point the output array is the hidden rows summed by graph id, index by index. -/
theorem pool_array (c : Dev nD) :
    (dat1 (F := Ideal) V c).arrAt 2 cfg1.N = segSum (V c main_v17) (V c main_v16) :=
  (dat1 V c).arrAt_eq_of_cover 2 (segSum (V c main_v17) (V c main_v16))
    (flushed_eq_of V c (segSum (V c main_v17) (V c main_v16)) fun hn g k => acc1_last V c g k hn) fun i =>
    ⟨⟨19, by rw [show cfg1.N = 20 from N_1]; decide⟩, (flush1_2 _).mpr rfl, by
      obtain ⟨-, -, -, -, e4, e5⟩ := idx_facts ⟨19, by rw [show cfg1.N = 20 from N_1]; decide⟩
      rw [mem_blk]
      intro a
      have h0 : (i 0 : Nat) < 256 := (i 0).isLt
      have h1 : (i 1 : Nat) < 64 := (i 1).isLt
      match a with
      | ⟨0, _⟩ => show win1_2.index _ (0 : Fin 2) * 256 ≤ (i 0 : Nat) ∧ (i 0 : Nat) < win1_2.index _ (0 : Fin 2) * 256 + 256; rw [e4]; omega
      | ⟨1, _⟩ => show win1_2.index _ (1 : Fin 2) * 64 ≤ (i 1 : Nat) ∧ (i 1 : Nat) < win1_2.index _ (1 : Fin 2) * 64 + 64; rw [e5]; omega⟩

end Cert.KernelIdeal.PoolValue

end
-- ==== Proof.KIValue.lean ====
/-
  The kernel's program's result as one function of its arguments, at the exact instance. Reading the buffers back boundary by
  boundary: the first pallas_call is entered with the arguments as launched, the aggregated neighbour features and the two
  biases as rows, and leaves the two-layer perceptron's rows in its output; the second is entered with that and the graph ids
  as a column, and leaves the rows summed by graph id; the host operations after it divide by the clamped counts, apply the
  classifier and add its bias.
-/
import proofs.«416541_j73967926772095_1_alg».proof.Proof.KIRun
import proofs.«416541_j73967926772095_1_alg».proof.Proof.KITail
import proofs.«416541_j73967926772095_1_alg».proof.Proof.KIHead
import proofs.«416541_j73967926772095_1_alg».proof.Proof.MlpValue
import proofs.«416541_j73967926772095_1_alg».proof.Proof.PoolValue

set_option maxRecDepth 16384

noncomputable section

namespace Cert.KernelIdeal.Result

open Cert.KernelIdeal Cert.KernelIdeal.Gen Cert.KernelIdeal.Whole Cert.KernelIdeal.Tail Cert.KernelIdeal.Head Cert.Spec
open Idealize.ShloMosaic Idealize.ShloMosaic.TcCoe Idealize.SL.Sem

variable (m : (ℓ : Loc nD τ sig) → Buf (Elt Ideal) ℓ)

/-- An argument's launch contents on core `c`. -/
abbrev arg (c : Dev nD) (r : Ref sig .tc) : Buf (Elt Ideal) ((c : Thread nD τ).loc r) := m ((c : Thread nD τ).loc r)

/-! ## What the first pallas_call is entered with -/

theorem En0_x (c : Dev nD) : En0 m c main_arg0 = arg m c main_arg0 := V1_of m c main_arg0 (by decide)
theorem En0_W1 (c : Dev nD) : En0 m c main_arg3 = arg m c main_arg3 := V1_of m c main_arg3 (by decide)
theorem En0_W2 (c : Dev nD) : En0 m c main_arg5 = arg m c main_arg5 := V1_of m c main_arg5 (by decide)
theorem En0_agg (c : Dev nD) : En0 m c main_v13 = aggK (F := Ideal) (arg m c main_arg0) (arg m c main_arg1) := after_agg (V0 m c)
theorem En0_b1 (c : Dev nD) : En0 m c main_v14 = shapeCast S1x64 (arg m c main_arg4) shapeCasts_S64_S1x64 := after_bias1 (V0 m c)
theorem En0_b2 (c : Dev nD) : En0 m c main_v15 = shapeCast S1x64 (arg m c main_arg6) shapeCasts_S64_S1x64 := after_bias2 (V0 m c)

/-- The hidden features: what the first pallas_call leaves in its output array. -/
def hiddenK (c : Dev nD) : Mat 100000 64 :=
  hidden (arg m c main_arg0) (aggK (F := Ideal) (arg m c main_arg0) (arg m c main_arg1)) (arg m c main_arg3)
    (shapeCast S1x64 (arg m c main_arg4) shapeCasts_S64_S1x64) (arg m c main_arg5) (shapeCast S1x64 (arg m c main_arg6) shapeCasts_S64_S1x64)

theorem hidden_out (c : Dev nD) : V2 m (outs m) c (Proc.devRef .tc main_v16) = hiddenK m c := by
  refine (V2_out m c).trans ?_
  rw [MlpValue.mlp_array (En0 m) c, En0_x, En0_agg, En0_W1, En0_b1, En0_W2, En0_b2]
  rfl

/-! ## What the second pallas_call is entered with -/

theorem En1_ids (c : Dev nD) : En1 m c main_v17 = shapeCast S100000x1 (arg m c main_arg2) shapeCasts_S100000_S100000x1 :=
  (after_idcol (V2 m (outs0 m) c)).trans
    (congrArg (fun b => shapeCast S100000x1 b shapeCasts_S100000_S100000x1)
      ((V2_of m (outs0 m) c main_arg2 (by decide)).trans (V1_of m c main_arg2 (by decide))))

theorem En1_hidden (c : Dev nD) : En1 m c main_v16 = hiddenK m c :=
  ((V3_of m (outs0 m) c main_v16 (by decide)).trans (congrFun (V2_outs m c).symm _)).trans (hidden_out m c)

/-- The pooled sums: what the second pallas_call leaves in its output array. -/
def sumsK (c : Dev nD) : Mat 256 64 :=
  segSum (shapeCast S100000x1 (arg m c main_arg2) shapeCasts_S100000_S100000x1) (hiddenK m c)

theorem sums_out (c : Dev nD) : V4 m (outs m) c (Proc.devRef .tc main_v18) = sumsK m c := by
  refine (V4_out m c).trans ?_
  rw [PoolValue.pool_array (En1 m) c, En1_ids, En1_hidden]
  rfl

/-! ## The host operations after the second pallas_call -/

theorem tail_sums (c : Dev nD) : V6 m (outs m) c (Proc.devRef .tc main_v18) = sumsK m c :=
  ((V6_of m (outs m) c main_v18 (by decide)).trans (V5_of m (outs m) c main_v18 (by decide))).trans (sums_out m c)

theorem tail_bins (c : Dev nD) :
    V6 m (outs m) c (Proc.devRef .tc main_v19) = broadcastInDim S256 ![] bcast_S_S256 (constantI S_ 32 0#32) :=
  (V6_of m (outs m) c main_v19 (by decide)).trans (after_zero_bins (V4 m (outs m) c))

theorem tail_ids (c : Dev nD) : V5 m (outs m) c (Proc.devRef .tc main_arg2) = arg m c main_arg2 :=
  (V5_of m (outs m) c main_arg2 (by decide)).trans <| (V4_of m (outs m) c main_arg2 (by decide)).trans <|
    (V3_of m (outs m) c main_arg2 (by decide)).trans <| (V2_of m (outs m) c main_arg2 (by decide)).trans <|
      V1_of m c main_arg2 (by decide)

theorem tail_clip (c : Dev nD) :
    V6 m (outs m) c (Proc.devRef .tc main_v20)
      = maxsi (broadcastInDim S100000 ![] bcast_S_S100000 (constantI S_ 32 0#32)) (arg m c main_arg2) := by
  refine (after_clip (V5 m (outs m) c)).trans ?_
  rw [show V5 m (outs m) c (Proc.devRef .tc main_c_2) = constantI S_ 32 0#32 from after_zero_scalar (V4 m (outs m) c), tail_ids]

theorem tail_Wc (c : Dev nD) : V6 m (outs m) c (Proc.devRef .tc main_arg7) = arg m c main_arg7 :=
  (V7_of m (outs m) c main_arg7 (by decide)).symm.trans (V7_main_arg7 m (outs m) c)
theorem tail_bc (c : Dev nD) : V6 m (outs m) c (Proc.devRef .tc main_arg8) = arg m c main_arg8 :=
  (V7_of m (outs m) c main_arg8 (by decide)).symm.trans (V7_main_arg8 m (outs m) c)

/-- The program's result buffer at the end, as a function of the arguments. -/
theorem result (c : Dev nD) :
    V7 m (outs m) c (Proc.devRef .tc main_v38)
      = finishK (F := Ideal) (sumsK m c) (broadcastInDim S256 ![] bcast_S_S256 (constantI S_ 32 0#32))
          (maxsi (broadcastInDim S100000 ![] bcast_S_S100000 (constantI S_ 32 0#32)) (arg m c main_arg2))
          (arg m c main_arg7) (arg m c main_arg8) := by
  refine (after_finish (V6 m (outs m) c)).trans ?_
  rw [tail_sums, tail_bins, tail_clip, tail_Wc, tail_bc]

end Cert.KernelIdeal.Result

end
-- ==== Proof.LibRowScatter.lean ====
/-
  The accumulating scatter of ROWS, read at an index.

  For an operand [N, C], a column [R, 1] of scatter indices and updates [R, C] (the update's axis 1 is the window axis,
  the operand's axis 0 the inserted one the scatter index names), update element (n, q') lands on operand element
  (p, q) exactly when the scatter index of row n, read signed, is p's number and q' = q; an index outside 0 … N - 1
  lands nowhere. So over the extended reals the accumulating scatter at (p, q) is the operand there plus the sum, over
  the update rows n whose scatter index is p, of the update at (n, q).
-/
import Idealize.ShloMosaic.PureOps.Ideal
import Idealize.ShloMosaic.PureOps.Contract
import Idealize.ShloMosaic.Lib.ValueIdx

noncomputable section

open scoped BigOperators

namespace Cert.Lib.RowScatter

open Idealize.ShloMosaic Idealize.ShloMosaic.ValueIdx

/-- A sum over the elements that satisfy a condition is the sum of the terms switched by an equivalent condition. -/
theorem sum_filter_of_iff {ι M : Type*} [AddCommMonoid M] (s : Finset ι) (P Q : ι → Prop) [DecidablePred P] [DecidablePred Q]
    (h : ∀ j, P j ↔ Q j) (f : ι → M) : ∑ j ∈ s.filter P, f j = ∑ j ∈ s, if Q j then f j else 0 := by
  rw [Finset.sum_filter]
  refine Finset.sum_congr rfl fun j _ => ?_
  by_cases hq : Q j
  · rw [if_pos hq, if_pos ((h j).mpr hq)]
  · rw [if_neg hq, if_neg (mt (h j).mp hq)]

/-- The dimension numbers of x.at[idx].add(u) for an operand [N, C], scatter indices [R, 1] and updates [R, C]. -/
abbrev putRowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the operand's row axis the window of update element j starts at the scatter index of j's row, read signed. -/
theorem putRow_start0 (j : (⟨2, ![R, C]⟩ : Shape).Idx) (idx : IVec ⟨2, ![R, 1]⟩ w) :
    (putRowDims N R C wf).start j idx 0 = (idx (ix2 (⟨(j 0).val, idx2_lt0 j⟩ : Fin R) (0 : Fin 1))).toInt := by
  unfold ScatterDims.start
  rw [dif_pos (show (0 : Fin 2) ∈ (putRowDims N R C wf).scatterDimsToOperandDims from List.mem_singleton.mpr rfl)]
  have hsi : (putRowDims N R C wf).siIdx j ⟨List.idxOf (0 : Fin 2) (putRowDims N R C wf).scatterDimsToOperandDims,
      List.idxOf_lt_length_iff.2 (List.mem_singleton.mpr rfl)⟩ = ix2 (⟨(j 0).val, idx2_lt0 j⟩ : Fin R) (0 : Fin 1) := by
    funext b; refine Fin.ext ?_
    match b with
    | ⟨0, _⟩ => rfl
    | ⟨1, _⟩ => rfl
  rw [hsi]

/-- On the operand's column axis the window starts at 0. -/
theorem putRow_start1 (j : (⟨2, ![R, C]⟩ : Shape).Idx) (idx : IVec ⟨2, ![R, 1]⟩ w) :
    (putRowDims N R C wf).start j idx 1 = 0 := by
  unfold ScatterDims.start
  rw [dif_neg]
  intro h
  exact absurd (List.mem_singleton.mp h) (show (1 : Fin 2) ≠ 0 by decide)

/-- The window has one row. -/
theorem putRow_window0 (j : (⟨2, ![R, C]⟩ : Shape).Idx) : (putRowDims N R C wf).window j 0 = 0 := by
  unfold ScatterDims.window
  rw [dif_neg]
  simp [ScatterDims.sKept, Shape.kept, List.mem_filter, List.mem_finRange]

/-- Across the columns the window coordinate is the update element's column. -/
theorem putRow_window1 (j : (⟨2, ![R, C]⟩ : Shape).Idx) : (putRowDims N R C wf).window j 1 = (j 1).val := by
  unfold ScatterDims.window
  have hm : (1 : Fin 2) ∈ (putRowDims N R C wf).sKept := by
    simp [ScatterDims.sKept, Shape.kept, List.mem_filter, List.mem_finRange]
  rw [dif_pos hm]
  rfl

/-- Update element j lands at operand element i exactly when the scatter index of j's row, read signed, is i's row
    number and the two are in the same column. -/
theorem putRow_resultIdx?_eq_some_iff (j : (⟨2, ![R, C]⟩ : Shape).Idx) (idx : IVec ⟨2, ![R, 1]⟩ w)
    (i : (⟨2, ![N, C]⟩ : Shape).Idx) :
    (putRowDims N R C wf).resultIdx? j idx = some i
      ↔ (idx (ix2 (⟨(j 0).val, idx2_lt0 j⟩ : Fin R) (0 : Fin 1))).toInt = ((i 0).val : ℤ) ∧ (j 1).val = (i 1).val := by
  have hi0 := idx2_lt0 i
  have hi1 := idx2_lt1 i
  have hj1 := idx2_lt1 j
  have hall : ∀ P : Fin 2 → Prop, (∀ a, P a) ↔ P 0 ∧ P 1 := fun P =>
    ⟨fun h => ⟨h 0, h 1⟩, fun h a => by
      match a with
      | ⟨0, _⟩ => exact h.1
      | ⟨1, _⟩ => exact h.2⟩
  have hs0 : (⟨2, ![N, C]⟩ : Shape).size 0 = N := rfl
  have hs1 : (⟨2, ![N, C]⟩ : Shape).size 1 = C := rfl
  unfold ScatterDims.resultIdx?
  by_cases h : ∀ a : Fin (⟨2, ![N, C]⟩ : Shape).rank, 0 ≤ (putRowDims N R C wf).start j idx a + (putRowDims N R C wf).window j a ∧
      (putRowDims N R C wf).start j idx a + (putRowDims N R C wf).window j a < (⟨2, ![N, C]⟩ : Shape).size a
  · rw [dif_pos h]
    have h0 := h 0
    have h1 := h 1
    rw [putRow_start0, putRow_window0] at h0
    rw [putRow_start1, putRow_window1] at h1
    constructor
    · intro he
      have e := Option.some.inj he
      have e0 := congrArg (fun k : (⟨2, ![N, C]⟩ : Shape).Idx => (k 0).val) e
      have e1 := congrArg (fun k : (⟨2, ![N, C]⟩ : Shape).Idx => (k 1).val) e
      simp only [putRow_start0, putRow_window0, putRow_start1, putRow_window1] at e0 e1
      constructor <;> omega
    · rintro ⟨he0, he1⟩
      congr 1
      funext a
      refine Fin.ext ?_
      match a with
      | ⟨0, _⟩ =>
        show ((putRowDims N R C wf).start j idx 0 + (putRowDims N R C wf).window j 0).toNat = (i 0).val
        rw [putRow_start0, putRow_window0]
        omega
      | ⟨1, _⟩ =>
        show ((putRowDims N R C wf).start j idx 1 + (putRowDims N R C wf).window j 1).toNat = (i 1).val
        rw [putRow_start1, putRow_window1]
        omega
  · rw [dif_neg h]
    constructor
    · intro he; exact absurd he (by simp)
    · rintro ⟨he0, he1⟩
      exfalso
      apply h
      rw [hall]
      rw [putRow_start0, putRow_window0, putRow_start1, putRow_window1, hs0, hs1]
      omega

/-- The accumulating scatter of rows over the extended reals, read at (p, q): the operand there plus the sum, over
    the update rows whose scatter index (read signed) is p, of the update at column q. -/
theorem hostScatterAdd_rows_apply (x : (⟨2, ![N, C]⟩ : Shape).Idx → EReal) (idx : IVec ⟨2, ![R, 1]⟩ w)
    (upd : (⟨2, ![R, C]⟩ : Shape).Idx → EReal) (p : Fin N) (q : Fin C) :
    Ideal.hostScatterAdd (putRowDims N R C wf) x idx upd (ix2 p q)
      = x (ix2 p q) + ∑ n : Fin R, if (idx (ix2 n (0 : Fin 1))).toInt = (p.val : ℤ) then upd (ix2 n q) else 0 := by
  unfold Ideal.hostScatterAdd
  congr 1
  rw [sum_filter_of_iff _ _ _ (fun j => putRow_resultIdx?_eq_some_iff wf j idx (ix2 p q)), sum_idx2]
  refine Finset.sum_congr rfl fun n _ => ?_
  by_cases hn : (idx (ix2 n (0 : Fin 1))).toInt = (p.val : ℤ)
  · rw [if_pos hn, Finset.sum_eq_single q]
    · exact if_pos ⟨hn, rfl⟩
    · intro b _ hb
      exact if_neg fun hc => hb (Fin.ext hc.2)
    · intro hq; exact absurd (Finset.mem_univ q) hq
  · rw [if_neg hn]
    exact Finset.sum_eq_zero fun b _ => if_neg fun hc => hn hc.1

end Cert.Lib.RowScatter

end
-- ==== Proof.RefValue.lean ====
/-
  The reference program's two large stages, each as the function of its operands that the specification names.

  The hidden features: two dense layers with relu over x + a, the biases broadcast from a vector to a row and from the row to
  every row. The pooled sums: a scatter-add of the hidden rows into 256 rows of zeros, row n going to the row its graph id names
  and nowhere when the id names no row.
-/
import proofs.«416541_j73967926772095_1_alg».proof.Proof.Gen.ReferenceIdeal
import proofs.«416541_j73967926772095_1_alg».proof.Proof.Spec
import proofs.«416541_j73967926772095_1_alg».proof.Proof.LibMatProduct
import proofs.«416541_j73967926772095_1_alg».proof.Proof.LibRowScatter
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost

set_option maxRecDepth 16384

noncomputable section

namespace Cert.ReferenceIdeal.RefValue

open Cert.ReferenceIdeal Cert.ReferenceIdeal.Facts₀ Cert.ReferenceIdeal.Facts Cert.Spec
open Idealize.ShloMosaic Idealize.ShloMosaic.ValueIdx
open Cert.Lib.MatProduct Cert.Lib.RowScatter
open scoped BigOperators

/-- The first layer's dot_general is the row-by-column product. -/
theorem dotIn_eq (A : FVec Ideal S100000x128 .f32) (B : FVec Ideal S128x64 .f32) :
    Host.dotGeneral dot_S100000x128_S128x64_S100000x64_1_0_0_1_n_n none A B = matProd A B :=
  dotGeneral_plain_eq none A B

/-- The second layer's dot_general is the row-by-column product. -/
theorem dotHid_eq (A : FVec Ideal S100000x64 .f32) (B : FVec Ideal S64x64 .f32) :
    Host.dotGeneral dot_S100000x64_S64x64_S100000x64_1_0_0_1_n_n none A B = matProd A B :=
  dotGeneral_plain_eq none A B

/-- A product plus a bias row broadcast down every row, then the maximum with a zero broadcast everywhere, is one dense
    layer with relu: at (n, k) the broadcast row reads the row at (0, k) and the broadcast zero reads 0. -/
theorem reluLayer_eq {K : Nat} (l : Mat 100000 K) (W : Mat K 64) (b : FVec Ideal S1x64 .f32) :
    maximumf (addf (matProd l W : FVec Ideal S100000x64 .f32) (broadcastInDim S100000x64 ![0, 1] bcast_S1x64_S100000x64_0_1 b))
        (broadcastInDim S100000x64 ![] bcast_S_S100000x64 (constant S_ .f32 0x00000000#32))
      = layer l W b := by
  funext i
  obtain ⟨n, k, rfl⟩ : ∃ (n : Fin 100000) (k : Fin 64), i = ix2 n k := ⟨i 0, i 1, eq_ix2 i⟩
  rw [layer_ix2, maximumf_apply, addf_apply, matProd_ix2, broadcastInDim_oneRow_apply, broadcastInDim_scalar_apply,
    constant_apply, Ideal.ofBits_zero_f32]

/-- The elementwise sum of two arrays is the function adding their entries. -/
theorem addf_fun (x a : FVec Ideal S100000x128 .f32) : addf x a = fun i => x i + a i :=
  funext fun i => addf_apply x a i

/-- The reference's hidden features as it computes them. -/
def hiddenTerm (x a : FVec Ideal S100000x128 .f32) (W1 : FVec Ideal S128x64 .f32) (b1 : FVec Ideal S64 .f32)
    (W2 : FVec Ideal S64x64 .f32) (b2 : FVec Ideal S64 .f32) : FVec Ideal S100000x64 .f32 :=
  maximumf (addf (Host.dotGeneral dot_S100000x64_S64x64_S100000x64_1_0_0_1_n_n none (maximumf (addf (Host.dotGeneral dot_S100000x128_S128x64_S100000x64_1_0_0_1_n_n none (addf x a) W1) (broadcastInDim S100000x64 ![0, 1] bcast_S1x64_S100000x64_0_1 (broadcastInDim S1x64 ![1] bcast_S64_S1x64_1 b1))) (broadcastInDim S100000x64 ![] bcast_S_S100000x64 (constant S_ .f32 0x00000000#32))) W2) (broadcastInDim S100000x64 ![0, 1] bcast_S1x64_S100000x64_0_1 (broadcastInDim S1x64 ![1] bcast_S64_S1x64_1 b2))) (broadcastInDim S100000x64 ![] bcast_S_S100000x64 (constant S_ .f32 0x00000000#32))

/-- They are the two-layer perceptron of x + a, the biases as rows. -/
theorem hiddenTerm_eq (x a : FVec Ideal S100000x128 .f32) (W1 : FVec Ideal S128x64 .f32) (b1 : FVec Ideal S64 .f32)
    (W2 : FVec Ideal S64x64 .f32) (b2 : FVec Ideal S64 .f32) :
    hiddenTerm x a W1 b1 W2 b2
      = hidden x a W1 (broadcastInDim S1x64 ![1] bcast_S64_S1x64_1 b1) W2 (broadcastInDim S1x64 ![1] bcast_S64_S1x64_1 b2) := by
  unfold hiddenTerm Cert.Spec.hidden
  rw [dotIn_eq, reluLayer_eq, dotHid_eq, reluLayer_eq, addf_fun]

/-- The accumulating scatter of the hidden rows at (g, k): the operand there plus the sum, over the rows whose graph id is
    g, of the row's entry in column k. -/
theorem scatterRows_apply (z : FVec Ideal S256x64 .f32) (ids : IVec S100000x1 32) (h : FVec Ideal S100000x64 .f32)
    (g : Fin 256) (k : Fin 64) :
    Host.scatterAdd scatter_S256x64_S100000x1_S100000x64_1_0_0_1 z ids h (ix2 g k)
      = z (ix2 g k) + ∑ n : Fin 100000, if (ids (ix2 n (0 : Fin 1))).toInt = (g.val : ℤ) then h (ix2 n k) else 0 :=
  hostScatterAdd_rows_apply scatter_S256x64_S100000x1_S100000x64_1_0_0_1_wf z ids h g k

/-- The reference's pooled sums as it computes them, from a column of graph ids and the hidden rows. -/
def sumsTerm (ids : IVec S100000x1 32) (h : FVec Ideal S100000x64 .f32) : FVec Ideal S256x64 .f32 :=
  Host.scatterAdd scatter_S256x64_S100000x1_S100000x64_1_0_0_1 (broadcastInDim S256x64 ![] bcast_S_S256x64 (constant S_ .f32 0x00000000#32)) ids h

/-- They are the rows summed by graph id. -/
theorem sumsTerm_eq (ids : IVec S100000x1 32) (h : FVec Ideal S100000x64 .f32) : sumsTerm ids h = segSum ids h := by
  funext i
  obtain ⟨g, k, rfl⟩ : ∃ (g : Fin 256) (k : Fin 64), i = ix2 g k := ⟨i 0, i 1, eq_ix2 i⟩
  unfold sumsTerm
  rw [segSum_ix2, scatterRows_apply, broadcastInDim_scalar_apply, constant_apply, Ideal.ofBits_zero_f32, zero_add]

end Cert.ReferenceIdeal.RefValue

end
-- ==== Proof.LibHostSums.lean ====
/-
  Sums over the two leading axes of an array, read index by index at the ideal values.

  A host reduction over axes 0 and 1 of an array of extents A × B × C gathers, at channel c, the entries whose last
  coordinate is c: these are exactly the entries (a, b, c), one for each pair (a, b), so a sum over them is the double
  sum over a and b, and there are A · B of them. Over both axes of an A × B matrix the reduction gathers every entry.
  Hence: a float sum is the initial value plus the double sum; an integer sum of an all-ones array is the initial word
  plus the word of A · B, and when A · B is below 2³¹ that word, read as a signed integer and converted, is the real
  number A · B. Beside these, the elementwise facts such sums are taken of: an extended real never differs from
  itself, so the test "x ≠ x" is the bit 0 everywhere and its negation the bit 1; a selection under an all-ones mask is
  its first branch; the float of the bit "v = w" is 1 where the two agree and 0 elsewhere; a scalar broadcast reads the
  scalar; dropping a trailing axis of extent one, and cutting one channel out of the last axis, read the source at the
  evident index.
-/
import Idealize.ShloMosaic.PureOps.Ideal.Laws
import Idealize.ShloMosaic.Lib.ValueIdx
import Idealize.ShloMosaic.Lib.ValueLayout

noncomputable section

namespace Cert.Lib.HostSums

open Idealize.ShloMosaic Idealize.ShloMosaic.ValueIdx

variable {A B C : ℕ}

/-! ## The entries that reduce to a channel -/

/-- Dropping the two leading coordinates of (a, b, c) leaves c. -/
theorem drop_axes01_val (h : (⟨3, ![A, B, C]⟩ : Shape).ReducesTo [0, 1] ⟨1, ![C]⟩)
    (i : (⟨3, ![A, B, C]⟩ : Shape).Idx) : ((h.drop i 0 : Fin C) : ℕ) = (i 2 : ℕ) := rfl

/-- An entry reduces to channel `ch` exactly when its last coordinate is `ch`. -/
theorem drop_axes01_eq_iff (h : (⟨3, ![A, B, C]⟩ : Shape).ReducesTo [0, 1] ⟨1, ![C]⟩)
    (i : (⟨3, ![A, B, C]⟩ : Shape).Idx) (ch : Fin C) : h.drop i = ix1 ch ↔ i 2 = ch := by
  constructor
  · intro e
    have e0 := congrArg (fun j : (⟨1, ![C]⟩ : Shape).Idx => ((j 0 : Fin C) : ℕ)) e
    exact Fin.ext ((drop_axes01_val h i).symm.trans e0)
  · intro e
    funext b
    match b with
    | ⟨0, _⟩ => exact Fin.ext ((drop_axes01_val h i).trans (congrArg Fin.val e))

/-- A sum over the entries that reduce to channel `ch` is the double sum over the two leading coordinates, in any
    commutative monoid: (a, b) ↦ (a, b, ch) is a bijection onto those entries. -/
theorem sum_filter_drop_axes01 {M : Type*} [AddCommMonoid M] (h : (⟨3, ![A, B, C]⟩ : Shape).ReducesTo [0, 1] ⟨1, ![C]⟩)
    (f : (⟨3, ![A, B, C]⟩ : Shape).Idx → M) (ch : Fin C) :
    ∑ i ∈ Finset.univ.filter (fun i => h.drop i = ix1 ch), f i = ∑ a : Fin A, ∑ b : Fin B, f (ix3 a b ch) := by
  rw [← Fintype.sum_prod_type' (f := fun (a : Fin A) (b : Fin B) => f (ix3 a b ch))]
  refine Finset.sum_nbij' (fun i => ((i 0 : Fin A), (i 1 : Fin B))) (fun p => ix3 p.1 p.2 ch) ?_ ?_ ?_ ?_ ?_
  · intro i _; exact Finset.mem_univ _
  · intro p _; exact Finset.mem_filter.2 ⟨Finset.mem_univ _, (drop_axes01_eq_iff h _ ch).2 rfl⟩
  · intro i hi
    have e : i 2 = ch := (drop_axes01_eq_iff h i ch).1 (Finset.mem_filter.1 hi).2
    rw [← e]; exact (eq_ix3 i).symm
  · intro p _; rfl
  · intro i hi
    have e : i 2 = ch := (drop_axes01_eq_iff h i ch).1 (Finset.mem_filter.1 hi).2
    rw [← e]; exact congrArg f (eq_ix3 i)

/-- There are A · B entries that reduce to a channel. -/
theorem card_filter_drop_axes01 (h : (⟨3, ![A, B, C]⟩ : Shape).ReducesTo [0, 1] ⟨1, ![C]⟩) (ch : Fin C) :
    (Finset.univ.filter (fun i => h.drop i = ix1 ch)).card = A * B := by
  rw [Finset.card_eq_sum_ones, sum_filter_drop_axes01 h (fun _ => (1 : ℕ)) ch]
  simp

/-! ## Float sums over the two leading axes -/

/-- The exact sum over axes 0 and 1 of an A × B × C array, at channel `ch`: the initial value plus the double sum of
    the entries (a, b, ch). -/
theorem hostReduceAdd_axes01_rank3 (h : (⟨3, ![A, B, C]⟩ : Shape).ReducesTo [0, 1] ⟨1, ![C]⟩)
    (f : (⟨3, ![A, B, C]⟩ : Shape).Idx → EReal) (init : EReal) (ch : Fin C) :
    Ideal.hostReduceAdd h f init (ix1 ch) = init + ∑ a : Fin A, ∑ b : Fin B, f (ix3 a b ch) := by
  unfold Ideal.hostReduceAdd
  rw [sum_filter_drop_axes01]

/-- The same for the host's float sum as a program writes it, its initial value an array read at its first index. -/
theorem reduceAdd_axes01_rank3 {φ : FTy} {u : Shape} (x : FVec Ideal ⟨3, ![A, B, C]⟩ φ) (init : u.Idx → Ideal φ)
    (h : (⟨3, ![A, B, C]⟩ : Shape).ReducesTo [0, 1] ⟨1, ![C]⟩) (hu : 0 < u.numel) (ch : Fin C) :
    Host.reduceAdd (F := Ideal) x init h hu (ix1 ch)
      = init (Shape.Idx.first hu) + ∑ a : Fin A, ∑ b : Fin B, x (ix3 a b ch) :=
  hostReduceAdd_axes01_rank3 h x _ ch

/-- The exact sum over both axes of an A × B matrix: the initial value plus the double sum of all entries. -/
theorem hostReduceAdd_axes01_rank2 (h : (⟨2, ![A, B]⟩ : Shape).ReducesTo [0, 1] ⟨0, ![]⟩)
    (f : (⟨2, ![A, B]⟩ : Shape).Idx → EReal) (init : EReal) (j : (⟨0, ![]⟩ : Shape).Idx) :
    Ideal.hostReduceAdd h f init j = init + ∑ a : Fin A, ∑ b : Fin B, f (ix2 a b) := by
  rw [Ideal.hostReduceAdd_total h (fun b => b.elim0) f init j, sum_idx2]

/-- The same for the host's float sum as a program writes it. -/
theorem reduceAdd_axes01_rank2 {φ : FTy} {u : Shape} (x : FVec Ideal ⟨2, ![A, B]⟩ φ) (init : u.Idx → Ideal φ)
    (h : (⟨2, ![A, B]⟩ : Shape).ReducesTo [0, 1] ⟨0, ![]⟩) (hu : 0 < u.numel) (j : (⟨0, ![]⟩ : Shape).Idx) :
    Host.reduceAdd (F := Ideal) x init h hu j = init (Shape.Idx.first hu) + ∑ a : Fin A, ∑ b : Fin B, x (ix2 a b) :=
  hostReduceAdd_axes01_rank2 h x _ j

/-! ## Counting with 32-bit words -/

/-- Adding the word 1 once for each member of a finite set, from `v`: `v` plus the word of the set's size. -/
theorem fold_addi_ones {ι : Type*} [DecidableEq ι] (S : Finset ι) (x : ι → BitVec 32) (hx : ∀ i ∈ S, x i = 1#32)
    (v : BitVec 32) : S.fold IntOp.addi v x = v + BitVec.ofNat 32 S.card := by
  induction S using Finset.induction_on with
  | empty => simp
  | insert a S ha ih =>
    rw [Finset.fold_insert ha, ih (fun i hi => hx i (Finset.mem_insert_of_mem hi)), hx a (Finset.mem_insert_self a S),
      Finset.card_insert_of_notMem ha, IntOp.addi_eq_add]
    show 1#32 + (v + BitVec.ofNat 32 S.card) = v + BitVec.ofNat 32 (S.card + 1)
    rw [BitVec.ofNat_add, BitVec.add_comm 1#32, BitVec.add_assoc]

/-- The integer sum over axes 0 and 1 of an all-ones A × B × C array, at a channel: the initial word plus the word of
    A · B. -/
theorem reduce_addi_ones_axes01 {u : Shape} (x : IVec ⟨3, ![A, B, C]⟩ 32) (hx : ∀ i, x i = 1#32)
    (init : u.Idx → BitVec 32) (h : (⟨3, ![A, B, C]⟩ : Shape).ReducesTo [0, 1] ⟨1, ![C]⟩) (hu : 0 < u.numel)
    (ch : Fin C) :
    Host.reduce IntOp.addi x init h hu (ix1 ch) = init (Shape.Idx.first hu) + BitVec.ofNat 32 (A * B) := by
  classical
  rw [Host.reduce_eq_fold, fold_addi_ones _ x (fun i _ => hx i), card_filter_drop_axes01]

/-- A natural number below 2³¹, as a 32-bit word read signed, is itself. -/
theorem toInt_ofNat_of_lt {n : ℕ} (hn : n < 2 ^ 31) : (BitVec.ofNat 32 n).toInt = (n : ℤ) := by
  have ht : (BitVec.ofNat 32 n).toNat = n := by rw [BitVec.toNat_ofNat]; exact Nat.mod_eq_of_lt (by omega)
  rw [BitVec.toInt_eq_toNat_of_lt (by rw [ht]; omega), ht]

/-- So its conversion to a float, at the ideal values, is the real number `n`. -/
theorem sitofp_ofNat_of_lt {n : ℕ} (hn : n < 2 ^ 31) :
    FloatOps.sitofp (F := Ideal) .f32 (BitVec.ofNat 32 n) = ((n : ℝ) : EReal) := by
  show (((BitVec.ofNat 32 n).toInt : ℝ) : EReal) = _
  rw [toInt_ofNat_of_lt hn, Int.cast_natCast]

/-! ## Elementwise facts at the ideal values -/

variable {s : Shape} {φ : FTy}

/-- An extended real never differs from itself: "x ≠ x" is the bit 0 at every index. -/
theorem cmpf_une_self (x : FVec Ideal s φ) (i : s.Idx) : cmpf .une x x i = 0#1 := by
  show Ideal.cmp .une (x i) (x i) = 0#1
  simp [Ideal.cmp]

/-- … and its negation is the bit 1 at every index. -/
theorem noti_cmpf_une_self (x : FVec Ideal s φ) (i : s.Idx) : noti (cmpf .une x x) i = 1#1 := by
  show ~~~(cmpf .une x x i) = 1#1
  rw [cmpf_une_self]; rfl

/-- A selection under an all-ones mask is its first branch. -/
theorem select_of_ones {α : Type} (c : IVec s 1) (hc : ∀ i, c i = 1#1) (a b : s.Idx → α) (i : s.Idx) :
    select c a b i = a i := by
  rw [select_apply, hc, select_one]

/-- An all-ones mask widened to 32 bits is the word 1 at every index. -/
theorem extui_of_ones (c : IVec s 1) (hc : ∀ i, c i = 1#1) (h : 1 < 32) (i : s.Idx) : extui 32 c h i = 1#32 := by
  rw [extui_apply, hc]; rfl

/-- The float of the bit "v = w": 1 where the two agree, 0 elsewhere. -/
theorem uitofp_cmpf_oeq (v w : FVec Ideal s .f32) (i : s.Idx) :
    (uitofp .f32 (cmpf .oeq v w) : FVec Ideal s .f32) i = if v i = w i then 1 else 0 := by
  show (((Ideal.cmp .oeq (v i) (w i)).toNat : ℝ) : EReal) = _
  by_cases e : v i = w i
  · simp [Ideal.cmp, e]
  · simp [Ideal.cmp, e]

/-- A scalar broadcast to any shape reads the scalar at every index. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x ix0 := by
  unfold broadcastInDim
  exact congrArg x (funext fun a => a.elim0)

/-! ## Layout operations at an index -/

/-- An A × B × 1 array recast as an A × B matrix reads, at (a, b), the source at (a, b, 0): the two row-major
    positions are both a · B + b. -/
theorem reshape_ab1_ab_apply {α : Type} (x : (⟨3, ![A, B, 1]⟩ : Shape).Idx → α)
    (h : (⟨3, ![A, B, 1]⟩ : Shape).ShapeCasts ⟨2, ![A, B]⟩) (a : Fin A) (b : Fin B) :
    shapeCast ⟨2, ![A, B]⟩ x h (ix2 a b) = x (ix3 a b 0) := by
  refine shapeCast_apply x h (ix2 a b) (ix3 a b 0) ?_
  rw [Shape.rowMajor_val_three, Shape.rowMajor_val_two]
  show (a.val * B + b.val) * 1 + 0 = a.val * B + b.val
  omega

/-- One channel `k` cut out of the last axis of an A × B × n array reads, at (a, b, 0), the source at (a, b, k). -/
theorem slice_last_apply {α : Type} {n : ℕ} (o : ℕ) (x : (⟨3, ![A, B, n]⟩ : Shape).Idx → α)
    (h : (⟨3, ![A, B, n]⟩ : Shape).Slices ![0, 0, o] ⟨3, ![A, B, 1]⟩) (a : Fin A) (b : Fin B) (k : Fin n)
    (hk : k.val = o) : extractStridedSlice ⟨3, ![A, B, 1]⟩ ![0, 0, o] x h (ix3 a b 0) = x (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.Lib.HostSums

end
-- ==== Proof.LibUnitAxis.lean ====
/-
  Adding a unit axis to a vector, two spellings: a reshape of n entries to an n x 1 column (or a 1 x n row) and a
  broadcast of the vector into that shape along its own axis read every entry from the same place, so they are one
  function.
-/
import Idealize.ShloMosaic.Lib.Pipeline.Value
import Idealize.ShloMosaic.Lib.ValueIdx

noncomputable section

namespace Cert.Lib.UnitAxis

open Idealize.ShloMosaic Idealize.ShloMosaic.ValueIdx

variable {α : Type}

/-- A vector reshaped to one column is the vector broadcast into the column shape along axis 0. -/
theorem reshape_col_eq_broadcastInDim {n : Nat} (y : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ y h = broadcastInDim ⟨2, ![n, 1]⟩ ![0] hb y := by
  funext i
  have hi0 : (i 0).val < n := (i 0).isLt
  have hi1 : (i 1).val < 1 := (i 1).isLt
  have e1 := shapeCast_apply y h i (ix1 (⟨(i 0).val, hi0⟩ : Fin n)) (by
    rw [Shape.rowMajor_val_two, Shape.rowMajor_val_one]; show (i 0).val = (i 0).val * 1 + (i 1).val; omega)
  have e2 := broadcastInDim_apply ![0] hb y i (ix1 (⟨(i 0).val, hi0⟩ : Fin n)) (by
    intro a
    match a with
    | ⟨0, _⟩ =>
      show (i 0).val = if n = 1 then 0 else (i 0).val
      split
      · omega
      · rfl)
  exact e1.trans e2.symm

/-- A vector reshaped to one row is the vector broadcast into the row shape along axis 1. -/
theorem reshape_row_eq_broadcastInDim {n : Nat} (y : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ y h = broadcastInDim ⟨2, ![1, n]⟩ ![1] hb y := by
  funext i
  have hi0 : (i 0).val < 1 := (i 0).isLt
  have hi1 : (i 1).val < n := (i 1).isLt
  have e1 := shapeCast_apply y h i (ix1 (⟨(i 1).val, hi1⟩ : Fin n)) (by
    rw [Shape.rowMajor_val_two, Shape.rowMajor_val_one]; show (i 1).val = (i 0).val * n + (i 1).val
    have : (i 0).val = 0 := by omega
    rw [this]; omega)
  have e2 := broadcastInDim_apply ![1] hb y i (ix1 (⟨(i 1).val, hi1⟩ : Fin n)) (by
    intro a
    match a with
    | ⟨0, _⟩ =>
      show (i 1).val = if n = 1 then 0 else (i 1).val
      split
      · omega
      · rfl)
  exact e1.trans e2.symm

end Cert.Lib.UnitAxis

end
-- ==== Proof.Counts.lean ====
/-
  The two programs' divisors. Both divide graph g's pooled sum by max (the number of nodes whose graph id is g, 1), the same
  number in every column. The kernel's program counts with integers: it clips the ids at zero from below, scatters a one per
  node into 256 integer bins (an id that names no bin is dropped), converts the counts to floats, takes the maximum with one,
  and lays the result out as a column broadcast along the rows. The reference scatter-adds float ones into a column of zeros
  (an id that names no row is dropped) and takes the maximum with one. A negative id is where they would differ: the clip
  sends it to bin 0, the reference drops it. With every id non-negative the clip is the identity and both count the same set.
-/
import proofs.«416541_j73967926772095_1_alg».proof.Proof.Gen.KernelIdeal
import proofs.«416541_j73967926772095_1_alg».proof.Proof.Gen.ReferenceIdeal
import proofs.«416541_j73967926772095_1_alg».proof.Proof.LibRowScatter
import proofs.«416541_j73967926772095_1_alg».proof.Proof.LibHostSums
import proofs.«416541_j73967926772095_1_alg».proof.Proof.LibERealScale
import proofs.«416541_j73967926772095_1_alg».proof.Proof.LibUnitAxis
import Idealize.ShloMosaic.PureOps.Ideal.Laws
import Idealize.ShloMosaic.Lib.ValueIdx
import Idealize.ShloMosaic.Lib.ValueLayout

set_option maxRecDepth 16384

noncomputable section

namespace Cert.Counts

open Idealize.ShloMosaic Idealize.ShloMosaic.ValueIdx
open scoped BigOperators

section
open Cert.KernelIdeal Cert.KernelIdeal.Facts₀ Cert.KernelIdeal.Facts

/-- The graph ids clipped at zero from below, as the kernel's program computes them. -/
def clipped (batch : IVec S100000 32) : IVec S100000 32 :=
  maxsi (broadcastInDim S100000 ![] bcast_S_S100000 (constantI S_ 32 0#32)) batch

/-- The kernel's program's divisor, from the clipped ids. -/
def divisorK (v20 : IVec S100000 32) : FVec Ideal S256x64 .f32 :=
  broadcastInDim S256x64 ![0, 1] bcast_S256x1_S256x64_0_1
    (shapeCast S256x1
      (maximumf
        (sitofp .f32
          (Host.scatter scatter_S256_S100000x1_S100000_n_0_0_1 IntOp.addi
            (broadcastInDim S256 ![] bcast_S_S256 (constantI S_ 32 0#32))
            (broadcastInDim S100000x1 ![0] bcast_S100000_S100000x1_0
              (select (cmpi .slt v20 (broadcastInDim S100000 ![] bcast_S_S100000 (constantI S_ 32 0#32)))
                (addi v20 (broadcastInDim S100000 ![] bcast_S_S100000 (constantI S_ 32 256#32))) v20))
            (broadcastInDim S100000 ![] bcast_S_S100000 (constantI S_ 32 1#32))))
        (broadcastInDim S256 ![] bcast_S_S256 (constant S_ .f32 0x3F800000#32)))
      shapeCasts_S256_S256x1)

end

section
open Cert.ReferenceIdeal Cert.ReferenceIdeal.Facts₀ Cert.ReferenceIdeal.Facts

/-- The reference's divisor, from the ids. -/
def divisorR (batch : IVec S100000 32) : FVec Ideal S256x64 .f32 :=
  broadcastInDim S256x64 ![0, 1] bcast_S256x1_S256x64_0_1 (maximumf (Host.scatterAdd scatter_S256x1_S100000x1_S100000x1_1_0_0_1 (broadcastInDim S256x1 ![] bcast_S_S256x1 (constant S_ .f32 0x00000000#32)) (broadcastInDim S100000x1 ![0] bcast_S100000_S100000x1_0 batch) (broadcastInDim S100000x1 ![] bcast_S_S100000x1 (constant S_ .f32 0x3F800000#32))) (broadcastInDim S256x1 ![] bcast_S_S256x1 (constant S_ .f32 0x3F800000#32)))

end

/-- Folding "add the update into the bin it names, skip it when it names none" over a list of updates that are all
    the word 1 leaves at bin g the start value plus the word of the number of updates that name g. -/
theorem foldl_bins {ι κ : Type} [DecidableEq ι] (tgt : κ → Option ι) (upd : κ → BitVec 32)
    (step : (ι → BitVec 32) → κ → ι → BitVec 32)
    (hsome : ∀ r n i, tgt n = some i → step r n = fun i' => if i' = i then IntOp.addi (r i) (upd n) else r i')
    (hnone : ∀ r n, tgt n = none → step r n = r)
    (hupd : ∀ n, upd n = 1#32) (l : List κ) (x : ι → BitVec 32) (g : ι) :
    l.foldl step x g = x g + BitVec.ofNat 32 (l.countP (fun n => decide (tgt n = some g))) := by
  induction l generalizing x with
  | nil => simp
  | cons n l ih =>
    rw [List.foldl_cons, ih, List.countP_cons]
    cases h : tgt n with
    | none =>
      rw [hnone _ _ h]
      simp
    | some i =>
      rw [hsome _ _ _ h]
      by_cases hg : g = i
      · subst hg
        simp only [if_pos rfl, hupd, IntOp.addi_eq_add, decide_true, if_true]
        rw [BitVec.ofNat_add, BitVec.add_assoc, BitVec.add_comm (BitVec.ofNat 32 _) (BitVec.ofNat 32 1)]
      · have hne : ¬ (some i = some g) := fun e => hg (Option.some.inj e).symm
        simp [hg, hne]

/-- Counting over the list of all numbers below m is counting over the finite type. -/
theorem countP_finRange (m : ℕ) (p : Fin m → Prop) [DecidablePred p] :
    (List.finRange m).countP (fun n => decide (p n)) = (Finset.univ.filter p).card := by
  rw [List.countP_eq_length_filter, Fin.univ_def]
  rfl

/-! ## The accumulating scatter of scalars into bins -/

/-- The dimension numbers of x.at[idx].add(u) for a vector of N bins, a column [R, 1] of scatter indices and R scalar
    updates: no window axis, the operand's one axis inserted and named by the scatter index. -/
abbrev putBinDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section bins

variable {N R w : Nat} (wf : ScatterDims.WF ⟨1, ![N]⟩ ⟨2, ![R, 1]⟩ ⟨1, ![R]⟩ [] [0] [0] 1)

/-- The window of update j starts at the scatter index of row j, read signed. -/
theorem putBin_start (j : (⟨1, ![R]⟩ : Shape).Idx) (idx : IVec ⟨2, ![R, 1]⟩ w) :
    (putBinDims N R wf).start j idx 0 = (idx (ix2 (⟨(j 0).val, (j 0).isLt⟩ : Fin R) (0 : Fin 1))).toInt := by
  unfold ScatterDims.start
  rw [dif_pos (show (0 : Fin 1) ∈ (putBinDims N R wf).scatterDimsToOperandDims from List.mem_singleton.mpr rfl)]
  have hsi : (putBinDims N R wf).siIdx j ⟨List.idxOf (0 : Fin 1) (putBinDims N R wf).scatterDimsToOperandDims,
      List.idxOf_lt_length_iff.2 (List.mem_singleton.mpr rfl)⟩ = ix2 (⟨(j 0).val, (j 0).isLt⟩ : Fin R) (0 : Fin 1) := by
    funext b; refine Fin.ext ?_
    match b with
    | ⟨0, _⟩ => rfl
    | ⟨1, _⟩ => rfl
  rw [hsi]

/-- The window is one element. -/
theorem putBin_window (j : (⟨1, ![R]⟩ : Shape).Idx) : (putBinDims N R wf).window j 0 = 0 := by
  unfold ScatterDims.window
  rw [dif_neg]
  simp [ScatterDims.sKept, Shape.kept, List.mem_filter, List.mem_finRange]

/-- Update j lands in bin i exactly when the scatter index of row j, read signed, is i's number. -/
theorem putBin_resultIdx?_eq_some_iff (j : (⟨1, ![R]⟩ : Shape).Idx) (idx : IVec ⟨2, ![R, 1]⟩ w)
    (i : (⟨1, ![N]⟩ : Shape).Idx) :
    (putBinDims N R wf).resultIdx? j idx = some i
      ↔ (idx (ix2 (⟨(j 0).val, (j 0).isLt⟩ : Fin R) (0 : Fin 1))).toInt = ((i 0).val : ℤ) := by
  have hi0 : (i 0).val < N := (i 0).isLt
  have hall : ∀ P : Fin 1 → Prop, (∀ a, P a) ↔ P 0 := fun P =>
    ⟨fun h => h 0, fun h a => by
      match a with
      | ⟨0, _⟩ => exact h⟩
  have hs0 : (⟨1, ![N]⟩ : Shape).size 0 = N := rfl
  unfold ScatterDims.resultIdx?
  by_cases h : ∀ a : Fin (⟨1, ![N]⟩ : Shape).rank, 0 ≤ (putBinDims N R wf).start j idx a + (putBinDims N R wf).window j a ∧
      (putBinDims N R wf).start j idx a + (putBinDims N R wf).window j a < (⟨1, ![N]⟩ : Shape).size a
  · rw [dif_pos h]
    have h0 := h 0
    rw [putBin_start, putBin_window] at h0
    constructor
    · intro he
      have e := Option.some.inj he
      have e0 := congrArg (fun k : (⟨1, ![N]⟩ : Shape).Idx => (k 0).val) e
      simp only [putBin_start, putBin_window] at e0
      omega
    · intro he0
      congr 1
      funext a
      refine Fin.ext ?_
      match a with
      | ⟨0, _⟩ =>
        show ((putBinDims N R wf).start j idx 0 + (putBinDims N R wf).window j 0).toNat = (i 0).val
        rw [putBin_start, putBin_window]
        omega
  · rw [dif_neg h]
    constructor
    · intro he; exact absurd he (by simp)
    · intro he0
      exfalso
      apply h
      rw [hall]
      rw [putBin_start, putBin_window, hs0]
      omega

end bins

/-- The integer scatter of ones into bins, read at bin g: the start value plus the word of the number of rows whose
    scatter index, read signed, is g. An index outside 0 … N - 1 names no bin and adds nothing. -/
theorem scatter_bins_apply {N R w : Nat} (wf : ScatterDims.WF ⟨1, ![N]⟩ ⟨2, ![R, 1]⟩ ⟨1, ![R]⟩ [] [0] [0] 1)
    (x : IVec ⟨1, ![N]⟩ 32) (idx : IVec ⟨2, ![R, 1]⟩ w) (upd : IVec ⟨1, ![R]⟩ 32) (hupd : ∀ j, upd j = 1#32) (g : Fin N) :
    Host.scatter (putBinDims N R wf) IntOp.addi x idx upd (ix1 g)
      = x (ix1 g) + BitVec.ofNat 32
          (Finset.univ.filter (fun n : Fin R => (idx (ix2 n (0 : Fin 1))).toInt = (g.val : ℤ))).card := by
  unfold Host.scatter
  refine (foldl_bins (fun n => (putBinDims N R wf).resultIdx? ((⟨1, ![R]⟩ : Shape).rowMajor.symm n) idx)
    (fun n => upd ((⟨1, ![R]⟩ : Shape).rowMajor.symm n)) _ ?_ ?_ (fun n => hupd _) _ x (ix1 g)).trans ?_
  · intro r n i h
    simp only [h]
  · intro r n h
    simp only [h]
  · congr 2
    rw [countP_finRange]
    refine Finset.card_nbij' (fun n => (⟨(((⟨1, ![R]⟩ : Shape).rowMajor.symm n) 0).val, (((⟨1, ![R]⟩ : Shape).rowMajor.symm n) 0).isLt⟩ : Fin R))
      (fun m => (⟨1, ![R]⟩ : Shape).rowMajor (ix1 m)) ?_ ?_ ?_ ?_
    · intro n hn
      have h := (Finset.mem_filter.1 hn).2
      rw [putBin_resultIdx?_eq_some_iff] at h
      exact Finset.mem_filter.2 ⟨Finset.mem_univ _, h⟩
    · intro m hm
      have h := (Finset.mem_filter.1 hm).2
      refine Finset.mem_filter.2 ⟨Finset.mem_univ _, ?_⟩
      rw [putBin_resultIdx?_eq_some_iff, Equiv.symm_apply_apply]
      exact h
    · intro n _
      have e : ix1 (⟨(((⟨1, ![R]⟩ : Shape).rowMajor.symm n) 0).val, (((⟨1, ![R]⟩ : Shape).rowMajor.symm n) 0).isLt⟩ : Fin R)
          = (⟨1, ![R]⟩ : Shape).rowMajor.symm n := by
        funext d
        match d with
        | ⟨0, _⟩ => rfl
      exact (congrArg (⟨1, ![R]⟩ : Shape).rowMajor e).trans (Equiv.apply_symm_apply _ n)
    · intro m _
      refine Fin.ext ?_
      show ((((⟨1, ![R]⟩ : Shape).rowMajor.symm ((⟨1, ![R]⟩ : Shape).rowMajor (ix1 m))) 0).val) = m.val
      rw [Equiv.symm_apply_apply]
      rfl

/-- A column broadcast along the rows reads, at (g, k), the column's entry g. -/
theorem colBroadcast_apply {α : Type} {A B : Nat} (h : (⟨2, ![A, 1]⟩ : Shape).BroadcastsInDim ⟨2, ![A, B]⟩ ![0, 1])
    (x : (⟨2, ![A, 1]⟩ : Shape).Idx → α) (g : Fin A) (k : Fin B) :
    broadcastInDim ⟨2, ![A, B]⟩ ![0, 1] h x (ix2 g k) = x (ix2 g (0 : Fin 1)) := by
  refine broadcastInDim_apply ![0, 1] h x (ix2 g k) (ix2 g (0 : Fin 1)) ?_
  intro a
  match a with
  | ⟨0, _⟩ =>
    show g.val = if A = 1 then 0 else g.val
    split
    · omega
    · rfl
  | ⟨1, _⟩ => rfl

/-- A vector laid out as a column reads, at row n, the vector's entry n. -/
theorem colOfVec_apply {α : Type} {R : Nat} (h : (⟨1, ![R]⟩ : Shape).BroadcastsInDim ⟨2, ![R, 1]⟩ ![0])
    (v : (⟨1, ![R]⟩ : Shape).Idx → α) (n : Fin R) :
    broadcastInDim ⟨2, ![R, 1]⟩ ![0] h v (ix2 n (0 : Fin 1)) = v (ix1 n) := by
  refine broadcastInDim_apply ![0] h v (ix2 n (0 : Fin 1)) (ix1 n) ?_
  intro a
  match a with
  | ⟨0, _⟩ =>
    show n.val = if R = 1 then 0 else n.val
    split
    · omega
    · rfl

/-- The number of nodes whose graph id, read signed, is g. -/
def nodesOf (batch : IVec ⟨1, ![100000]⟩ 32) (g : Fin 256) : ℕ :=
  (Finset.univ.filter (fun n : Fin 100000 => (batch (ix1 n)).toInt = (g.val : ℤ))).card

/-- There are fewer than 2³¹ of them. -/
theorem nodesOf_lt (batch : IVec ⟨1, ![100000]⟩ 32) (g : Fin 256) : nodesOf batch g < 2 ^ 31 := by
  have h : nodesOf batch g ≤ 100000 := by
    unfold nodesOf
    refine (Finset.card_filter_le _ _).trans ?_
    rw [Finset.card_univ, Fintype.card_fin]
  omega

/-! ## The kernel's program's divisor -/

section
open Cert.KernelIdeal Cert.KernelIdeal.Facts₀ Cert.KernelIdeal.Facts

/-- A word that is not negative is not below zero in the signed order. -/
theorem not_slt_zero {b : BitVec 32} (h : 0 ≤ b.toInt) : b.slt 0#32 = false := by
  simp only [BitVec.slt, BitVec.toInt_zero, decide_eq_false_iff_not, not_lt]
  exact h

/-- With every id non-negative the clip at zero changes nothing. -/
theorem clipped_eq (batch : IVec S100000 32) (hb : ∀ i, 0 ≤ (batch i).toInt) : clipped batch = batch := by
  funext i
  show IntOp.maxsi (0#32) (batch i) = batch i
  unfold IntOp.maxsi
  rw [not_slt_zero (hb i)]
  rfl

/-- With every id non-negative the wrap of negative ids never fires. -/
theorem wrapped_eq (v : IVec S100000 32) (hv : ∀ i, 0 ≤ (v i).toInt) :
    select (cmpi .slt v (broadcastInDim S100000 ![] bcast_S_S100000 (constantI S_ 32 0#32)))
      (addi v (broadcastInDim S100000 ![] bcast_S_S100000 (constantI S_ 32 256#32))) v = v := by
  funext i
  rw [select_apply]
  have hc : cmpi .slt v (broadcastInDim S100000 ![] bcast_S_S100000 (constantI S_ 32 0#32)) i = 0#1 := by
    show IntOp.cmpi .slt (v i) 0#32 = 0#1
    unfold IntOp.cmpi
    show BitVec.ofBool ((v i).slt 0#32) = 0#1
    rw [not_slt_zero (hv i)]
    rfl
  rw [hc, select_zero]

end

section
open Cert.KernelIdeal Cert.KernelIdeal.Facts₀ Cert.KernelIdeal.Facts

/-- The kernel's program's divisor at (g, k): the larger of the number of nodes of graph g and one. -/
theorem divisorK_apply (v : IVec S100000 32) (hv : ∀ i, 0 ≤ (v i).toInt) (g : Fin 256) (k : Fin 64) :
    divisorK v (ix2 g k) = max (((nodesOf v g : ℕ) : ℝ) : EReal) 1 := by
  unfold divisorK
  rw [wrapped_eq v hv]
  refine (colBroadcast_apply bcast_S256x1_S256x64_0_1 _ g k).trans ?_
  refine (shapeCast_apply _ shapeCasts_S256_S256x1 (ix2 g (0 : Fin 1)) (ix1 g) ?_).trans ?_
  · rw [Shape.rowMajor_val_one, Shape.rowMajor_val_two]
    show g.val = g.val * 1 + 0
    omega
  rw [maximumf_apply, sitofp_apply]
  have hrec : scatter_S256_S100000x1_S100000_n_0_0_1 = putBinDims 256 100000 scatter_S256_S100000x1_S100000_n_0_0_1_wf := rfl
  have hup : ∀ j, broadcastInDim S100000 ![] bcast_S_S100000 (constantI S_ 32 1#32) j = 1#32 := fun _ => rfl
  rw [hrec, scatter_bins_apply _ _ _ _ hup g]
  have hcount : (Finset.univ.filter (fun n : Fin 100000 =>
      (broadcastInDim S100000x1 ![0] bcast_S100000_S100000x1_0 v (ix2 n (0 : Fin 1))).toInt = (g.val : ℤ))).card = nodesOf v g := by
    unfold nodesOf
    exact congrArg Finset.card (Finset.filter_congr fun n _ => by rw [colOfVec_apply])
  rw [hcount]
  have hz : broadcastInDim S256 ![] bcast_S_S256 (constantI S_ 32 0#32) (ix1 g) = 0#32 := rfl
  have ho : broadcastInDim S256 ![] bcast_S_S256 (constant (F := Ideal) S_ .f32 0x3F800000#32) (ix1 g) = 1 :=
    Cert.Lib.ERealScale.ofBits_one_f32
  rw [hz, ho, BitVec.zero_add, Cert.Lib.HostSums.sitofp_ofNat_of_lt (nodesOf_lt v g)]

end

/-! ## The reference's divisor -/

section
open Cert.ReferenceIdeal Cert.ReferenceIdeal.Facts₀ Cert.ReferenceIdeal.Facts

/-- The reference's divisor at (g, k): the larger of the number of nodes of graph g and one. -/
theorem divisorR_apply (batch : IVec S100000 32) (g : Fin 256) (k : Fin 64) :
    divisorR batch (ix2 g k) = max (((nodesOf batch g : ℕ) : ℝ) : EReal) 1 := by
  unfold divisorR
  refine (colBroadcast_apply bcast_S256x1_S256x64_0_1 _ g k).trans ?_
  rw [maximumf_apply]
  have hsa : ∀ (x : FVec Ideal S256x1 .f32) (idx : IVec S100000x1 32) (upd : FVec Ideal S100000x1 .f32),
      Host.scatterAdd scatter_S256x1_S100000x1_S100000x1_1_0_0_1 x idx upd
        = Ideal.hostScatterAdd
            (Cert.Lib.RowScatter.putRowDims 256 100000 1 scatter_S256x1_S100000x1_S100000x1_1_0_0_1_wf) x idx upd :=
    fun _ _ _ => rfl
  rw [hsa, Cert.Lib.RowScatter.hostScatterAdd_rows_apply]
  have hx : broadcastInDim S256x1 ![] bcast_S_S256x1 (constant (F := Ideal) S_ .f32 0x00000000#32) (ix2 g (0 : Fin 1)) = 0 :=
    Ideal.ofBits_zero_f32
  have ho : broadcastInDim S256x1 ![] bcast_S_S256x1 (constant (F := Ideal) S_ .f32 0x3F800000#32) (ix2 g (0 : Fin 1)) = 1 :=
    Cert.Lib.ERealScale.ofBits_one_f32
  have hu : ∀ n : Fin 100000,
      broadcastInDim S100000x1 ![] bcast_S_S100000x1 (constant (F := Ideal) S_ .f32 0x3F800000#32) (ix2 n (0 : Fin 1)) = 1 :=
    fun _ => Cert.Lib.ERealScale.ofBits_one_f32
  rw [hx, ho, zero_add]
  refine congrArg (fun c : EReal => max c 1) ?_
  unfold nodesOf
  rw [← Cert.Lib.ERealScale.sum_ite_one]
  refine Finset.sum_congr rfl fun n _ => ?_
  rw [colOfVec_apply, hu]

end

/-- With every graph id non-negative the two divisors are one array. -/
theorem divisor_eq (batch : IVec Cert.KernelIdeal.S100000 32) (hb : ∀ i, 0 ≤ (batch i).toInt) :
    divisorK (clipped batch) = divisorR batch := by
  rw [clipped_eq batch hb]
  funext j
  obtain ⟨g, k, rfl⟩ : ∃ (g : Fin 256) (k : Fin 64), j = ix2 g k := ⟨j 0, j 1, eq_ix2 j⟩
  rw [divisorK_apply batch hb, divisorR_apply]

end Cert.Counts

end
-- ==== Proof.Bridge.lean ====
/-
  The two programs' results are one function of the arguments when every graph id is non-negative.

  The reference computes: the aggregated neighbour features; the two-layer perceptron of x plus them; those rows summed by
  graph id; that divided by max (nodes per graph, 1); the classifier. The kernel's program computes the same stages, the
  perceptron and the sum in its two pallas_calls, and differs in spelling only: a bias vector reshaped to a row where the
  reference broadcasts it to a row, the ids reshaped to a column where the reference broadcasts them to a column, and the
  counts taken with integers after a clip at zero, which is where the ids' sign matters.
-/
import proofs.«416541_j73967926772095_1_alg».proof.Proof.KITail
import proofs.«416541_j73967926772095_1_alg».proof.Proof.KIHead
import proofs.«416541_j73967926772095_1_alg».proof.Proof.RefValue
import proofs.«416541_j73967926772095_1_alg».proof.Proof.Counts
import proofs.«416541_j73967926772095_1_alg».proof.Proof.LibUnitAxis
import proofs.«416541_j73967926772095_1_alg».proof.Proof.Spec

set_option maxRecDepth 16384

noncomputable section

namespace Cert.Bridge

open Idealize.ShloMosaic Idealize.ShloMosaic.ValueIdx Cert.Spec
open Cert.ReferenceIdeal Cert.ReferenceIdeal.Facts₀ Cert.ReferenceIdeal.Facts

/-- The reference's result in its stages: the classifier applied to the pooled sums over the divisor. The aggregated
    neighbour features are the same host operations in both programs, so one name serves both. -/
def refResult (x : FVec Ideal S100000x128 .f32) (ei : IVec S2x640000 32) (batch : IVec S100000 32) (W1 : FVec Ideal S128x64 .f32)
    (b1 : FVec Ideal S64 .f32) (W2 : FVec Ideal S64x64 .f32) (b2 : FVec Ideal S64 .f32) (Wc : FVec Ideal S64x2 .f32)
    (bc : FVec Ideal S2 .f32) : FVec Ideal S256x2 .f32 :=
  addf
    (Host.dotGeneral dot_S256x64_S64x2_S256x2_1_0_0_1_n_n none
      (Host.divf
        (Cert.ReferenceIdeal.RefValue.sumsTerm (broadcastInDim S100000x1 ![0] bcast_S100000_S100000x1_0 batch)
          (Cert.ReferenceIdeal.RefValue.hiddenTerm x (Cert.KernelIdeal.Head.aggK x ei) W1 b1 W2 b2))
        (Cert.Counts.divisorR batch))
      Wc)
    (broadcastInDim S256x2 ![0, 1] bcast_S1x2_S256x2_0_1 (broadcastInDim S1x2 ![1] bcast_S2_S1x2_1 bc))

/-- The perceptron's rows as the kernel's program has them: the biases reshaped to rows. -/
def hiddenK (x : FVec Ideal S100000x128 .f32) (ei : IVec S2x640000 32) (W1 : FVec Ideal S128x64 .f32) (b1 : FVec Ideal S64 .f32)
    (W2 : FVec Ideal S64x64 .f32) (b2 : FVec Ideal S64 .f32) : Mat 100000 64 :=
  hidden x (Cert.KernelIdeal.Head.aggK x ei) W1 (shapeCast Cert.KernelIdeal.S1x64 b1 Cert.KernelIdeal.Gen.shapeCasts_S64_S1x64) W2
    (shapeCast Cert.KernelIdeal.S1x64 b2 Cert.KernelIdeal.Gen.shapeCasts_S64_S1x64)

/-- The kernel's program's result in the same variables. -/
def kernelResult (x : FVec Ideal S100000x128 .f32) (ei : IVec S2x640000 32) (batch : IVec S100000 32) (W1 : FVec Ideal S128x64 .f32)
    (b1 : FVec Ideal S64 .f32) (W2 : FVec Ideal S64x64 .f32) (b2 : FVec Ideal S64 .f32) (Wc : FVec Ideal S64x2 .f32)
    (bc : FVec Ideal S2 .f32) : FVec Ideal S256x2 .f32 :=
  Cert.KernelIdeal.Tail.finishK
    (segSum (shapeCast Cert.KernelIdeal.S100000x1 batch Cert.KernelIdeal.Gen.shapeCasts_S100000_S100000x1) (hiddenK x ei W1 b1 W2 b2))
    (broadcastInDim Cert.KernelIdeal.S256 ![] Cert.KernelIdeal.Gen.bcast_S_S256 (constantI Cert.KernelIdeal.S_ 32 0#32))
    (maxsi (broadcastInDim Cert.KernelIdeal.S100000 ![] Cert.KernelIdeal.Gen.bcast_S_S100000 (constantI Cert.KernelIdeal.S_ 32 0#32)) batch)
    Wc bc

/-- A bias vector reshaped to a row is the vector broadcast to a row. -/
theorem bias_row (b : FVec Ideal S64 .f32) :
    shapeCast Cert.KernelIdeal.S1x64 b Cert.KernelIdeal.Gen.shapeCasts_S64_S1x64 = broadcastInDim S1x64 ![1] bcast_S64_S1x64_1 b :=
  Cert.Lib.UnitAxis.reshape_row_eq_broadcastInDim b _ _

/-- The ids reshaped to a column are the ids broadcast to a column. -/
theorem id_col (batch : IVec S100000 32) :
    shapeCast Cert.KernelIdeal.S100000x1 batch Cert.KernelIdeal.Gen.shapeCasts_S100000_S100000x1
      = broadcastInDim S100000x1 ![0] bcast_S100000_S100000x1_0 batch :=
  Cert.Lib.UnitAxis.reshape_col_eq_broadcastInDim batch _ _

/-- The reference's perceptron rows are the kernel's. -/
theorem hidden_eq (x : FVec Ideal S100000x128 .f32) (ei : IVec S2x640000 32) (W1 : FVec Ideal S128x64 .f32) (b1 : FVec Ideal S64 .f32)
    (W2 : FVec Ideal S64x64 .f32) (b2 : FVec Ideal S64 .f32) :
    Cert.ReferenceIdeal.RefValue.hiddenTerm x (Cert.KernelIdeal.Head.aggK x ei) W1 b1 W2 b2 = hiddenK x ei W1 b1 W2 b2 := by
  unfold hiddenK
  rw [Cert.ReferenceIdeal.RefValue.hiddenTerm_eq, bias_row, bias_row]

/-- The reference's pooled sums are the kernel's. -/
theorem sums_eq (x : FVec Ideal S100000x128 .f32) (ei : IVec S2x640000 32) (batch : IVec S100000 32) (W1 : FVec Ideal S128x64 .f32)
    (b1 : FVec Ideal S64 .f32) (W2 : FVec Ideal S64x64 .f32) (b2 : FVec Ideal S64 .f32) :
    Cert.ReferenceIdeal.RefValue.sumsTerm (broadcastInDim S100000x1 ![0] bcast_S100000_S100000x1_0 batch)
        (Cert.ReferenceIdeal.RefValue.hiddenTerm x (Cert.KernelIdeal.Head.aggK x ei) W1 b1 W2 b2)
      = segSum (shapeCast Cert.KernelIdeal.S100000x1 batch Cert.KernelIdeal.Gen.shapeCasts_S100000_S100000x1) (hiddenK x ei W1 b1 W2 b2) := by
  rw [Cert.ReferenceIdeal.RefValue.sumsTerm_eq, hidden_eq, id_col]

/-- With every graph id non-negative the two results are equal: the sums agree, the divisors agree, and the classifier is the
    same host operations on both sides. -/
theorem result_eq (x : FVec Ideal S100000x128 .f32) (ei : IVec S2x640000 32) (batch : IVec S100000 32) (W1 : FVec Ideal S128x64 .f32)
    (b1 : FVec Ideal S64 .f32) (W2 : FVec Ideal S64x64 .f32) (b2 : FVec Ideal S64 .f32) (Wc : FVec Ideal S64x2 .f32)
    (bc : FVec Ideal S2 .f32) (hb : ∀ i, 0 ≤ (batch i).toInt) :
    refResult x ei batch W1 b1 W2 b2 Wc bc = kernelResult x ei batch W1 b1 W2 b2 Wc bc := by
  unfold refResult
  rw [sums_eq, ← Cert.Counts.divisor_eq batch hb]
  rfl

end Cert.Bridge

end
-- ==== Proof.LibPreDecode.lean ====
/-
  Reading a printed precondition back. The predicate is a conjunction of one-bit scalars, each the "all" of an array
  of comparison bits. A conjunction that is one has both conjuncts one; an "all" that is one has every bit one; the
  bit of `|x| < +∞` being one says that the extended real `x` is a real number; the bit of a signed comparison of a
  word with a constant being one is the inequality between their signed values.
-/
import Idealize.ShloMosaic.Lib.ReduceAll
import Idealize.ShloMosaic.PureOps.Ideal

namespace Cert.PreDecode

open Idealize.ShloMosaic

variable {s u : Shape} {ax : List (Fin s.rank)}

/-- The shape of a scalar has exactly one index. -/
instance scalarIdxSubsingleton : Subsingleton (⟨0, ![]⟩ : Shape).Idx := ⟨fun _ _ => funext fun d => d.elim0⟩

/-- If the elementwise `and` of two one-bit arrays is one everywhere, the first array is one everywhere. -/
theorem andi_left {a b : IVec s 1} (h : andi a b = fun _ => 1#1) : a = fun _ => 1#1 :=
  funext fun i => (IntOp.andi_eq_one.1 (congrFun h i)).1

/-- If the elementwise `and` of two one-bit arrays is one everywhere, the second array is one everywhere. -/
theorem andi_right {a b : IVec s 1} (h : andi a b = fun _ => 1#1) : b = fun _ => 1#1 :=
  funext fun i => (IntOp.andi_eq_one.1 (congrFun h i)).2

/-- An "all" (a reduction by `and` over every axis, down to a scalar) that is one: every bit reduced is one. -/
theorem all_of_reduce (p : IVec s 1) (init : IVec u 1) (hr : s.ReducesTo ax ⟨0, ![]⟩) (hu : 0 < u.numel)
    (h : Host.reduce IntOp.andi p init hr hu = fun _ => 1#1) (i : s.Idx) : p i = 1#1 :=
  Host.reduce_andi_all p init hr hu (fun a => a.elim0) (congrFun h _) i

/-- An extended real whose absolute value `max x (-x)` is below `+∞` (the value of the pattern `0x7F800000`) is a real
    number: both infinities have absolute value `+∞`. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The finiteness test of a float array, `all (|x| < +∞)`, came out one: every entry of `x` is a real number. -/
theorem allReal_of_reduce (x : FVec Ideal s .f32) (hb : (⟨0, ![]⟩ : Shape).BroadcastsInDim s ![]) (init : IVec u 1)
    (hr : s.ReducesTo ax ⟨0, ![]⟩) (hu : 0 < u.numel)
    (h : Host.reduce IntOp.andi
        (cmpf .olt (Host.absf x) (broadcastInDim s ![] hb (constant (F := Ideal) ⟨0, ![]⟩ .f32 0x7F800000#32))) init hr hu
      = fun _ => 1#1) (i : s.Idx) : ∃ r : ℝ, x i = (r : EReal) :=
  real_of_abs_lt_inf (x i) (all_of_reduce _ init hr hu h i)

/-- `all (x ≥ c)`, signed, for a constant word `c`, came out one: every word of `x` is at least `c`. -/
theorem sge_of_reduce (x : IVec s 32) (c : BitVec 32) (hb : (⟨0, ![]⟩ : Shape).BroadcastsInDim s ![]) (init : IVec u 1)
    (hr : s.ReducesTo ax ⟨0, ![]⟩) (hu : 0 < u.numel)
    (h : Host.reduce IntOp.andi (cmpi .sge x (broadcastInDim s ![] hb (constantI ⟨0, ![]⟩ 32 c))) init hr hu
      = fun _ => 1#1) (i : s.Idx) : c.toInt ≤ (x i).toInt :=
  IntOp.cmpi_sge.1 (all_of_reduce _ init hr hu h i)

/-- `all (x < c)`, signed, for a constant word `c`, came out one: every word of `x` is below `c`. -/
theorem slt_of_reduce (x : IVec s 32) (c : BitVec 32) (hb : (⟨0, ![]⟩ : Shape).BroadcastsInDim s ![]) (init : IVec u 1)
    (hr : s.ReducesTo ax ⟨0, ![]⟩) (hu : 0 < u.numel)
    (h : Host.reduce IntOp.andi (cmpi .slt x (broadcastInDim s ![] hb (constantI ⟨0, ![]⟩ 32 c))) init hr hu
      = fun _ => 1#1) (i : s.Idx) : (x i).toInt < c.toInt :=
  IntOp.cmpi_slt.1 (all_of_reduce _ init hr hu h i)

end Cert.PreDecode
-- ==== Proof.PreBatch.lean ====
/-
  What the precondition says about the graph ids: it is the conjunction of "every float input is finite" and "every graph id
  is at least 0", the last conjunct an all-reduction of a signed compare against zero. So under it every id, read as a signed
  integer, is non-negative.
-/
import proofs.«416541_j73967926772095_1_alg».proof.Proof.Gen.Pre_finite_inputs
import proofs.«416541_j73967926772095_1_alg».proof.Proof.LibPreDecode

noncomputable section

namespace Cert.PreBatch

open Cert.Pre_finite_inputs Cert.Pre_finite_inputs.Facts
open Idealize.ShloMosaic

variable {F : FTy → Type} [FloatOps F]

/-- Under the precondition every graph id is non-negative. -/
theorem nonneg_of_fn (a0 : FVec F S100000x128 .f32) (a1 : IVec S2x640000 32) (a2 : IVec S100000 32) (a3 : FVec F S128x64 .f32)
    (a4 : FVec F S64 .f32) (a5 : FVec F S64x64 .f32) (a6 : FVec F S64 .f32) (a7 : FVec F S64x2 .f32) (a8 : FVec F S2 .f32)
    (h : fn (F := F) a0 a1 a2 a3 a4 a5 a6 a7 a8 = fun _ => 1#1) (i : S100000.Idx) : 0 ≤ (a2 i).toInt := by
  unfold fn fn_part1 fn_part2 at h
  dsimp only at h
  have h2 := Cert.PreDecode.andi_right h
  have h3 := Cert.PreDecode.sge_of_reduce a2 0#32 bcast_S_S100000 _ reducesTo_S100000_S_d0 h_S_ h2 i
  simpa using h3

end Cert.PreBatch

end
-- ==== Proof.lean ====
/-
  A graph network's forward pass, a Pallas kernel program against its jnp reference, over the extended reals.

  Both programs compute, for 100000 nodes in 256 graphs: the sum of each node's neighbours' features (the same host gather
  and scatter-add in both); relu (relu ((x + that) W1 + b1) W2 + b2) row by row; the rows summed per graph; that sum divided
  by max (the graph's node count, 1); a linear classifier. The kernel program does the perceptron in one pallas_call, twenty
  blocks of 5000 rows, and the per-graph sum in a second, accumulating a one-hot matrix product block by block in a scratch
  buffer; it counts the nodes per graph with integers after clipping the ids at zero, where the reference drops an id that
  names no graph. Over the extended reals a change of float format is the identity and sums may be regrouped freely, so the
  two results are equal entry by entry as soon as no graph id is negative, which the precondition states.

  The three frames: each kernel program's run is the chain of its host stretches and its two pallas_calls, each call's body run
  point by point; the reference's is its host operations read back. The idealization rewrote nothing, so `preserves` is trivial.
-/
import proofs.«416541_j73967926772095_1_alg».proof.Defs
import proofs.«416541_j73967926772095_1_alg».proof.Proof.Gen.Kernel
import proofs.«416541_j73967926772095_1_alg».proof.Proof.Gen.KernelIdeal
import proofs.«416541_j73967926772095_1_alg».proof.Proof.Gen.ReferenceIdeal
import proofs.«416541_j73967926772095_1_alg».proof.Proof.Gen.ReferenceIdeal.Run
import proofs.«416541_j73967926772095_1_alg».proof.Proof.Gen.Pre_finite_inputs
import proofs.«416541_j73967926772095_1_alg».proof.Proof.KRun
import proofs.«416541_j73967926772095_1_alg».proof.Proof.KIRun
import proofs.«416541_j73967926772095_1_alg».proof.Proof.KIRunAll
import proofs.«416541_j73967926772095_1_alg».proof.Proof.KIValue
import proofs.«416541_j73967926772095_1_alg».proof.Proof.Bridge
import proofs.«416541_j73967926772095_1_alg».proof.Proof.PreBatch
import Idealize.ShloMosaic.Adequacy
import Idealize.ShloMosaic.Init

set_option maxRecDepth 16384

noncomputable section

namespace Cert.Proof

open Idealize.ShloMosaic Idealize.ShloMosaic.TcCoe Idealize.SL.Sem

/-! ## The frames and the idealization -/

theorem frame_k : Cert.frame_Kernel := fun m ρ _ => Cert.Kernel.Whole.frame m ρ
theorem frame_ki : Cert.frame_KernelIdeal := fun m ρ _ => Cert.KernelIdeal.Whole.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-! ## The idealized kernel program's result -/

section
open Cert.KernelIdeal Cert.KernelIdeal.Gen

/-- The kernel program's result on core `c`, as a function of the launch contents of its arguments. -/
def kernelOut (m : (ℓ : Loc nD τ sig) → Buf (Elt Ideal) ℓ) (c : Dev nD) : Buf (Elt Ideal) ((c.tc : Thread nD τ).loc main_v38) :=
  Cert.Bridge.kernelResult (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The idealized kernel program runs, ends with its result buffer at `kernelOut` and its arguments as launched. -/
theorem run_ki (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨((h c _ (mem_uc main_v38 (by decide))).trans (Cert.KernelIdeal.Result.result m c)).trans rfl,
      (h c _ (mem_uc main_arg0 (by decide))).trans (V7_main_arg0 m (Cert.KernelIdeal.Whole.outs m) c),
      (h c _ (mem_uc main_arg1 (by decide))).trans (V7_main_arg1 m (Cert.KernelIdeal.Whole.outs m) c),
      (h c _ (mem_uc main_arg2 (by decide))).trans (V7_main_arg2 m (Cert.KernelIdeal.Whole.outs m) c),
      (h c _ (mem_uc main_arg3 (by decide))).trans (V7_main_arg3 m (Cert.KernelIdeal.Whole.outs m) c),
      (h c _ (mem_uc main_arg4 (by decide))).trans (V7_main_arg4 m (Cert.KernelIdeal.Whole.outs m) c),
      (h c _ (mem_uc main_arg5 (by decide))).trans (V7_main_arg5 m (Cert.KernelIdeal.Whole.outs m) c),
      (h c _ (mem_uc main_arg6 (by decide))).trans (V7_main_arg6 m (Cert.KernelIdeal.Whole.outs m) c),
      (h c _ (mem_uc main_arg7 (by decide))).trans (V7_main_arg7 m (Cert.KernelIdeal.Whole.outs m) c),
      (h c _ (mem_uc main_arg8 (by decide))).trans (V7_main_arg8 m (Cert.KernelIdeal.Whole.outs m) c)⟩)
    (Cert.KernelIdeal.Whole.run_all (F := Ideal) m ρ)

end

/-! ## The two idealized programs agree -/

/-- From memories agreeing on the arguments both programs run and end with equal results: the kernel program's result is
    `kernelOut`; the reference's, read back by its run, is the same function of the arguments once no graph id is negative. -/
theorem algebraic : Cert.algebraic_KernelIdeal_ReferenceIdeal := by
  intro m ρ m' ρ' hpre hagree
  refine ⟨fun c => kernelOut m c, run_ki m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [h0, h1, h2, h3, h4, h5, h6, h7, h8]
  exact (show _ = Cert.Bridge.refResult _ _ _ _ _ _ _ _ _ from rfl).trans
    (Cert.Bridge.result_eq _ _ _ _ _ _ _ _ _ (Cert.PreBatch.nonneg_of_fn _ _ _ _ _ _ _ _ _ (hpre c)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
